-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x4096 : Shape := ⟨2, ![512, 4096]⟩
abbrev S4096x1 : Shape := ⟨2, ![4096, 1]⟩
abbrev S2048x1 : Shape := ⟨2, ![2048, 1]⟩
abbrev S32x4096 : Shape := ⟨2, ![32, 4096]⟩
abbrev S32 : Shape := ⟨1, ![32]⟩
abbrev S4096 : Shape := ⟨1, ![4096]⟩
abbrev S_ : Shape := ⟨0, ![]⟩
abbrev S32x1 : Shape := ⟨2, ![32, 1]⟩
abbrev S1x32 : Shape := ⟨2, ![1, 32]⟩
abbrev S32x32 : Shape := ⟨2, ![32, 32]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S32 : S_.BroadcastsInDim S32 (![] : Fin 0 → Fin S32.rank)
  reducesTo_S32_S_d0 : S32.ReducesTo [0] S_
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S32x32_S_d0_1 : S32x32.ReducesTo [0, 1] S_

variable [Facts]

def fn_part2 {F : FTy → Type} [FloatOps F] (main_v25 : IVec S_ 1) (main_v35 : IVec S_ 1) : IVec S_ 1 :=
  let main_v36 : IVec S_ 1 := andi main_v25 main_v35
  main_v36

def fn_part1 {F : FTy → Type} [FloatOps F] (main_arg5 : IVec S32 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S32 32 := broadcastInDim S32 ![] bcast_S_S32 main_c_6
  let main_v20 : IVec S32 1 := cmpi .sge main_arg5 main_v19
  let main_c_7 : IVec S_ 32 := constantI S_ 32 4096#32
  let main_v21 : IVec S32 32 := broadcastInDim S32 ![] bcast_S_S32 main_c_7
  let main_v22 : IVec S32 1 := cmpi .slt main_arg5 main_v21
  let main_v23 : IVec S32 1 := andi main_v20 main_v22
  let main_c_8 : IVec S_ 1 := constantI S_ 1 1#1
  let main_v24 : IVec S_ 1 := (fun x v => Host.reduce IntOp.andi x v reducesTo_S32_S_d0 h_S_) main_v23 main_c_8
  let main_v25 : IVec S_ 1 := andi main_v18 main_v24
  let main_v26 : IVec S32x1 32 := broadcastInDim S32x1 ![0] bcast_S32_S32x1_0 main_arg5
  let main_v27 : IVec S1x32 32 := broadcastInDim S1x32 ![1] bcast_S32_S1x32_1 main_arg5
  let main_v28 : IVec S32x32 32 := broadcastInDim S32x32 ![0, 1] bcast_S32x1_S32x32_0_1 main_v26
  let main_v29 : IVec S32x32 32 := broadcastInDim S32x32 ![0, 1] bcast_S1x32_S32x32_0_1 main_v27
  let main_v30 : IVec S32x32 1 := cmpi .ne main_v28 main_v29
  let main_v31 : IVec S32x32 32 := iotaInDim S32x32 32 0
  let main_v32 : IVec S32x32 32 := iotaInDim S32x32 32 1
  let main_v33 : IVec S32x32 1 := cmpi .eq main_v31 main_v32
  let main_v34 : IVec S32x32 1 := ori main_v30 main_v33
  let main_c_9 : IVec S_ 1 := constantI S_ 1 1#1
  let main_v35 : IVec S_ 1 := (fun x v => Host.reduce IntOp.andi x v reducesTo_S32x32_S_d0_1 h_S_) main_v34 main_c_9
  fn_part2 (F := F) main_v25 main_v35

def fn {F : FTy → Type} [FloatOps F] (main_arg0 : FVec F S4x2048x4096 .f32) (main_arg1 : IVec S512x4096 32) (main_arg2 : FVec F S4096x1 .f32) (main_arg3 : IVec S2048x1 32) (main_arg4 : FVec F S32x4096 .f32) (main_arg5 : IVec S32 32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S32x4096 .f32 := Host.absf main_arg4
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4x2048x4096 : Shape := ⟨3, ![4, 2048, 4096]⟩
abbrev S512x4096 : Shape := ⟨2, ![512, 4096]⟩
abbrev S4096x1 : Shape := ⟨2, ![4096, 1]⟩
abbrev S2048x1 : Shape := ⟨2, ![2048, 1]⟩
abbrev S32x4096 : Shape := ⟨2, ![32, 4096]⟩
abbrev S32 : Shape := ⟨1, ![32]⟩
abbrev S4096 : Shape := ⟨1, ![4096]⟩
abbrev S2048 : Shape := ⟨1, ![2048]⟩
abbrev S_ : Shape := ⟨0, ![]⟩
abbrev S2048x2 : Shape := ⟨2, ![2048, 2]⟩
abbrev S1x4096 : Shape := ⟨2, ![1, 4096]⟩
abbrev S1x32 : Shape := ⟨2, ![1, 32]⟩
abbrev S4096x32 : Shape := ⟨2, ![4096, 32]⟩
abbrev S4096x4096 : Shape := ⟨2, ![4096, 4096]⟩
abbrev S512x512 : Shape := ⟨2, ![512, 512]⟩
abbrev S1x512 : Shape := ⟨2, ![1, 512]⟩
abbrev S4096x512 : Shape := ⟨2, ![4096, 512]⟩
abbrev S512x1x512 : Shape := ⟨3, ![512, 1, 512]⟩
abbrev S512x8x512 : Shape := ⟨3, ![512, 8, 512]⟩
abbrev S8192x4096 : Shape := ⟨2, ![8192, 4096]⟩
abbrev S32x1 : Shape := ⟨2, ![32, 1]⟩
abbrev S1 : Shape := ⟨1, ![1]⟩
abbrev S1x1 : Shape := ⟨2, ![1, 1]⟩
abbrev S8192x32 : Shape := ⟨2, ![8192, 32]⟩
abbrev S1024x512 : Shape := ⟨2, ![1024, 512]⟩
abbrev S512x2048 : Shape := ⟨2, ![512, 2048]⟩
abbrev S1x2048 : Shape := ⟨2, ![1, 2048]⟩
abbrev S1024x32 : Shape := ⟨2, ![1024, 32]⟩
abbrev S32x2048 : Shape := ⟨2, ![32, 2048]⟩
abbrev S1024x2048 : Shape := ⟨2, ![1024, 2048]⟩

abbrev nBuf : Space → Nat
  | .hbm => 68
  | .vmem => 22
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S4096x1, .f32⟩
  | .hbm, ⟨3, _⟩ => ⟨S2048x1, .i32⟩
  | .hbm, ⟨4, _⟩ => ⟨S32x4096, .f32⟩
  | .hbm, ⟨5, _⟩ => ⟨S32, .i32⟩
  | .hbm, ⟨6, _⟩ => ⟨S4096, .f32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1, .i32⟩
  | .hbm, ⟨19, _⟩ => ⟨S2048x2, .i32⟩
  | .hbm, ⟨20, _⟩ => ⟨S4096, .i32⟩
  | .hbm, ⟨21, _⟩ => ⟨S4096, .f32⟩
  | .hbm, ⟨22, _⟩ => ⟨S1x4096, .i32⟩
  | .hbm, ⟨23, _⟩ => ⟨S1x4096, .f32⟩
  | .hbm, ⟨24, _⟩ => ⟨S1x4096, .f32⟩
  | .hbm, ⟨25, _⟩ => ⟨S4096x1, .i32⟩
  | .hbm, ⟨26, _⟩ => ⟨S1x32, .i32⟩
  | .hbm, ⟨27, _⟩ => ⟨S4096x32, .i32⟩
  | .hbm, ⟨28, _⟩ => ⟨S4096x32, .i32⟩
  | .hbm, ⟨29, _⟩ => ⟨S4096x32, .i1⟩
  | .hbm, ⟨30, _⟩ => ⟨S_, .i1⟩
  | .hbm, ⟨31, _⟩ => ⟨S4096, .i1⟩
  | .hbm, ⟨32, _⟩ => ⟨S4096x1, .i1⟩
  | .hbm, ⟨33, _⟩ => ⟨S_, .bf16⟩
  | .hbm, ⟨34, _⟩ => ⟨S_, .bf16⟩
  | .hbm, ⟨35, _⟩ => ⟨S4096x1, .bf16⟩
  | .hbm, ⟨36, _⟩ => ⟨S4096x1, .bf16⟩
  | .hbm, ⟨37, _⟩ => ⟨S4096x1, .bf16⟩
  | .hbm, ⟨38, _⟩ => ⟨S4096x4096, .bf16⟩
  | .hbm, ⟨39, _⟩ => ⟨S8192x4096, .f32⟩
  | .hbm, ⟨40, _⟩ => ⟨S1x4096, .f32⟩
  | .hbm, ⟨41, _⟩ => ⟨S_, .i32⟩
  | .hbm, ⟨42, _⟩ => ⟨S32, .i32⟩
  | .hbm, ⟨43, _⟩ => ⟨S32, .i1⟩
  | .hbm, ⟨44, _⟩ => ⟨S_, .i32⟩
  | .hbm, ⟨45, _⟩ => ⟨S32, .i32⟩
  | .hbm, ⟨46, _⟩ => ⟨S32, .i32⟩
  | .hbm, ⟨47, _⟩ => ⟨S32, .i32⟩
  | .hbm, ⟨48, _⟩ => ⟨S32x1, .i32⟩
  | .hbm, ⟨49, _⟩ => ⟨S1, .i32⟩
  | .hbm, ⟨50, _⟩ => ⟨S_, .i32⟩
  | .hbm, ⟨51, _⟩ => ⟨S32x1, .i32⟩
  | .hbm, ⟨52, _⟩ => ⟨S32x1, .i1⟩
  | .hbm, ⟨53, _⟩ => ⟨S1x1, .i32⟩
  | .hbm, ⟨54, _⟩ => ⟨S32x1, .i32⟩
  | .hbm, ⟨55, _⟩ => ⟨S32x1, .i1⟩
  | .hbm, ⟨56, _⟩ => ⟨S32x1, .i1⟩
  | .hbm, ⟨57, _⟩ => ⟨S_, .i1⟩
  | .hbm, ⟨58, _⟩ => ⟨S32, .i1⟩
  | .hbm, ⟨59, _⟩ => ⟨S8192x32, .f32⟩
  | .hbm, ⟨60, _⟩ => ⟨S8192x32, .i1⟩
  | .hbm, ⟨61, _⟩ => ⟨S_, .f32⟩
  | .hbm, ⟨62, _⟩ => ⟨S8192x32, .f32⟩
  | .hbm, ⟨63, _⟩ => ⟨S8192x32, .f32⟩
  | .hbm, ⟨64, _⟩ => ⟨S8192x32, .bf16⟩
  | .hbm, ⟨65, _⟩ => ⟨S32x4096, .bf16⟩
  | .hbm, ⟨66, _⟩ => ⟨S8192x4096, .f32⟩
  | .hbm, ⟨67, _⟩ => ⟨S4x2048x4096, .f32⟩
  | .local _ .vmem, ⟨0, _⟩ => ⟨S512x512, .i32⟩
  | .local _ .vmem, ⟨1, _⟩ => ⟨S512x512, .i32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4096x1, .bf16⟩
  | .local _ .vmem, ⟨7, _⟩ => ⟨S4096x512, .bf16⟩
  | .local _ .vmem, ⟨8, _⟩ => ⟨S4096x512, .bf16⟩
  | .local _ .vmem, ⟨9, _⟩ => ⟨S1024x512, .f32⟩
  | .local _ .vmem, ⟨10, _⟩ => ⟨S1024x512, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | .local _ .vmem, ⟨15, _⟩ => ⟨S1024x32, .bf16⟩
  | .local _ .vmem, ⟨16, _⟩ => ⟨S1024x32, .bf16⟩
  | .local _ .vmem, ⟨17, _⟩ => ⟨S32x2048, .bf16⟩
  | .local _ .vmem, ⟨18, _⟩ => ⟨S32x2048, .bf16⟩
  | .local _ .vmem, ⟨19, _⟩ => ⟨S1024x2048, .f32⟩
  | .local _ .vmem, ⟨20, _⟩ => ⟨S1024x2048, .f32⟩
  | .local _ .vmem, ⟨21, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S32x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S2048x2_S4096 : S2048x2.ShapeCasts S4096
  shapeCasts_S4096x1_S4096 : S4096x1.ShapeCasts S4096
  shapeCasts_S4096_S1x4096 : S4096.ShapeCasts S1x4096
  shapeCasts_S32_S1x32 : S32.ShapeCasts S1x32
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  reducesTo_S4096x32_S4096_d1 : S4096x32.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  inb_S512x512_S512x512_0_0 : ∀ a, (![0, 0] : Fin 2 → Nat) a + S512x512.size a ≤ S512x512.size a
  h_S512x512 : 0 < S512x512.numel
  shapeCasts_S512x512_S512x1x512 : S512x512.ShapeCasts S512x1x512
  concatenates_S512x1x512_S512x1x512_S512x1x512_S512x1x512_S512x1x512_S512x1x512_S512x1x512_S512x1x512_S512x8x512_d1 : Shape.Concatenates [S512x1x512, S512x1x512, S512x1x512, S512x1x512, S512x1x512, S512x1x512, S512x1x512, S512x1x512] S512x8x512 1
  shapeCasts_S512x8x512_S4096x512 : S512x8x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bitsLt_bf16_f32 : FTy.bits .bf16 < FTy.bits .f32
  broadcasts_S4096x1_S4096x512 : S4096x1.Broadcasts S4096x512
  inb_S4096x512_S4096x512_0_0 : ∀ a, (![0, 0] : Fin 2 → Nat) a + S4096x512.size a ≤ S4096x512.size a
  h_S4096x512 : 0 < S4096x512.numel
  packedbf16_S4096x512_S4096x512_0_0 : (Rect.unit (s := S4096x512) ![0, 0] S4096x512.size inb_S4096x512_S4096x512_0_0).PackedRows (EltTy.packing .bf16)
  shapeCasts_S4x2048x4096_S8192x4096 : S4x2048x4096.ShapeCasts S8192x4096
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  bcast_S32_S8192x32_1 : S32.BroadcastsInDim S8192x32 (![1] : Fin 1 → Fin S8192x32.rank)
  bcast_S_S8192x32 : S_.BroadcastsInDim S8192x32 (![] : Fin 0 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  gather_S8192x4096_S32x1_S8192x32_0_1_n_n_1_1_81921_wf : GatherDims.WF S8192x4096 S32x1 S8192x32 [0] [1] [] [1] [] 1 ![8192, 1]
  dot_S1024x32_S32x2048_S1024x2048_1_0_0_1_n_n_wf : DotDims.WF S1024x32 S32x2048 S1024x2048 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x4096.size a
  hwx0_0 : ∀ i : grid0.Coords, EltTy.bits .i32 = 32 ∨ (Rect.block (s := S512x4096) S512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S4096x1.size a
  hwx0_3 : ∀ i : grid0.Coords, EltTy.bits .bf16 = 32 ∨ (Rect.block (s := S4096x1) S4096x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x4096.size a
  hwx0_4 : ∀ i : grid0.Coords, EltTy.bits .bf16 = 32 ∨ (Rect.block (s := S4096x4096) S4096x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S8192x32.size a
  hwx1_3 : ∀ i : grid1.Coords, EltTy.bits .bf16 = 32 ∨ (Rect.block (s := S8192x32) S1024x32.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x2048.size a ≤ S32x4096.size a
  hwx1_4 : ∀ i : grid1.Coords, EltTy.bits .bf16 = 32 ∨ (Rect.block (s := S32x4096) S32x2048.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x2048.size a ≤ S8192x4096.size a
  hwx1_5 : ∀ i : grid1.Coords, EltTy.bits .f32 = 32 ∨ (Rect.block (s := S8192x4096) S1024x2048.size (cc1_transform_5 i) (hinb1_5 i)).WholeWords (EltTy.packing .f32)

variable [Facts₀]

def gather_S8192x4096_S32x1_S8192x32_0_1_n_n_1_1_81921 : GatherDims S8192x4096 S32x1 S8192x32 where
  offsetDims := [0]
  collapsedSliceDims := [1]
  operandBatchingDims := []
  startIndicesBatchingDims := []
  startIndexMap := [1]
  indexVectorDim := 1
  sliceSizes := ![8192, 1]
  wf := gather_S8192x4096_S32x1_S8192x32_0_1_n_n_1_1_81921_wf
def dot_S1024x32_S32x2048_S1024x2048_1_0_0_1_n_n : DotDims S1024x32 S32x2048 S1024x2048 where
  lhsContracting := [1]
  rhsContracting := [0]
  lhsNonContracting := [0]
  rhsNonContracting := [1]
  lhsBatch := []
  rhsBatch := []
  wf := dot_S1024x32_S32x2048_S1024x2048_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S4096x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1024x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S32x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1024x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x4096 : Shape := ⟨2, ![512, 4096]⟩
abbrev S4096x1 : Shape := ⟨2, ![4096, 1]⟩
abbrev S2048x1 : Shape := ⟨2, ![2048, 1]⟩
abbrev S32x4096 : Shape := ⟨2, ![32, 4096]⟩
abbrev S32 : Shape := ⟨1, ![32]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S2048 : Shape := ⟨1, ![2048]⟩
abbrev S2048x2 : Shape := ⟨2, ![2048, 2]⟩
abbrev S1x4096 : Shape := ⟨2, ![1, 4096]⟩
abbrev S32x1 : Shape := ⟨2, ![32, 1]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S4096x1, .f32⟩
  | .hbm, ⟨3, _⟩ => ⟨S2048x1, .i32⟩
  | .hbm, ⟨4, _⟩ => ⟨S32x4096, .f32⟩
  | .hbm, ⟨5, _⟩ => ⟨S32, .i32⟩
  | .hbm, ⟨6, _⟩ => ⟨S4096, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S512x1x4096, .i32⟩
  | .hbm, ⟨12, _⟩ => ⟨S1x8x1, .i32⟩
  | .hbm, ⟨13, _⟩ => ⟨S512x8x4096, .i32⟩
  | .hbm, ⟨14, _⟩ => ⟨S512x8x4096, .i32⟩
  | .hbm, ⟨15, _⟩ => ⟨S512x8x4096, .i32⟩
  | .hbm, ⟨16, _⟩ => ⟨S_, .i32⟩
  | .hbm, ⟨17, _⟩ => ⟨S512x8x4096, .i32⟩
  | .hbm, ⟨18, _⟩ => ⟨S512x8x4096, .i32⟩
  | .hbm, ⟨19, _⟩ => ⟨S4096x4096, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S2048x1, .i32⟩
  | .hbm, ⟨32, _⟩ => ⟨S2048x2, .i32⟩
  | .hbm, ⟨33, _⟩ => ⟨S4096, .i32⟩
  | .hbm, ⟨34, _⟩ => ⟨S4096, .f32⟩
  | .hbm, ⟨35, _⟩ => ⟨S4096x4096, .f32⟩
  | .hbm, ⟨36, _⟩ => ⟨S4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S32, .i32⟩
  | .hbm, ⟨50, _⟩ => ⟨S32x1, .i32⟩
  | .hbm, ⟨51, _⟩ => ⟨S4096x4096, .f32⟩
  | .hbm, ⟨52, _⟩ => ⟨S4x2048x4096, .f32⟩
  | .hbm, ⟨53, _⟩ => ⟨S1x1x4096, .f32⟩
  | .hbm, ⟨54, _⟩ => ⟨S4x2048x4096, .f32⟩
  | .hbm, ⟨55, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S2048x2_S4096 : S2048x2.ShapeCasts S4096
  shapeCasts_S4096x1_S4096 : S4096x1.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S32 : S_.BroadcastsInDim S32 (![] : Fin 0 → Fin S32.rank)
  bcast_S32_S32x1_0 : S32.BroadcastsInDim S32x1 (![0] : Fin 1 → Fin S32x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  scatter_S4096x4096_S32x1_S32x4096_1_0_0_1_wf : ScatterDims.WF S4096x4096 S32x1 S32x4096 [1] [0] [0] 1
  dot_S4x2048x4096_S4096x4096_S4x2048x4096_2_0_01_1_n_n_wf : DotDims.WF S4x2048x4096 S4096x4096 S4x2048x4096 [2] [0] [0, 1] [1] [] []

variable [Facts₀]

def scatter_S4096x4096_S32x1_S32x4096_1_0_0_1 : ScatterDims S4096x4096 S32x1 S32x4096 where
  updateWindowDims := [1]
  insertedWindowDims := [0]
  scatterDimsToOperandDims := [0]
  indexVectorDim := 1
  wf := scatter_S4096x4096_S32x1_S32x4096_1_0_0_1_wf
def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.BitsR0.lean ====
/-
  The first pallas call (the dequantisation kernel on its grid of 8 points) at a PARAMETER: the buffer contents
  V the region is entered with, at any float model F.

  The kernel body at one grid point reads four whole staging buffers (a block of packed words [512, 512], a row of
  zero points [1, 512], a row of scales [1, 512], the 0/1 column [4096, 1]) and overwrites the whole output staging
  buffer [4096, 512] with one store. So each input buffer is left as found and the output buffer ends at the
  store's payload over the four inputs (out0_4): all that the pipeline's body obligation asks of a region with one
  store, no scratch and no branch.
-/
import proofs.«419512_j42674795053346_3_alg».proof.Proof.Gen.Kernel.Launch
import proofs.«419512_j42674795053346_3_alg».proof.Proof.Gen.Kernel.Skeleton
import proofs.«419512_j42674795053346_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer

  An input window's current staging buffer holds its block at every point, fetched there or not, for any proof data
  whose array is the entry contents and whose body leaves the block in place: where the window is not fetched (the
  0/1 column after the first point) its block index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rWords : Rect S512x512 := Rect.unit (s := S512x512) ![0, 0] S512x512.size inb_S512x512_S512x512_0_0
abbrev rRow : Rect S1x512 := Rect.unit (s := S1x512) ![0, 0] S1x512.size inb_S1x512_S1x512_0_0
abbrev rCol : Rect S4096x1 := Rect.unit (s := S4096x1) ![0, 0] S4096x1.size inb_S4096x1_S4096x1_0_0
abbrev rOut : Rect S4096x512 := Rect.unit (s := S4096x512) ![0, 0] S4096x512.size inb_S4096x512_S4096x512_0_0

/-! ## What the body leaves in the output window's buffer -/

/-- The output staging buffer after the body, from the four input blocks: its one store, whose payload is the
    dequantised and masked block over the eight nibble planes of the packed words. -/
def out0_4 (x0 : Vec F S512x512 .i32) (x1 : Vec F S1x512 .f32) (x2 : Vec F S1x512 .f32) (x3 : Vec F S4096x1 .bf16) : Vec F S4096x512 .bf16 :=
  View.canon [⟨rOut, k0_pay1 (k0_pay2 (View.ld x0 rWords)) (k0_pay3 (View.ld x0 rWords)) (k0_pay4 (View.ld x0 rWords))
    (k0_pay5 (View.ld x0 rWords)) (k0_pay6 (View.ld x0 rWords)) (k0_pay7 (View.ld x0 rWords)) (k0_pay8 (View.ld x0 rWords))
    (k0_pay9 (View.ld x0 rWords)) (View.ld x1 rRow) (View.ld x2 rRow) (View.ld x3 rCol)⟩]

/-- The one store is of the whole buffer, so it covers it. -/
theorem cover0_4 (p0 : Vec F S4096x512 .bf16) (y : S4096x512.Idx) :
    ∃ pc ∈ ([⟨rOut, p0⟩] : List (View.Piece (Elt F) S4096x512 .bf16)), y ∈ pc.1.set :=
  View.cover_of_tiled [⟨rOut, p0⟩] S4096x512.size (by rfl) y

/-! ## The body's triple -/

set_option maxHeartbeats 1000000 in
/-- The kernel body on whole staging memrefs, the four inputs' at read contents and the output's at anything, runs
    to the continuation holding the inputs' as they were and the output's at out0_4 of the inputs': the printed
    function and the part it calls are their skeletons, which are run operation by operation. -/
theorem sound_kernel0 (c : Dev nD) (E : Set ℕ) (i : grid0.Coords)
    (arg1 : Memref sig .tc .vmem S512x512 .i32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S4096x1 .bf16) (harg4 : arg4.IsWhole)
    (arg5 : Memref sig .tc .vmem S4096x512 .bf16) (harg5 : arg5.IsWhole)
    (x0 : Vec F S512x512 .i32) (x1 : Vec F S1x512 .f32) (x2 : Vec F S1x512 .f32) (x3 : Vec F S4096x1 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the dequantisation pipeline on core c: the arrays as the region finds them; after the body
    at point t each input's buffer at its block and the output's at out0_4 of the four input blocks; the invariant
    is the untouched rest (the other scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Runs.lean ====
/- The second kernel region's frame, shared part: the blocks of its windows at the region-entry contents, the two
   conditions of its body in closed form over the grid, where its output window is idle, the staging and scratch
   memrefs, and the region invariant opened. -/
import proofs.«419512_j42674795053346_3_alg».proof.Proof.Gen.Kernel.Launch
import proofs.«419512_j42674795053346_3_alg».proof.Proof.Gen.Kernel.Skeleton
import proofs.«419512_j42674795053346_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's branch conditions -/

/-- The condition of the body's first `scf.if` (the reduction index is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): the reduction axis is innermost. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (the reduction index is 7), from the grid coordinates. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the output window is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write the output's block back. -/
theorem noFlush1_5_A : ∀ t : Fin cfg1.N, cond1_0 (grid1.coords t) → ¬cond1_1 (grid1.coords t) → (cfg1.win 5).flush t = false := by decide +kernel
/-- At the points of case B the output window is idle. -/
theorem idleAt1_5_B : ∀ t : Fin cfg1.N, ¬cond1_0 (grid1.coords t) → ¬cond1_1 (grid1.coords t) → cfg1.idle 5 (grid1.coords t) = true := by decide +kernel
/-- At the points of case B the pipeline does not write the output's block back. -/
theorem noFlush1_5_B : ∀ t : Fin cfg1.N, ¬cond1_0 (grid1.coords t) → ¬cond1_1 (grid1.coords t) → (cfg1.win 5).flush t = false := by decide +kernel
/-- At the points of case C the output window is live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of the output window, through which its contents are stated (the choice does not matter). -/
abbrev VO1_5 : View sig .tc .vmem S1024x2048 .f32 := (Memref.whole cc1_stg5_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x32 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x2048 .f32 := win1_5.stage (cfg1.slots t 5)
abbrev hs1_5 (t : Fin cfg1.N) : (ms1_5 t).IsWhole := hstage1_5 ((cfg1.slots t 5).cast nbuf1_5)
/-- The scratch operand: a whole scoped buffer of the kernel's own, the accumulator, passed beside the windows. -/
abbrev scM1_0 : Memref sig .tc .vmem S1024x2048 .f32 := Memref.whole cc1_scratch0
/-- The accumulator as a view: what it holds is stated through it. -/
abbrev VS1_0 : View sig .tc .vmem S1024x2048 .f32 := scM1_0.view

/-- The region's invariant with the accumulator as a memref owned at some contents, beside the other scoped buffers
    (the first call's staging buffers, untouched here) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BitsR1RunA.lean ====
/- The second kernel region's body run whole in control case A. -/
import proofs.«419512_j42674795053346_3_alg».proof.Proof.BitsR1Runs

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in case A
    (the reduction index is 0: the accumulator is reset to the outlier product, then updated; the output is left alone), with the proof that on whole memrefs — the inputs' at
    their contents, the output's at contents handed back untouched, the accumulator at anything — the body runs to the
    continuation holding the inputs' as they were and each stored buffer with its pieces written. -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) :
    Σ' (L5 : List (View.Piece (Elt F) S1024x2048 .f32)), { LS0 : List (View.Piece (Elt F) S1024x2048 .f32) //
      ∀ (xi5 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨[], ?_, fun xi5 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.BitsR1RunB.lean ====
/- The second kernel region's body run whole in control case B. -/
import proofs.«419512_j42674795053346_3_alg».proof.Proof.BitsR1RunA

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in case B
    (the reduction index is strictly between 0 and 7: the accumulator is updated; the output is left alone), with the proof that on whole memrefs — the inputs' at
    their contents, the output's at contents handed back untouched, the accumulator at what the point before left — the body runs to the
    continuation holding the inputs' as they were and each stored buffer with its pieces written. -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    Σ' (L5 : List (View.Piece (Elt F) S1024x2048 .f32)), { LS0 : List (View.Piece (Elt F) S1024x2048 .f32) //
      ∀ (xi5 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨[], ?_, fun xi5 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.BitsR1RunC.lean ====
/- The second kernel region's body run whole in control case C. -/
import proofs.«419512_j42674795053346_3_alg».proof.Proof.BitsR1RunB

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in case C
    (the reduction index is 7: the accumulator is updated, then the output is the accumulator plus the bias), with the proof that on whole memrefs — the inputs' at
    their contents, the output's at anything, the accumulator at what the point before left — the body runs to the
    continuation holding the inputs' as they were and each stored buffer with its pieces written. -/
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    Σ' (L5 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.BitsR1.lean ====
/- The second kernel region's frame: what each control case leaves in the output's staging buffer and in the
   accumulator, point by point; the proof data at the region-entry contents; the body obligation; the invariant
   at the region's two ends. -/
import proofs.«419512_j42674795053346_3_alg».proof.Proof.BitsR1RunC

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output (the window is idle at its points and not written back there): no pieces —
    a placeholder that nothing consults. -/
def out1_A_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) : Vec F S1024x2048 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the accumulator cover it. -/
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (y : S1024x2048.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x2048.size (by sl_kernel_rfl) y

/-- What case A leaves in the accumulator: its pieces read back over junk. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) : Vec F S1024x2048 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into the output (the window is idle at its points and not written back there): no pieces —
    a placeholder that nothing consults. -/
def out1_B_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the accumulator cover it. -/
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) (y : S1024x2048.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x2048.size (by sl_kernel_rfl) y

/-- What case B leaves in the accumulator: its pieces read back over junk. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's one store into the output tiles its block, so it covers it. -/
theorem cover1_C_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) (y : S1024x2048.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x2048.size (by sl_kernel_rfl) y

/-- What case C leaves in the output's staging buffer: its pieces read back over junk. -/
def out1_C_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the accumulator cover it. -/
theorem scover1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) (y : S1024x2048.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x2048.size (by sl_kernel_rfl) y

/-- What case C leaves in the accumulator: its pieces read back over junk. -/
def sout1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

section Region
-- the TensorCore's buffer contents when the region is entered
variable (V : (c : Dev nD) → (b : Ref sig .tc) → Buf (Elt F) ((c : Thread nD τ).loc b))

/-! ## What the output's staging buffer and the accumulator hold after each point -/

/-- The accumulation: what the output's staging buffer and the accumulator hold after the body at position `n` — the
    case the closed forms select at `n`, run at the point's memrefs and input blocks, the accumulator it reads at
    what this leaves at `n - 1`. -/
def outsAt1 (c : Dev nD) : (n : ℕ) → n < cfg1.N → Vec F S1024x2048 .f32 × Vec F S1024x2048 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 8 = 0
  · by_cases h1 : t.val % 8 = 7
    · exfalso; omega
    · rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t], after1_3]
      rw [show (dat1 V c).leavesExact 4 t = owns (c : Thread nD τ) (ms1_4 t) fullShare ((dat1 V c).after 4 t) from by
            unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t], after1_3]
      rw [show (dat1 V c).leavesExact 4 t = owns (c : Thread nD τ) (ms1_4 t) fullShare ((dat1 V c).after 4 t) from by
            unfold Dat.leavesExact; rw [liveAt1_4 t], after1_4]
      rw [show (dat1 V c).leavesExact 5 t = owns (c : Thread nD τ) (ms1_5 t) fullShare ((dat1 V c).after 5 t) from by
            unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t], after1_3]
      rw [show (dat1 V c).leavesExact 4 t = owns (c : Thread nD τ) (ms1_4 t) fullShare ((dat1 V c).after 4 t) from by
            unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.Hand

end
-- ==== Proof.BitsKRun.lean ====
/-
  The kernel program's run, at any float instance: @main is eight items — two stretches of host operations, the
  dequantisation region, three stretches, the matrix-product region, one last stretch —, and between two items every
  unscoped buffer of the core holds a known array: the launch memory pushed through the host operations, with each
  region's arrays replaced by what the region's write-backs leave. Each region is entered with exactly those arrays,
  so its proof data (the regions' modules) apply at them, and at the end every unscoped buffer is read back: the
  seven arguments are as launched and the result buffer holds the last stretch applied to the product region's
  output.
-/
import proofs.«419512_j42674795053346_3_alg».proof.Proof.BitsR0
import proofs.«419512_j42674795053346_3_alg».proof.Proof.BitsR1
import proofs.«419512_j42674795053346_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => (s₀ m ρ).mem ((c : Dev nD), b)
/-- After the first two stretches (the zero-point row, the scale row, the 0/1 column): the dequantisation region's entry. -/
abbrev W1 : Dev nD → Valuation τ sig (Elt F) := fun c => StableHlo.after hostOps0 (W0 m ρ c)
abbrev W2 : Dev nD → Valuation τ sig (Elt F) := fun c => StableHlo.after hostOps0_1 (W1 m ρ c)
/-- The same read at the TensorCore's references. -/
abbrev E2 : (c : Dev nD) → (b : Ref sig .tc) → Buf (Elt F) ((c : Thread nD τ).loc b) := fun c b => W2 m ρ c b
/-- At the dequantisation region's exit: its arrays at what its write-backs leave, every other buffer as entered. -/
def W3 (c : Dev nD) : Valuation τ sig (Elt F) :=
  Pipeline.withArrays spec0 c (W2 m ρ c) fun w => (dat0 (E2 m ρ) c).arrAt w cfg0.N
theorem W3_arr (c : Dev nD) (w : Fin cfg0.W) :
    W3 m ρ c (Proc.devRef .tc (Pipeline.arrRef spec0 w)) = (dat0 (E2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev E3 : (c : Dev nD) → (b : Ref sig .tc) → Buf (Elt F) ((c : Thread nD τ).loc b) := fun c b => W3 m ρ c b
theorem hF0 (c : Dev nD) (w : Fin cfg0.W) : (dat0 (E2 m ρ) c).arrAt w cfg0.N = E3 m ρ c (Pipeline.arrRef spec0 w) :=
  (W3_arr m ρ c w).symm
theorem hrest0 (c : Dev nD) : ∀ b, b ∉ Finset.univ.image (Pipeline.arrRef spec0) → E3 m ρ c b = E2 m ρ c b :=
  fun b hb => W3_of_ne m ρ c b fun w e => hb (Finset.mem_image.mpr ⟨w, Finset.mem_univ _, e⟩)

/-- After the three stretches between the regions (the activations as a matrix, the bias row, the gathered outlier
    columns, the outlier rows): the product region's entry. -/
abbrev W4 : Dev nD → Valuation τ sig (Elt F) := fun c => StableHlo.after hostOps1 (W3 m ρ c)
abbrev W5 : Dev nD → Valuation τ sig (Elt F) := fun c => StableHlo.after hostOps1_1 (W4 m ρ c)
abbrev W6 : Dev nD → Valuation τ sig (Elt F) := fun c => StableHlo.after hostOps1_2 (W5 m ρ c)
abbrev E6 : (c : Dev nD) → (b : Ref sig .tc) → Buf (Elt F) ((c : Thread nD τ).loc b) := fun c b => W6 m ρ c b
/-- At the product region's exit. -/
def W7 (c : Dev nD) : Valuation τ sig (Elt F) :=
  Pipeline.withArrays spec1 c (W6 m ρ c) fun w => (dat1 (E6 m ρ) c).arrAt w cfg1.N
theorem W7_arr (c : Dev nD) (w : Fin cfg1.W) :
    W7 m ρ c (Proc.devRef .tc (Pipeline.arrRef spec1 w)) = (dat1 (E6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev E7 : (c : Dev nD) → (b : Ref sig .tc) → Buf (Elt F) ((c : Thread nD τ).loc b) := fun c b => W7 m ρ c b
theorem hF1 (c : Dev nD) (w : Fin cfg1.W) : (dat1 (E6 m ρ) c).arrAt w cfg1.N = E7 m ρ c (Pipeline.arrRef spec1 w) :=
  (W7_arr m ρ c w).symm
theorem hrest1 (c : Dev nD) : ∀ b, b ∉ Finset.univ.image (Pipeline.arrRef spec1) → E7 m ρ c b = E6 m ρ c b :=
  fun b hb => W7_of_ne m ρ c b fun w e => hb (Finset.mem_image.mpr ⟨w, Finset.mem_univ _, e⟩)
/-- After the last stretch (the result as `[4, 2048, 4096]`). -/
abbrev W8 : Dev nD → Valuation τ sig (Elt F) := fun c => StableHlo.after hostOps2 (W7 m ρ c)

/-! ## An argument array is never written -/

/-- A buffer no host stretch writes and no region has as an array is, at the end, as launched. -/
theorem W8_of_untouched (c : Dev nD) (r : Ref sig .tc) (h0 : r ∉ (hostOps0_W : List (Ref sig .tc))) (h01 : r ∉ (hostOps0_1_W : List (Ref sig .tc)))
    (h1 : r ∉ (hostOps1_W : List (Ref sig .tc))) (h11 : r ∉ (hostOps1_1_W : List (Ref sig .tc))) (h12 : r ∉ (hostOps1_2_W : List (Ref sig .tc)))
    (h2 : r ∉ (hostOps2_W : List (Ref sig .tc))) (ha0 : ∀ w, Pipeline.arrRef spec0 w ≠ r) (ha1 : ∀ w, Pipeline.arrRef spec1 w ≠ r) :
    W8 m ρ c (Proc.devRef .tc r) = m ((c : Thread nD τ).loc r) :=
  calc W8 m ρ c (Proc.devRef .tc r)
    _ = W7 m ρ c (Proc.devRef .tc r) := StableHlo.after_of_writes_sub hostOps2 _ hostOps2_writes h2
    _ = W6 m ρ c (Proc.devRef .tc r) := W7_of_ne m ρ c r ha1
    _ = W5 m ρ c (Proc.devRef .tc r) := StableHlo.after_of_writes_sub hostOps1_2 _ hostOps1_2_writes h12
    _ = W4 m ρ c (Proc.devRef .tc r) := StableHlo.after_of_writes_sub hostOps1_1 _ hostOps1_1_writes h11
    _ = W3 m ρ c (Proc.devRef .tc r) := StableHlo.after_of_writes_sub hostOps1 _ hostOps1_writes h1
    _ = W2 m ρ c (Proc.devRef .tc r) := W3_of_ne m ρ c r ha0
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-- The packed weights are the dequantisation region's first input: read and left as they were. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps2 _ hostOps2_writes (by decide)
    _ = W6 m ρ c (Proc.devRef .tc main_arg1) := W7_of_ne m ρ c main_arg1 (by decide)
    _ = W5 m ρ c (Proc.devRef .tc main_arg1) := StableHlo.after_of_writes_sub hostOps1_2 _ hostOps1_2_writes (by decide)
    _ = W4 m ρ c (Proc.devRef .tc main_arg1) := StableHlo.after_of_writes_sub hostOps1_1 _ hostOps1_1_writes (by decide)
    _ = W3 m ρ c (Proc.devRef .tc main_arg1) := StableHlo.after_of_writes_sub hostOps1 _ hostOps1_writes (by decide)
    _ = W2 m ρ c (Proc.devRef .tc main_arg1) := (W3_arr m ρ c 0).trans (((dat0 (E2 m ρ) c).arrAt_in 0 rfl _).trans (A_eq0 (E2 m ρ) c 0))
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data family and the thread state -/

abbrev adm' : (p : Fin 2) → (pcfgs (F := F) p).Adm := fun p => (cfgs p).toPCfg_adm
/-- Each region's proof data at its entry contents — a literal match on the region's number. -/
def pdats : (p : Fin 2) → (c : Dev nD) → Dat τ (Elt F) Unit ℕ (UR sig nD τ) ℕ (Pipeline.pin (pcfgs (F := F)) adm' p) c
  | ⟨0, _⟩ => fun c => dat0 (E2 m ρ) c
  | ⟨1, _⟩ => fun c => dat1 (E6 m ρ) c
abbrev 𝒱₀ : Variants := Variants.none
abbrev L₀ : GSem nD τ sig → Finset Unit := fun _ => ∅
abbrev lv₀ : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The dequantisation region: entered with every unscoped buffer at `W2`, left at `W3`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (E2 m ρ) c).loose
  hwaits := Pipeline.hwaits_of_owed_zero _ _ _ _ L₀ lv₀ 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (E2 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E2 m ρ c) (E3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered with every unscoped buffer at `W6`, left at `W7`; its invariant is entered from
    the class's (the accumulator at anything) and gives it back, forgetting the accumulator. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (E6 m ρ) c).loose
  hwaits := Pipeline.hwaits_of_owed_zero _ _ _ _ L₀ lv₀ 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (E6 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E6 m ρ) c)
    unfold Pipeline.ΦA
    iintro ⟨Hp, -, Hr⟩
    isplitl [Hr]; · iexact Hr
    iexact Hp
  hout c := by
    rw [Pipeline.ownSems0_none]
    refine BIBase.Entails.trans (hout1 (E6 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E6 m ρ c) (E7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L₀ lv₀) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)),
    .host (hseg hostOps1_2 hostOps1_2_sub hostOps1_2_fresh (W5 m ρ)),
    .region (reg1 m ρ),
    .host (hseg hostOps2 hostOps2_sub hostOps2_fresh (W7 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and at the end every unscoped buffer of every core holds the fold's last contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W8_of_untouched m ρ c main_arg0 (by decide) (by decide) (by decide) (by decide) (by decide) (by decide) (by decide) (by decide)),
     (h c _ (mem_uc main_arg1 (by decide))).trans (W8_main_arg1 m ρ c),
     (h c _ (mem_uc main_arg2 (by decide))).trans (W8_of_untouched m ρ c main_arg2 (by decide) (by decide) (by decide) (by decide) (by decide) (by decide) (by decide) (by decide)),
     (h c _ (mem_uc main_arg3 (by decide))).trans (W8_of_untouched m ρ c main_arg3 (by decide) (by decide) (by decide) (by decide) (by decide) (by decide) (by decide) (by decide)),
     (h c _ (mem_uc main_arg4 (by decide))).trans (W8_of_untouched m ρ c main_arg4 (by decide) (by decide) (by decide) (by decide) (by decide) (by decide) (by decide) (by decide)),
     (h c _ (mem_uc main_arg5 (by decide))).trans (W8_of_untouched m ρ c main_arg5 (by decide) (by decide) (by decide) (by decide) (by decide) (by decide) (by decide) (by decide)),
     (h c _ (mem_uc main_arg6 (by decide))).trans (W8_of_untouched m ρ c main_arg6 (by decide) (by decide) (by decide) (by decide) (by decide) (by decide) (by decide) (by decide))⟩)
    (run_all m ρ)

/-- The same run with the result buffer read as well. -/
theorem run_result : θ_run defs (onTc (τ := τ) (main (F := F))) ⟨m, fun _ => 0, ρ⟩ (fun r => ∀ c : Dev nD,
      r.2.mem ((c.tc : Thread nD τ).loc main_v30) = W8 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v30 (by decide)),
     (h c _ (mem_uc main_arg0 (by decide))).trans (W8_of_untouched m ρ c main_arg0 (by decide) (by decide) (by decide) (by decide) (by decide) (by decide) (by decide) (by decide)),
     (h c _ (mem_uc main_arg1 (by decide))).trans (W8_main_arg1 m ρ c),
     (h c _ (mem_uc main_arg2 (by decide))).trans (W8_of_untouched m ρ c main_arg2 (by decide) (by decide) (by decide) (by decide) (by decide) (by decide) (by decide) (by decide)),
     (h c _ (mem_uc main_arg3 (by decide))).trans (W8_of_untouched m ρ c main_arg3 (by decide) (by decide) (by decide) (by decide) (by decide) (by decide) (by decide) (by decide)),
     (h c _ (mem_uc main_arg4 (by decide))).trans (W8_of_untouched m ρ c main_arg4 (by decide) (by decide) (by decide) (by decide) (by decide) (by decide) (by decide) (by decide)),
     (h c _ (mem_uc main_arg5 (by decide))).trans (W8_of_untouched m ρ c main_arg5 (by decide) (by decide) (by decide) (by decide) (by decide) (by decide) (by decide) (by decide)),
     (h c _ (mem_uc main_arg6 (by decide))).trans (W8_of_untouched m ρ c main_arg6 (by decide) (by decide) (by decide) (by decide) (by decide) (by decide) (by decide) (by decide))⟩)
    (run_all m ρ)

end Cert.Kernel.Hand

end
-- ==== Proof.R0.lean ====
/-
  The first pallas call (the dequantisation kernel on its grid of 8 points) at a PARAMETER: the buffer contents
  V the region is entered with, at any float model F.

  The kernel body at one grid point reads four whole staging buffers (a block of packed words [512, 512], a row of
  zero points [1, 512], a row of scales [1, 512], the 0/1 column [4096, 1]) and overwrites the whole output staging
  buffer [4096, 512] with one store. So each input buffer is left as found and the output buffer ends at the
  store's payload over the four inputs (out0_4): all that the pipeline's body obligation asks of a region with one
  store, no scratch and no branch.
-/
import proofs.«419512_j42674795053346_3_alg».proof.Proof.Gen.KernelIdeal.Launch
import proofs.«419512_j42674795053346_3_alg».proof.Proof.Gen.KernelIdeal.Skeleton
import proofs.«419512_j42674795053346_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer

  An input window's current staging buffer holds its block at every point, fetched there or not, for any proof data
  whose array is the entry contents and whose body leaves the block in place: where the window is not fetched (the
  0/1 column after the first point) its block index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rWords : Rect S512x512 := Rect.unit (s := S512x512) ![0, 0] S512x512.size inb_S512x512_S512x512_0_0
abbrev rRow : Rect S1x512 := Rect.unit (s := S1x512) ![0, 0] S1x512.size inb_S1x512_S1x512_0_0
abbrev rCol : Rect S4096x1 := Rect.unit (s := S4096x1) ![0, 0] S4096x1.size inb_S4096x1_S4096x1_0_0
abbrev rOut : Rect S4096x512 := Rect.unit (s := S4096x512) ![0, 0] S4096x512.size inb_S4096x512_S4096x512_0_0

/-! ## What the body leaves in the output window's buffer -/

/-- The output staging buffer after the body, from the four input blocks: its one store, whose payload is the
    dequantised and masked block over the eight nibble planes of the packed words. -/
def out0_4 (x0 : Vec F S512x512 .i32) (x1 : Vec F S1x512 .f32) (x2 : Vec F S1x512 .f32) (x3 : Vec F S4096x1 .bf16) : Vec F S4096x512 .bf16 :=
  View.canon [⟨rOut, k0_pay1 (k0_pay2 (View.ld x0 rWords)) (k0_pay3 (View.ld x0 rWords)) (k0_pay4 (View.ld x0 rWords))
    (k0_pay5 (View.ld x0 rWords)) (k0_pay6 (View.ld x0 rWords)) (k0_pay7 (View.ld x0 rWords)) (k0_pay8 (View.ld x0 rWords))
    (k0_pay9 (View.ld x0 rWords)) (View.ld x1 rRow) (View.ld x2 rRow) (View.ld x3 rCol)⟩]

/-- The one store is of the whole buffer, so it covers it. -/
theorem cover0_4 (p0 : Vec F S4096x512 .bf16) (y : S4096x512.Idx) :
    ∃ pc ∈ ([⟨rOut, p0⟩] : List (View.Piece (Elt F) S4096x512 .bf16)), y ∈ pc.1.set :=
  View.cover_of_tiled [⟨rOut, p0⟩] S4096x512.size (by rfl) y

/-! ## The body's triple -/

set_option maxHeartbeats 1000000 in
/-- The kernel body on whole staging memrefs, the four inputs' at read contents and the output's at anything, runs
    to the continuation holding the inputs' as they were and the output's at out0_4 of the inputs': the printed
    function and the part it calls are their skeletons, which are run operation by operation. -/
theorem sound_kernel0 (c : Dev nD) (E : Set ℕ) (i : grid0.Coords)
    (arg1 : Memref sig .tc .vmem S512x512 .i32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S4096x1 .bf16) (harg4 : arg4.IsWhole)
    (arg5 : Memref sig .tc .vmem S4096x512 .bf16) (harg5 : arg5.IsWhole)
    (x0 : Vec F S512x512 .i32) (x1 : Vec F S1x512 .f32) (x2 : Vec F S1x512 .f32) (x3 : Vec F S4096x1 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the dequantisation pipeline on core c: the arrays as the region finds them; after the body
    at point t each input's buffer at its block and the output's at out0_4 of the four input blocks; the invariant
    is the untouched rest (the other scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/- The second kernel region's frame, shared part: the blocks of its windows at the region-entry contents, the two
   conditions of its body in closed form over the grid, where its output window is idle, the staging and scratch
   memrefs, and the region invariant opened. -/
import proofs.«419512_j42674795053346_3_alg».proof.Proof.Gen.KernelIdeal.Launch
import proofs.«419512_j42674795053346_3_alg».proof.Proof.Gen.KernelIdeal.Skeleton
import proofs.«419512_j42674795053346_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's branch conditions -/

/-- The condition of the body's first `scf.if` (the reduction index is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): the reduction axis is innermost. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (the reduction index is 7), from the grid coordinates. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the output window is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write the output's block back. -/
theorem noFlush1_5_A : ∀ t : Fin cfg1.N, cond1_0 (grid1.coords t) → ¬cond1_1 (grid1.coords t) → (cfg1.win 5).flush t = false := by decide +kernel
/-- At the points of case B the output window is idle. -/
theorem idleAt1_5_B : ∀ t : Fin cfg1.N, ¬cond1_0 (grid1.coords t) → ¬cond1_1 (grid1.coords t) → cfg1.idle 5 (grid1.coords t) = true := by decide +kernel
/-- At the points of case B the pipeline does not write the output's block back. -/
theorem noFlush1_5_B : ∀ t : Fin cfg1.N, ¬cond1_0 (grid1.coords t) → ¬cond1_1 (grid1.coords t) → (cfg1.win 5).flush t = false := by decide +kernel
/-- At the points of case C the output window is live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of the output window, through which its contents are stated (the choice does not matter). -/
abbrev VO1_5 : View sig .tc .vmem S1024x2048 .f32 := (Memref.whole cc1_stg5_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x32 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x2048 .f32 := win1_5.stage (cfg1.slots t 5)
abbrev hs1_5 (t : Fin cfg1.N) : (ms1_5 t).IsWhole := hstage1_5 ((cfg1.slots t 5).cast nbuf1_5)
/-- The scratch operand: a whole scoped buffer of the kernel's own, the accumulator, passed beside the windows. -/
abbrev scM1_0 : Memref sig .tc .vmem S1024x2048 .f32 := Memref.whole cc1_scratch0
/-- The accumulator as a view: what it holds is stated through it. -/
abbrev VS1_0 : View sig .tc .vmem S1024x2048 .f32 := scM1_0.view

/-- The region's invariant with the accumulator as a memref owned at some contents, beside the other scoped buffers
    (the first call's staging buffers, untouched here) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.R1RunA.lean ====
/- The second kernel region's body run whole in control case A. -/
import proofs.«419512_j42674795053346_3_alg».proof.Proof.R1Runs

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in case A
    (the reduction index is 0: the accumulator is reset to the outlier product, then updated; the output is left alone), with the proof that on whole memrefs — the inputs' at
    their contents, the output's at contents handed back untouched, the accumulator at anything — the body runs to the
    continuation holding the inputs' as they were and each stored buffer with its pieces written. -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) :
    Σ' (L5 : List (View.Piece (Elt F) S1024x2048 .f32)), { LS0 : List (View.Piece (Elt F) S1024x2048 .f32) //
      ∀ (xi5 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨[], ?_, fun xi5 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.R1RunB.lean ====
/- The second kernel region's body run whole in control case B. -/
import proofs.«419512_j42674795053346_3_alg».proof.Proof.R1RunA

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in case B
    (the reduction index is strictly between 0 and 7: the accumulator is updated; the output is left alone), with the proof that on whole memrefs — the inputs' at
    their contents, the output's at contents handed back untouched, the accumulator at what the point before left — the body runs to the
    continuation holding the inputs' as they were and each stored buffer with its pieces written. -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    Σ' (L5 : List (View.Piece (Elt F) S1024x2048 .f32)), { LS0 : List (View.Piece (Elt F) S1024x2048 .f32) //
      ∀ (xi5 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨[], ?_, fun xi5 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.R1RunC.lean ====
/- The second kernel region's body run whole in control case C. -/
import proofs.«419512_j42674795053346_3_alg».proof.Proof.R1RunB

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in case C
    (the reduction index is 7: the accumulator is updated, then the output is the accumulator plus the bias), with the proof that on whole memrefs — the inputs' at
    their contents, the output's at anything, the accumulator at what the point before left — the body runs to the
    continuation holding the inputs' as they were and each stored buffer with its pieces written. -/
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    Σ' (L5 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.R1.lean ====
/- The second kernel region's frame: what each control case leaves in the output's staging buffer and in the
   accumulator, point by point; the proof data at the region-entry contents; the body obligation; the invariant
   at the region's two ends. -/
import proofs.«419512_j42674795053346_3_alg».proof.Proof.R1RunC

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output (the window is idle at its points and not written back there): no pieces —
    a placeholder that nothing consults. -/
def out1_A_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) : Vec F S1024x2048 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the accumulator cover it. -/
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (y : S1024x2048.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x2048.size (by sl_kernel_rfl) y

/-- What case A leaves in the accumulator: its pieces read back over junk. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) : Vec F S1024x2048 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into the output (the window is idle at its points and not written back there): no pieces —
    a placeholder that nothing consults. -/
def out1_B_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the accumulator cover it. -/
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) (y : S1024x2048.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x2048.size (by sl_kernel_rfl) y

/-- What case B leaves in the accumulator: its pieces read back over junk. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's one store into the output tiles its block, so it covers it. -/
theorem cover1_C_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) (y : S1024x2048.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x2048.size (by sl_kernel_rfl) y

/-- What case C leaves in the output's staging buffer: its pieces read back over junk. -/
def out1_C_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the accumulator cover it. -/
theorem scover1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) (y : S1024x2048.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x2048.size (by sl_kernel_rfl) y

/-- What case C leaves in the accumulator: its pieces read back over junk. -/
def sout1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

section Region
-- the TensorCore's buffer contents when the region is entered
variable (V : (c : Dev nD) → (b : Ref sig .tc) → Buf (Elt F) ((c : Thread nD τ).loc b))

/-! ## What the output's staging buffer and the accumulator hold after each point -/

/-- The accumulation: what the output's staging buffer and the accumulator hold after the body at position `n` — the
    case the closed forms select at `n`, run at the point's memrefs and input blocks, the accumulator it reads at
    what this leaves at `n - 1`. -/
def outsAt1 (c : Dev nD) : (n : ℕ) → n < cfg1.N → Vec F S1024x2048 .f32 × Vec F S1024x2048 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 8 = 0
  · by_cases h1 : t.val % 8 = 7
    · exfalso; omega
    · rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t], after1_3]
      rw [show (dat1 V c).leavesExact 4 t = owns (c : Thread nD τ) (ms1_4 t) fullShare ((dat1 V c).after 4 t) from by
            unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t], after1_3]
      rw [show (dat1 V c).leavesExact 4 t = owns (c : Thread nD τ) (ms1_4 t) fullShare ((dat1 V c).after 4 t) from by
            unfold Dat.leavesExact; rw [liveAt1_4 t], after1_4]
      rw [show (dat1 V c).leavesExact 5 t = owns (c : Thread nD τ) (ms1_5 t) fullShare ((dat1 V c).after 5 t) from by
            unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t], after1_3]
      rw [show (dat1 V c).leavesExact 4 t = owns (c : Thread nD τ) (ms1_4 t) fullShare ((dat1 V c).after 4 t) from by
            unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Hand

end
-- ==== Proof.KRun.lean ====
/-
  The kernel program's run, at any float instance: @main is eight items — two stretches of host operations, the
  dequantisation region, three stretches, the matrix-product region, one last stretch —, and between two items every
  unscoped buffer of the core holds a known array: the launch memory pushed through the host operations, with each
  region's arrays replaced by what the region's write-backs leave. Each region is entered with exactly those arrays,
  so its proof data (the regions' modules) apply at them, and at the end every unscoped buffer is read back: the
  seven arguments are as launched and the result buffer holds the last stretch applied to the product region's
  output.
-/
import proofs.«419512_j42674795053346_3_alg».proof.Proof.R0
import proofs.«419512_j42674795053346_3_alg».proof.Proof.R1
import proofs.«419512_j42674795053346_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => (s₀ m ρ).mem ((c : Dev nD), b)
/-- After the first two stretches (the zero-point row, the scale row, the 0/1 column): the dequantisation region's entry. -/
abbrev W1 : Dev nD → Valuation τ sig (Elt F) := fun c => StableHlo.after hostOps0 (W0 m ρ c)
abbrev W2 : Dev nD → Valuation τ sig (Elt F) := fun c => StableHlo.after hostOps0_1 (W1 m ρ c)
/-- The same read at the TensorCore's references. -/
abbrev E2 : (c : Dev nD) → (b : Ref sig .tc) → Buf (Elt F) ((c : Thread nD τ).loc b) := fun c b => W2 m ρ c b
/-- At the dequantisation region's exit: its arrays at what its write-backs leave, every other buffer as entered. -/
def W3 (c : Dev nD) : Valuation τ sig (Elt F) :=
  Pipeline.withArrays spec0 c (W2 m ρ c) fun w => (dat0 (E2 m ρ) c).arrAt w cfg0.N
theorem W3_arr (c : Dev nD) (w : Fin cfg0.W) :
    W3 m ρ c (Proc.devRef .tc (Pipeline.arrRef spec0 w)) = (dat0 (E2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev E3 : (c : Dev nD) → (b : Ref sig .tc) → Buf (Elt F) ((c : Thread nD τ).loc b) := fun c b => W3 m ρ c b
theorem hF0 (c : Dev nD) (w : Fin cfg0.W) : (dat0 (E2 m ρ) c).arrAt w cfg0.N = E3 m ρ c (Pipeline.arrRef spec0 w) :=
  (W3_arr m ρ c w).symm
theorem hrest0 (c : Dev nD) : ∀ b, b ∉ Finset.univ.image (Pipeline.arrRef spec0) → E3 m ρ c b = E2 m ρ c b :=
  fun b hb => W3_of_ne m ρ c b fun w e => hb (Finset.mem_image.mpr ⟨w, Finset.mem_univ _, e⟩)

/-- After the three stretches between the regions (the activations as a matrix, the bias row, the gathered outlier
    columns, the outlier rows): the product region's entry. -/
abbrev W4 : Dev nD → Valuation τ sig (Elt F) := fun c => StableHlo.after hostOps1 (W3 m ρ c)
abbrev W5 : Dev nD → Valuation τ sig (Elt F) := fun c => StableHlo.after hostOps1_1 (W4 m ρ c)
abbrev W6 : Dev nD → Valuation τ sig (Elt F) := fun c => StableHlo.after hostOps1_2 (W5 m ρ c)
abbrev E6 : (c : Dev nD) → (b : Ref sig .tc) → Buf (Elt F) ((c : Thread nD τ).loc b) := fun c b => W6 m ρ c b
/-- At the product region's exit. -/
def W7 (c : Dev nD) : Valuation τ sig (Elt F) :=
  Pipeline.withArrays spec1 c (W6 m ρ c) fun w => (dat1 (E6 m ρ) c).arrAt w cfg1.N
theorem W7_arr (c : Dev nD) (w : Fin cfg1.W) :
    W7 m ρ c (Proc.devRef .tc (Pipeline.arrRef spec1 w)) = (dat1 (E6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev E7 : (c : Dev nD) → (b : Ref sig .tc) → Buf (Elt F) ((c : Thread nD τ).loc b) := fun c b => W7 m ρ c b
theorem hF1 (c : Dev nD) (w : Fin cfg1.W) : (dat1 (E6 m ρ) c).arrAt w cfg1.N = E7 m ρ c (Pipeline.arrRef spec1 w) :=
  (W7_arr m ρ c w).symm
theorem hrest1 (c : Dev nD) : ∀ b, b ∉ Finset.univ.image (Pipeline.arrRef spec1) → E7 m ρ c b = E6 m ρ c b :=
  fun b hb => W7_of_ne m ρ c b fun w e => hb (Finset.mem_image.mpr ⟨w, Finset.mem_univ _, e⟩)
/-- After the last stretch (the result as `[4, 2048, 4096]`). -/
abbrev W8 : Dev nD → Valuation τ sig (Elt F) := fun c => StableHlo.after hostOps2 (W7 m ρ c)

/-! ## An argument array is never written -/

/-- A buffer no host stretch writes and no region has as an array is, at the end, as launched. -/
theorem W8_of_untouched (c : Dev nD) (r : Ref sig .tc) (h0 : r ∉ (hostOps0_W : List (Ref sig .tc))) (h01 : r ∉ (hostOps0_1_W : List (Ref sig .tc)))
    (h1 : r ∉ (hostOps1_W : List (Ref sig .tc))) (h11 : r ∉ (hostOps1_1_W : List (Ref sig .tc))) (h12 : r ∉ (hostOps1_2_W : List (Ref sig .tc)))
    (h2 : r ∉ (hostOps2_W : List (Ref sig .tc))) (ha0 : ∀ w, Pipeline.arrRef spec0 w ≠ r) (ha1 : ∀ w, Pipeline.arrRef spec1 w ≠ r) :
    W8 m ρ c (Proc.devRef .tc r) = m ((c : Thread nD τ).loc r) :=
  calc W8 m ρ c (Proc.devRef .tc r)
    _ = W7 m ρ c (Proc.devRef .tc r) := StableHlo.after_of_writes_sub hostOps2 _ hostOps2_writes h2
    _ = W6 m ρ c (Proc.devRef .tc r) := W7_of_ne m ρ c r ha1
    _ = W5 m ρ c (Proc.devRef .tc r) := StableHlo.after_of_writes_sub hostOps1_2 _ hostOps1_2_writes h12
    _ = W4 m ρ c (Proc.devRef .tc r) := StableHlo.after_of_writes_sub hostOps1_1 _ hostOps1_1_writes h11
    _ = W3 m ρ c (Proc.devRef .tc r) := StableHlo.after_of_writes_sub hostOps1 _ hostOps1_writes h1
    _ = W2 m ρ c (Proc.devRef .tc r) := W3_of_ne m ρ c r ha0
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-- The packed weights are the dequantisation region's first input: read and left as they were. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps2 _ hostOps2_writes (by decide)
    _ = W6 m ρ c (Proc.devRef .tc main_arg1) := W7_of_ne m ρ c main_arg1 (by decide)
    _ = W5 m ρ c (Proc.devRef .tc main_arg1) := StableHlo.after_of_writes_sub hostOps1_2 _ hostOps1_2_writes (by decide)
    _ = W4 m ρ c (Proc.devRef .tc main_arg1) := StableHlo.after_of_writes_sub hostOps1_1 _ hostOps1_1_writes (by decide)
    _ = W3 m ρ c (Proc.devRef .tc main_arg1) := StableHlo.after_of_writes_sub hostOps1 _ hostOps1_writes (by decide)
    _ = W2 m ρ c (Proc.devRef .tc main_arg1) := (W3_arr m ρ c 0).trans (((dat0 (E2 m ρ) c).arrAt_in 0 rfl _).trans (A_eq0 (E2 m ρ) c 0))
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data family and the thread state -/

abbrev adm' : (p : Fin 2) → (pcfgs (F := F) p).Adm := fun p => (cfgs p).toPCfg_adm
/-- Each region's proof data at its entry contents — a literal match on the region's number. -/
def pdats : (p : Fin 2) → (c : Dev nD) → Dat τ (Elt F) Unit ℕ (UR sig nD τ) ℕ (Pipeline.pin (pcfgs (F := F)) adm' p) c
  | ⟨0, _⟩ => fun c => dat0 (E2 m ρ) c
  | ⟨1, _⟩ => fun c => dat1 (E6 m ρ) c
abbrev 𝒱₀ : Variants := Variants.none
abbrev L₀ : GSem nD τ sig → Finset Unit := fun _ => ∅
abbrev lv₀ : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The dequantisation region: entered with every unscoped buffer at `W2`, left at `W3`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (E2 m ρ) c).loose
  hwaits := Pipeline.hwaits_of_owed_zero _ _ _ _ L₀ lv₀ 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (E2 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E2 m ρ c) (E3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered with every unscoped buffer at `W6`, left at `W7`; its invariant is entered from
    the class's (the accumulator at anything) and gives it back, forgetting the accumulator. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (E6 m ρ) c).loose
  hwaits := Pipeline.hwaits_of_owed_zero _ _ _ _ L₀ lv₀ 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (E6 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E6 m ρ) c)
    unfold Pipeline.ΦA
    iintro ⟨Hp, -, Hr⟩
    isplitl [Hr]; · iexact Hr
    iexact Hp
  hout c := by
    rw [Pipeline.ownSems0_none]
    refine BIBase.Entails.trans (hout1 (E6 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E6 m ρ c) (E7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L₀ lv₀) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)),
    .host (hseg hostOps1_2 hostOps1_2_sub hostOps1_2_fresh (W5 m ρ)),
    .region (reg1 m ρ),
    .host (hseg hostOps2 hostOps2_sub hostOps2_fresh (W7 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and at the end every unscoped buffer of every core holds the fold's last contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W8_of_untouched m ρ c main_arg0 (by decide) (by decide) (by decide) (by decide) (by decide) (by decide) (by decide) (by decide)),
     (h c _ (mem_uc main_arg1 (by decide))).trans (W8_main_arg1 m ρ c),
     (h c _ (mem_uc main_arg2 (by decide))).trans (W8_of_untouched m ρ c main_arg2 (by decide) (by decide) (by decide) (by decide) (by decide) (by decide) (by decide) (by decide)),
     (h c _ (mem_uc main_arg3 (by decide))).trans (W8_of_untouched m ρ c main_arg3 (by decide) (by decide) (by decide) (by decide) (by decide) (by decide) (by decide) (by decide)),
     (h c _ (mem_uc main_arg4 (by decide))).trans (W8_of_untouched m ρ c main_arg4 (by decide) (by decide) (by decide) (by decide) (by decide) (by decide) (by decide) (by decide)),
     (h c _ (mem_uc main_arg5 (by decide))).trans (W8_of_untouched m ρ c main_arg5 (by decide) (by decide) (by decide) (by decide) (by decide) (by decide) (by decide) (by decide)),
     (h c _ (mem_uc main_arg6 (by decide))).trans (W8_of_untouched m ρ c main_arg6 (by decide) (by decide) (by decide) (by decide) (by decide) (by decide) (by decide) (by decide))⟩)
    (run_all m ρ)

/-- The same run with the result buffer read as well. -/
theorem run_result : θ_run defs (onTc (τ := τ) (main (F := F))) ⟨m, fun _ => 0, ρ⟩ (fun r => ∀ c : Dev nD,
      r.2.mem ((c.tc : Thread nD τ).loc main_v30) = W8 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v30 (by decide)),
     (h c _ (mem_uc main_arg0 (by decide))).trans (W8_of_untouched m ρ c main_arg0 (by decide) (by decide) (by decide) (by decide) (by decide) (by decide) (by decide) (by decide)),
     (h c _ (mem_uc main_arg1 (by decide))).trans (W8_main_arg1 m ρ c),
     (h c _ (mem_uc main_arg2 (by decide))).trans (W8_of_untouched m ρ c main_arg2 (by decide) (by decide) (by decide) (by decide) (by decide) (by decide) (by decide) (by decide)),
     (h c _ (mem_uc main_arg3 (by decide))).trans (W8_of_untouched m ρ c main_arg3 (by decide) (by decide) (by decide) (by decide) (by decide) (by decide) (by decide) (by decide)),
     (h c _ (mem_uc main_arg4 (by decide))).trans (W8_of_untouched m ρ c main_arg4 (by decide) (by decide) (by decide) (by decide) (by decide) (by decide) (by decide) (by decide)),
     (h c _ (mem_uc main_arg5 (by decide))).trans (W8_of_untouched m ρ c main_arg5 (by decide) (by decide) (by decide) (by decide) (by decide) (by decide) (by decide) (by decide)),
     (h c _ (mem_uc main_arg6 (by decide))).trans (W8_of_untouched m ρ c main_arg6 (by decide) (by decide) (by decide) (by decide) (by decide) (by decide) (by decide) (by decide))⟩)
    (run_all m ρ)

end Cert.KernelIdeal.Hand

end
-- ==== Proof.Spec.lean ====
/-
  What both programs compute, as functions of the argument arrays at the ideal instance (a float an extended real).

  A linear layer whose weight matrix `w : [4096 input rows, 4096 output columns]` is a dequantised 4-bit matrix `wd`
  with 32 OUTLIER rows replaced by full-precision rows `ow[j, :]`, row `ids[j]` by `ow[j, :]`:
  `out[r, o] = (∑ k, x[r, k] · w[k, o]) + bias[o]`.

  The reference overwrites the outlier rows (`weightSet`) and takes one product over all 4096 input rows (`refOut`).
  The kernel multiplies the dequantised matrix by a 0/1 column that is 0 exactly on the outlier rows (`weightMasked`),
  takes the product in 8 blocks of 512 input rows on top of the rank-32 product `x[r, ids[j]] · ow[j, o]`
  (`kernelOut`). The two agree when the 32 row numbers are in range and pairwise distinct: an outlier row then
  contributes `x[r, k] · 0 = 0` to the masked product and exactly one term `x[r, ids[j]] · ow[j, o]` to the rank-32
  one, which is what the overwritten row contributes to the reference's product. Only the commutative monoid laws
  of `+` and `a · 0 = 0`, `a · 1 = a` are used, so no finiteness is needed.
-/
import Idealize.ShloMosaic.PureOps.Ideal
import Idealize.ShloMosaic.Lib.ValueIdx

noncomputable section

open scoped BigOperators Classical

namespace Cert.QuantSpec

open Idealize.ShloMosaic Idealize.ShloMosaic.ValueIdx

/-- The activations as a matrix `[8192 rows, 4096 input rows]`, the outlier weights `[32, 4096]`, the 32 row words, the bias. -/
abbrev SX2 : Shape := ⟨2, ![8192, 4096]⟩
abbrev SX3 : Shape := ⟨3, ![4, 2048, 4096]⟩
abbrev SOW : Shape := ⟨2, ![32, 4096]⟩
abbrev SID : Shape := ⟨1, ![32]⟩
abbrev SB : Shape := ⟨1, ![4096]⟩

/-- Input row `k` is an outlier row: one of the 32 words names it. -/
def isOutlier (ids : IVec SID 32) (k : Fin 4096) : Prop := ∃ j : Fin 32, ids (ix1 j) = BitVec.ofNat 32 k.val

/-- The row a word names, read unsigned and reduced into range (the word itself when it is in range). -/
def idRow (ids : IVec SID 32) (j : Fin 32) : Fin 4096 := ⟨(ids (ix1 j)).toNat % 4096, Nat.mod_lt _ (by norm_num)⟩

/-- The kernel's 0/1 column: 0 on the outlier rows, 1 elsewhere. -/
def keep (ids : IVec SID 32) (k : Fin 4096) : EReal := if isOutlier ids k then 0 else 1

/-- The kernel's weight: the dequantised matrix with the outlier rows zeroed. -/
def weightMasked (wd : Fin 4096 → Fin 4096 → EReal) (ids : IVec SID 32) (k o : Fin 4096) : EReal := wd k o * keep ids k

/-- The reference's weight: the dequantised matrix with outlier row `ids[j]` overwritten by `ow[j, :]`. -/
def weightSet (wd : Fin 4096 → Fin 4096 → EReal) (ow : FVec Ideal SOW .f32) (ids : IVec SID 32) (k o : Fin 4096) : EReal :=
  if h : isOutlier ids k then ow (ix2 (Classical.choose h) o) else wd k o

/-- Input row `kk` of block `kb`: row `512 · kb + kk`. -/
def blockRow (kb : Fin 8) (kk : Fin 512) : Fin 4096 := ⟨512 * kb.val + kk.val, by have := kb.isLt; have := kk.isLt; omega⟩

/-- The kernel's result at row `r`, column `o`: the rank-32 product, plus the 8 blocks of the masked product, plus the bias. -/
def kernelOut (x2 : FVec Ideal SX2 .f32) (wd : Fin 4096 → Fin 4096 → EReal) (ow : FVec Ideal SOW .f32) (ids : IVec SID 32)
    (bias : FVec Ideal SB .f32) (r : Fin 8192) (o : Fin 4096) : EReal :=
  ((∑ j : Fin 32, x2 (ix2 r (idRow ids j)) * ow (ix2 j o))
    + ∑ kb : Fin 8, ∑ kk : Fin 512, x2 (ix2 r (blockRow kb kk)) * weightMasked wd ids (blockRow kb kk) o)
  + bias (ix1 o)

/-- The reference's result at row `r`, column `o`: one product against the overwritten weight, plus the bias. -/
def refOut (x2 : FVec Ideal SX2 .f32) (wd : Fin 4096 → Fin 4096 → EReal) (ow : FVec Ideal SOW .f32) (ids : IVec SID 32)
    (bias : FVec Ideal SB .f32) (r : Fin 8192) (o : Fin 4096) : EReal :=
  (∑ k : Fin 4096, x2 (ix2 r k) * weightSet wd ow ids k o) + bias (ix1 o)

/-- Row `s` of batch `b` is row `2048 · b + s` of the activations as a matrix. -/
def flatRow (b : Fin 4) (s : Fin 2048) : Fin 8192 := ⟨2048 * b.val + s.val, by have := b.isLt; have := s.isLt; omega⟩

/-- The activations `[4, 2048, 4096]` as the matrix `[8192, 4096]` (row-major: a reshape). -/
def flat (x : FVec Ideal SX3 .f32) : FVec Ideal SX2 .f32 :=
  fun i => x (ix3 (⟨(i 0).val / 2048, by have := idx2_lt0 i; omega⟩ : Fin 4)
    (⟨(i 0).val % 2048, Nat.mod_lt _ (by norm_num)⟩ : Fin 2048) (i 1))

end Cert.QuantSpec

end
-- ==== Proof.Nibble.lean ====
/-
  The 4-bit fields of the packed weight.

  Each 32-bit word of the packed matrix `q : [512, 4096]` holds eight 4-bit fields; input row `k` of column `o` is
  field `k mod 8` of word `k / 8` of that column: the word shifted right arithmetically by `4 · (k mod 8)` bits and
  masked with 15 (`nibWord`).

  The kernel takes a block `[512, 512]` of words, makes the eight shifted and masked copies, puts a unit axis between
  rows and columns of each, joins the eight along that axis to `[512, 8, 512]` and reads the result as `[4096, 512]`:
  row `p` of that matrix is copy `p mod 8` at word row `p / 8`, because row-major position `p · 512 + c` of
  `[4096, 512]` is position `((p / 8) · 8 + p mod 8) · 512 + c` of `[512, 8, 512]` (`blockNib_apply`).

  The reference shifts every word by the eight amounts `j · 4`, `j < 8`, masks, and reads `[512, 8, 4096]` as
  `[4096, 4096]`: the same field, since `j · 4 = 4 · j` as 32-bit words for `j < 8` and an arithmetic shift of a 32-bit
  word is the same word on the host as on the vector unit. Converting, subtracting the converted zero point and
  multiplying by the scale is then the same extended real on both sides (`nibWord_eq_ref`).
-/
import proofs.«419512_j42674795053346_3_alg».proof.Proof.Gen.KernelIdeal.Skeleton
import proofs.«419512_j42674795053346_3_alg».proof.Proof.Gen.ReferenceIdeal.Read
import proofs.«419512_j42674795053346_3_alg».proof.Proof.Spec
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Nib

open Cert.KernelIdeal Cert.KernelIdeal.Gen Idealize.ShloMosaic Idealize.ShloMosaic.ValueIdx

variable {F : FTy → Type} [FloatOps F]

/-- The 4-bit field of input row `k`, column `o`: word `k / 8` of the column, shifted right arithmetically by
    `4 · (k mod 8)` bits and masked with 15. -/
def nibWord (q : IVec S512x4096 32) (k o : Fin 4096) : BitVec 32 :=
  IntOp.andi (IntOp.shrsi .vector (q (ix2 (⟨k.val / 8, by have := k.isLt; omega⟩ : Fin 512) o)) (BitVec.ofNat 32 (4 * (k.val % 8)))) 15#32

/-- Copy `n` of a block of words: every word shifted right arithmetically by `4 · n` bits and masked with 15, a unit
    axis put between the rows and the columns. -/
def piece (v0 : Vec F S512x512 .i32) (n : Fin 8) : IVec S512x1x512 32 :=
  shapeCast S512x1x512 (andi (shrsi v0 (broadcast S512x512 (BitVec.ofNat 32 (4 * n.val)))) (broadcast S512x512 15#32))
    shapeCasts_S512x512_S512x1x512

/-- Copy `n` read at row `a`, column `c`: field `n` of the word at row `a`, column `c`. -/
theorem piece_apply (v0 : Vec F S512x512 .i32) (n : Fin 8) (a : Fin 512) (u : Fin 1) (c : Fin 512) :
    piece v0 n (ix3 a u c) = IntOp.andi (IntOp.shrsi .vector (v0 (ix2 a c)) (BitVec.ofNat 32 (4 * n.val))) 15#32 := by
  unfold piece
  rw [shapeCast_apply _ shapeCasts_S512x512_S512x1x512 (ix3 a u c) (ix2 a c)
    (by rw [Shape.rowMajor_val_two, Shape.rowMajor_val_three]
        show a.val * 512 + c.val = (a.val * 1 + u.val) * 512 + c.val
        have := u.isLt
        omega)]
  rfl

/-- The eight copies the kernel builds are the copies `piece v0 0 … piece v0 7`. -/
theorem pieces_eq (v0 : Vec F S512x512 .i32) :
    ([⟨S512x1x512, k0_pay2 v0⟩, ⟨S512x1x512, k0_pay3 v0⟩, ⟨S512x1x512, k0_pay4 v0⟩, ⟨S512x1x512, k0_pay5 v0⟩, ⟨S512x1x512, k0_pay6 v0⟩, ⟨S512x1x512, k0_pay7 v0⟩, ⟨S512x1x512, k0_pay8 v0⟩, ⟨S512x1x512, k0_pay9 v0⟩] : List ((s : Shape) × (s.Idx → BitVec 32)))
      = List.ofFn fun n : Fin 8 => (⟨S512x1x512, piece v0 n⟩ : (s : Shape) × (s.Idx → BitVec 32)) := rfl

/-- Row `p`, column `c` of the eight shifted and masked copies of a block of words, interleaved: the field
    `p mod 8` of word `p / 8` of the block's column `c`. -/
theorem blockNib_apply (v0 : Vec F S512x512 .i32) (p : Fin 4096) (c : Fin 512) :
    shapeCast S4096x512 (concatenate S512x8x512 1 [⟨S512x1x512, k0_pay2 v0⟩, ⟨S512x1x512, k0_pay3 v0⟩, ⟨S512x1x512, k0_pay4 v0⟩, ⟨S512x1x512, k0_pay5 v0⟩, ⟨S512x1x512, k0_pay6 v0⟩, ⟨S512x1x512, k0_pay7 v0⟩, ⟨S512x1x512, k0_pay8 v0⟩, ⟨S512x1x512, k0_pay9 v0⟩] concatenates_S512x1x512_S512x1x512_S512x1x512_S512x1x512_S512x1x512_S512x1x512_S512x1x512_S512x1x512_S512x8x512_d1) shapeCasts_S512x8x512_S4096x512 (ix2 p c)
      = IntOp.andi (IntOp.shrsi .vector (v0 (ix2 (⟨p.val / 8, by have := p.isLt; omega⟩ : Fin 512) c)) (BitVec.ofNat 32 (4 * (p.val % 8)))) 15#32 := by
  have hp := p.isLt
  rw [shapeCast_apply _ shapeCasts_S512x8x512_S4096x512 (ix2 p c)
    (ix3 (⟨p.val / 8, by omega⟩ : Fin 512) (⟨p.val % 8, Nat.mod_lt _ (by norm_num)⟩ : Fin 8) c)
    (by rw [Shape.rowMajor_val_three, Shape.rowMajor_val_two]
        show (p.val / 8 * 8 + p.val % 8) * 512 + c.val = p.val * 512 + c.val
        omega)]
  refine (concatenate_ofFn_unit_apply (t := S512x8x512) (s₁ := S512x1x512) 1 (piece v0)
    concatenates_S512x1x512_S512x1x512_S512x1x512_S512x1x512_S512x1x512_S512x1x512_S512x1x512_S512x1x512_S512x8x512_d1 rfl rfl
    (ix3 (⟨p.val / 8, by omega⟩ : Fin 512) (⟨p.val % 8, Nat.mod_lt _ (by norm_num)⟩ : Fin 8) c)
    (⟨p.val % 8, Nat.mod_lt _ (by norm_num)⟩ : Fin 8) rfl
    (ix3 (⟨p.val / 8, by omega⟩ : Fin 512) (0 : Fin 1) c) ?_).trans ?_
  · intro b
    match b with
    | ⟨0, _⟩ => exact fun _ => rfl
    | ⟨1, _⟩ => exact fun h => absurd rfl h
    | ⟨2, _⟩ => exact fun _ => rfl
  · exact piece_apply v0 _ _ _ _

open Cert.ReferenceIdeal.Read in
/-- The kernel's field, converted, less the converted zero point, times the scale, is the reference's dequantised
    weight: the reference reads the same word, shifts it by `(k mod 8) · 4` bits — the same amount —, and an
    arithmetic shift of 32-bit words is the same word on the host as on the vector unit. -/
theorem nibWord_eq_ref (q : IVec S512x4096 32) (sc : FVec Ideal S4096x1 .f32) (z : IVec S2048x1 32) (k o : Fin 4096) :
    ((FloatOps.sitofp (F := Ideal) .f32 (nibWord q k o) - FloatOps.sitofp (F := Ideal) .f32 (Cert.ReferenceIdeal.Read.val_main_v21 (F := Ideal) z (ix1 o))) * sc (ix2 o 0))
      = Cert.ReferenceIdeal.Read.val_main_v30 (F := Ideal) q sc z (ix2 k o) := by
  have hk := k.isLt
  have ho := o.isLt
  have e1 : idx_main_v3 (idx_main_v5 (idx_main_v10 (ix2 k o))) = ix2 (⟨k.val / 8, by omega⟩ : Fin 512) o := by
    funext a
    match a with
    | ⟨0, _⟩ => apply Fin.ext; show (k.val * 4096 + o.val) / 32768 = k.val / 8; omega
    | ⟨1, _⟩ => apply Fin.ext; show (k.val * 4096 + o.val) % 4096 = o.val; omega
  have e2 : ((idx_main_v4 (idx_main_v6 (idx_main_v10 (ix2 k o)))) 0).val = k.val % 8 := by
    show (k.val * 4096 + o.val) / 4096 % 8 = k.val % 8; omega
  have e3 : idx_main_v25 (idx_main_v26 (ix2 k o)) = ix1 o := by
    funext a
    match a with
    | ⟨0, _⟩ => rfl
  have e4 : idx_main_v22 (idx_main_v28 (idx_main_v29 (ix2 k o))) = ix2 o (0 : Fin 1) := by
    funext a
    match a with
    | ⟨0, _⟩ => apply Fin.ext; show o.val / 1 = o.val; omega
    | ⟨1, _⟩ => rfl
  have e5 : ∀ j : Nat, j < 8 → IntOp.muli (BitVec.ofNat 32 j) 4#32 = BitVec.ofNat 32 (4 * j) := by
    intro j hj
    interval_cases j <;> rfl
  rw [val_main_v30_apply, val_main_v27_apply, val_main_v23_apply, val_main_v10_apply, val_main_v9_apply, val_main_v7_apply,
    val_main_v5_apply, val_main_v3_apply, val_main_v6_apply, val_main_v4_apply, val_main_v2_apply, val_main_v0_apply,
    val_main_v1_apply, val_main_c_apply, val_main_v8_apply, val_main_c_0_apply, val_main_v26_apply, val_main_v25_apply,
    val_main_v24_apply, val_main_v29_apply, val_main_v28_apply, val_main_v22_apply, e1, e2, e3, e4,
    e5 _ (Nat.mod_lt _ (by norm_num)), shrsi_unit .host .vector]
  rfl

end Cert.KernelIdeal.Nib

end
-- ==== Proof.KVal0.lean ====
/-
  The first pallas call's result at the ideal instance, as one function of the arrays the region is entered with:
  entry (k, o) of the masked weight is

      (float(nibble(q, k, o)) - z[0, o]) * s[0, o] * keep[k, 0],

  where nibble(q, k, o) is bits 4(k mod 8) .. 4(k mod 8) + 3 of the packed word q[k / 8, o].

  Grid point t writes back columns 512 t .. 512 t + 511 (all 4096 rows) of the output array; the blocks it reads
  are the same columns of the packed words, of the zero-point row and of the scale row, and the whole 0/1 column.
  The eight column blocks tile the array, so after the last point every entry holds the value above.
-/
import proofs.«419512_j42674795053346_3_alg».proof.Proof.R0
import proofs.«419512_j42674795053346_3_alg».proof.Proof.Nibble
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Val0

open Cert.KernelIdeal Cert.KernelIdeal.Gen Cert.KernelIdeal.Hand Cert.KernelIdeal.Nib
open Idealize.ShloMosaic Idealize.ShloMosaic.TcCoe Idealize.ShloMosaic.ValueIdx
open Idealize.ShloMosaic.Pipeline (Dat Cfg Window)

/-! ## The payload at an index -/

/-- The eight nibble planes of a block of packed words, stacked and flattened: row 8 a + b is plane b of word row a. -/
def planes (v0 : Vec Ideal S512x512 .i32) : IVec S4096x512 32 :=
  shapeCast S4096x512 (concatenate S512x8x512 1 [⟨S512x1x512, k0_pay2 (F := Ideal) v0⟩, ⟨S512x1x512, k0_pay3 (F := Ideal) v0⟩, ⟨S512x1x512, k0_pay4 (F := Ideal) v0⟩, ⟨S512x1x512, k0_pay5 (F := Ideal) v0⟩, ⟨S512x1x512, k0_pay6 (F := Ideal) v0⟩, ⟨S512x1x512, k0_pay7 (F := Ideal) v0⟩, ⟨S512x1x512, k0_pay8 (F := Ideal) v0⟩, ⟨S512x1x512, k0_pay9 (F := Ideal) v0⟩] concatenates_S512x1x512_S512x1x512_S512x1x512_S512x1x512_S512x1x512_S512x1x512_S512x1x512_S512x1x512_S512x8x512_d1) shapeCasts_S512x8x512_S4096x512

/-- A column [4096, 1] broadcast over 512 columns reads, at (p, q), the column at p. -/
theorem col_apply (v : Vec Ideal S4096x1 .f32) (p : Fin 4096) (q : Fin 512) :
    broadcastTo S4096x512 v broadcasts_S4096x1_S4096x512 (ix2 p q) = v (ix2 p (0 : Fin 1)) := by
  refine broadcastTo_apply v broadcasts_S4096x1_S4096x512 (ix2 p q) (ix2 p (0 : Fin 1)) fun ax => ?_
  match ax with
  | ⟨0, _⟩ => rfl
  | ⟨1, _⟩ => rfl

/-- The store's payload at (p, q): the plane entry as a float, minus the zero point of column q, times the scale of
    column q, times the 0/1 entry of row p (widening and narrowing a float change nothing at the ideal instance). -/
theorem pay_apply (v0 : Vec Ideal S512x512 .i32) (x1 x2 : Vec Ideal S1x512 .f32) (x3 : Vec Ideal S4096x1 .bf16) (p : Fin 4096) (q : Fin 512) :
    k0_pay1 (F := Ideal) (k0_pay2 (F := Ideal) v0) (k0_pay3 (F := Ideal) v0) (k0_pay4 (F := Ideal) v0) (k0_pay5 (F := Ideal) v0) (k0_pay6 (F := Ideal) v0) (k0_pay7 (F := Ideal) v0) (k0_pay8 (F := Ideal) v0) (k0_pay9 (F := Ideal) v0) x1 x2 x3 (ix2 p q)
      = ((FloatOps.sitofp (F := Ideal) .f32 (planes v0 (ix2 p q)) - x1 (ix2 (0 : Fin 1) q)) * x2 (ix2 (0 : Fin 1) q)) * x3 (ix2 p (0 : Fin 1)) := by
  unfold k0_pay1
  show ((FloatOps.sitofp (F := Ideal) .f32 (planes v0 (ix2 p q)) - broadcastTo S4096x512 (shapeCast S1x512 x1 shapeCasts_S1x512_S1x512) broadcasts_S1x512_S4096x512 (ix2 p q)) * broadcastTo S4096x512 (shapeCast S1x512 x2 shapeCasts_S1x512_S1x512) broadcasts_S1x512_S4096x512 (ix2 p q)) * broadcastTo S4096x512 (extf (F := Ideal) (φ := .bf16) .f32 (shapeCast S4096x1 x3 shapeCasts_S4096x1_S4096x1) bitsLt_bf16_f32) broadcasts_S4096x1_S4096x512 (ix2 p q) = _
  have e1 : broadcastTo S4096x512 (shapeCast S1x512 x1 shapeCasts_S1x512_S1x512) broadcasts_S1x512_S4096x512 (ix2 p q) = x1 (ix2 (0 : Fin 1) q) :=
    (broadcastTo_1b_ab_apply _ broadcasts_S1x512_S4096x512 p q).trans (shapeCast_apply x1 shapeCasts_S1x512_S1x512 _ _ rfl)
  have e2 : broadcastTo S4096x512 (shapeCast S1x512 x2 shapeCasts_S1x512_S1x512) broadcasts_S1x512_S4096x512 (ix2 p q) = x2 (ix2 (0 : Fin 1) q) :=
    (broadcastTo_1b_ab_apply _ broadcasts_S1x512_S4096x512 p q).trans (shapeCast_apply x2 shapeCasts_S1x512_S1x512 _ _ rfl)
  have e3 : @Eq EReal (broadcastTo S4096x512 (extf (F := Ideal) (φ := .bf16) .f32 (shapeCast S4096x1 x3 shapeCasts_S4096x1_S4096x1) bitsLt_bf16_f32) broadcasts_S4096x1_S4096x512 (ix2 p q)) (x3 (ix2 p (0 : Fin 1))) :=
    (col_apply (extf (F := Ideal) (φ := .bf16) .f32 (shapeCast S4096x1 x3 shapeCasts_S4096x1_S4096x1) bitsLt_bf16_f32) p q).trans
      (shapeCast_apply x3 shapeCasts_S4096x1_S4096x1 (ix2 p (0 : Fin 1)) (ix2 p (0 : Fin 1)) rfl)
  rw [e1, e2, e3]

/-! ## The schedule: which blocks a grid point reads and writes -/

/-- The printed index maps, decided over the grid: at point t the packed words, the zero points, the scales and the
    output are on column block t (row block 0); the 0/1 column is on its one block. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Column q of block t: column 512 t + q of the array. -/
def colOf (t : Fin cfg0.N) (q : Fin 512) : Fin 4096 :=
  ⟨t.val * 512 + q.val, by have := t.isLt; have := q.isLt; have : cfg0.N = 8 := N_0; omega⟩

-- the buffer contents when the region is entered, at the ideal instance
variable (V : (c : Dev nD) → (b : Ref sig .tc) → Buf (Elt Ideal) ((c : Thread nD τ).loc b))

/-- The four arrays the region reads, and their blocks at a point, each at its literal type. -/
abbrev qarr (c : Dev nD) : IVec S512x4096 32 := V c main_arg1
abbrev zarr (c : Dev nD) : FVec Ideal S1x4096 .f32 := V c main_v13
abbrev sarr (c : Dev nD) : FVec Ideal S1x4096 .f32 := V c main_v14
abbrev karr (c : Dev nD) : FVec Ideal S4096x1 .bf16 := V c main_v22
abbrev qblk (c : Dev nD) (t : Fin cfg0.N) : Vec Ideal S512x512 .i32 := iblk0 V c 0 t
abbrev zblk (c : Dev nD) (t : Fin cfg0.N) : Vec Ideal S1x512 .f32 := iblk0 V c 1 t
abbrev sblk (c : Dev nD) (t : Fin cfg0.N) : Vec Ideal S1x512 .f32 := iblk0 V c 2 t
abbrev kblk (c : Dev nD) (t : Fin cfg0.N) : Vec Ideal S4096x1 .bf16 := iblk0 V c 3 t

/-- The block of packed words at point t holds columns 512 t .. of the array. -/
theorem qblk_apply (c : Dev nD) (t : Fin cfg0.N) (a : Fin 512) (q : Fin 512) :
    qblk V c t (ix2 a q) = qarr V c (ix2 a (colOf t q)) := by
  show V c main_arg1 (((cfg0.win 0).blk t).view.emb (ix2 a q)) = V c main_arg1 (ix2 a (colOf t q))
  refine congrArg _ (funext fun ax => Fin.ext ?_)
  obtain ⟨e00, e01, -⟩ := idx_facts t
  match ax with
  | ⟨0, _⟩ => show win0_0.index t (0 : Fin 2) * 512 + 1 * a.val = a.val; omega
  | ⟨1, _⟩ => show win0_0.index t (1 : Fin 2) * 512 + 1 * q.val = t.val * 512 + q.val; omega

theorem zblk_apply (c : Dev nD) (t : Fin cfg0.N) (q : Fin 512) :
    zblk V c t (ix2 (0 : Fin 1) q) = zarr V c (ix2 (0 : Fin 1) (colOf t q)) := by
  show V c main_v13 (((cfg0.win 1).blk t).view.emb (ix2 (0 : Fin 1) q)) = V c main_v13 (ix2 (0 : Fin 1) (colOf t q))
  refine congrArg _ (funext fun ax => Fin.ext ?_)
  obtain ⟨-, -, e10, e11, -⟩ := idx_facts t
  match ax with
  | ⟨0, _⟩ => show win0_1.index t (0 : Fin 2) * 1 + 1 * 0 = 0; omega
  | ⟨1, _⟩ => show win0_1.index t (1 : Fin 2) * 512 + 1 * q.val = t.val * 512 + q.val; omega

theorem sblk_apply (c : Dev nD) (t : Fin cfg0.N) (q : Fin 512) :
    sblk V c t (ix2 (0 : Fin 1) q) = sarr V c (ix2 (0 : Fin 1) (colOf t q)) := by
  show V c main_v14 (((cfg0.win 2).blk t).view.emb (ix2 (0 : Fin 1) q)) = V c main_v14 (ix2 (0 : Fin 1) (colOf t q))
  refine congrArg _ (funext fun ax => Fin.ext ?_)
  obtain ⟨-, -, -, -, e20, e21, -⟩ := idx_facts t
  match ax with
  | ⟨0, _⟩ => show win0_2.index t (0 : Fin 2) * 1 + 1 * 0 = 0; omega
  | ⟨1, _⟩ => show win0_2.index t (1 : Fin 2) * 512 + 1 * q.val = t.val * 512 + q.val; omega

theorem kblk_apply (c : Dev nD) (t : Fin cfg0.N) (p : Fin 4096) :
    kblk V c t (ix2 p (0 : Fin 1)) = karr V c (ix2 p (0 : Fin 1)) := by
  show V c main_v22 (((cfg0.win 3).blk t).view.emb (ix2 p (0 : Fin 1))) = V c main_v22 (ix2 p (0 : Fin 1))
  refine congrArg _ (funext fun ax => Fin.ext ?_)
  obtain ⟨-, -, -, -, -, -, e30, e31, -⟩ := idx_facts t
  match ax with
  | ⟨0, _⟩ => show win0_3.index t (0 : Fin 2) * 4096 + 1 * p.val = p.val; omega
  | ⟨1, _⟩ => show win0_3.index t (1 : Fin 2) * 1 + 1 * 0 = 0; omega

/-- Entry (p, q) of the output block at point t is entry (p, 512 t + q) of the array. -/
theorem oblk_emb (t : Fin cfg0.N) (p : Fin 4096) (q : Fin 512) :
    ((cfg0.win 4).blk t).view.emb (ix2 p q) = ix2 p (colOf t q) := by
  refine funext fun ax => Fin.ext ?_
  obtain ⟨-, -, -, -, -, -, -, -, e40, e41⟩ := idx_facts t
  match ax with
  | ⟨0, _⟩ => show win0_4.index t (0 : Fin 2) * 4096 + 1 * p.val = p.val; omega
  | ⟨1, _⟩ => show win0_4.index t (1 : Fin 2) * 512 + 1 * q.val = t.val * 512 + q.val; omega

/-! ## The masked weight -/

/-- The masked, dequantised weight of four arrays, entry by entry. -/
def maskedWeight (q : IVec S512x4096 32) (z s : FVec Ideal S1x4096 .f32) (kp : FVec Ideal S4096x1 .bf16) : S4096x4096.Idx → EReal :=
  fun i => ((FloatOps.sitofp (F := Ideal) .f32 (nibWord q (i 0) (i 1)) - z (ix2 (0 : Fin 1) (i 1))) * s (ix2 (0 : Fin 1) (i 1))) * kp (ix2 (i 0) (0 : Fin 1))

theorem hz : (![0, 0] : Fin 2 → Nat) = fun _ => 0 := funext fun a => by fin_cases a <;> rfl

/-- What point t writes back is block t of the masked weight of the arrays as the region finds them. -/
theorem flushed_eq (c : Dev nD) (t : Fin cfg0.N) :
    (dat0 V c).flushed 4 t = ((cfg0.win 4).blk t).view.read (Elt Ideal) (maskedWeight (qarr V c) (zarr V c) (sarr V c) (karr V c)) := by
  show (cfg0.win 4).cut (grid0.coords t) ((dat0 V c).after 4 t) = _
  rw [after0_4]
  unfold out0_4
  rw [View.canon_unit_zero hz]
  simp only [View.ld_unit_zero (S := S512x512) hz, View.ld_unit_zero (S := S1x512) hz, View.ld_unit_zero (S := S4096x1) hz]
  funext j
  obtain ⟨p, q, rfl⟩ : ∃ (p : Fin 4096) (q : Fin 512), j = ix2 p q := ⟨j 0, j 1, eq_ix2 j⟩
  show k0_pay1 (F := Ideal) (k0_pay2 (F := Ideal) (qblk V c t)) (k0_pay3 (F := Ideal) (qblk V c t)) (k0_pay4 (F := Ideal) (qblk V c t)) (k0_pay5 (F := Ideal) (qblk V c t)) (k0_pay6 (F := Ideal) (qblk V c t)) (k0_pay7 (F := Ideal) (qblk V c t)) (k0_pay8 (F := Ideal) (qblk V c t)) (k0_pay9 (F := Ideal) (qblk V c t)) (zblk V c t) (sblk V c t) (kblk V c t) (ix2 p q)
    = maskedWeight (qarr V c) (zarr V c) (sarr V c) (karr V c) (((cfg0.win 4).blk t).view.emb (ix2 p q))
  refine (pay_apply (qblk V c t) (zblk V c t) (sblk V c t) (kblk V c t) p q).trans ?_
  refine Eq.trans ?_ (congrArg (maskedWeight (qarr V c) (zarr V c) (sarr V c) (karr V c)) (oblk_emb t p q).symm)
  show _ = ((FloatOps.sitofp (F := Ideal) .f32 (nibWord (qarr V c) p (colOf t q)) - zarr V c (ix2 (0 : Fin 1) (colOf t q))) * sarr V c (ix2 (0 : Fin 1) (colOf t q))) * karr V c (ix2 p (0 : Fin 1))
  have h0 : planes (qblk V c t) (ix2 p q) = nibWord (qarr V c) p (colOf t q) := by
    refine (blockNib_apply (F := Ideal) (qblk V c t) p q).trans ?_
    unfold nibWord
    rw [qblk_apply]
  rw [h0, zblk_apply, sblk_apply, kblk_apply]

/-! ## From the blocks to the array -/

/-- An index of the array is in point t's block iff each coordinate is in the block's range on its axis. -/
theorem mem_blk (t : Fin cfg0.N) (i : S4096x4096.Idx) :
    i ∈ ((cfg0.win 4).blk t).view.set ↔ ∀ a : Fin 2, win0_4.index t a * S4096x512.size a ≤ (i a).val ∧ (i a).val < win0_4.index t a * S4096x512.size a + S4096x512.size a := by
  show i ∈ ((View.whole main_v23).slice (win0_4.rect t)).set ↔ _
  rw [View.set_slice_whole, Rect.mem_set_unit]
  exact Iff.rfl

/-- Every entry of the array is in the block of the point that owns its column: column o is in block o / 512. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by omega⟩, rfl⟩
  obtain ⟨-, -, -, -, -, -, -, -, e40, e41⟩ := idx_facts t
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 512 ≤ (i 1).val ∧ (i 1).val < win0_4.index t (1 : Fin 2) * 512 + 512; omega

/-- The output array after the last point: the masked weight of the arrays the region was entered with. -/
theorem final0_masked (c : Dev nD) :
    (dat0 V c).arrAt 4 cfg0.N = maskedWeight (qarr V c) (zarr V c) (sarr V c) (karr V c) :=
  (dat0 V c).arrAt_eq_of_cover 4 (maskedWeight (qarr V c) (zarr V c) (sarr V c) (karr V c)) (fun t _ => flushed_eq V c t) cover

/-- The same, written out entry by entry. -/
theorem final0 (c : Dev nD) : (dat0 V c).arrAt 4 cfg0.N = fun i => ((FloatOps.sitofp (F := Ideal) .f32 (nibWord (V c main_arg1) (i 0) (i 1)) - (V c main_v13) (ix2 0 (i 1))) * (V c main_v14) (ix2 0 (i 1))) * (V c main_v22) (ix2 (i 0) 0) :=
  final0_masked V c

end Cert.KernelIdeal.Val0

end
-- ==== Proof.R1Pay.lean ====
/- The second kernel region's pieces in payload form: what each control case leaves in the accumulator and (the last
   case) in the output's staging buffer, as the body's payloads of the blocks it loads; and the same point by point. -/
import proofs.«419512_j42674795053346_3_alg».proof.Proof.R1
import Idealize.ShloMosaic.Lib.Pipeline.Value

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem r1_hz : (![0, 0] : Fin 2 → Nat) = fun _ => 0 := funext fun a => by fin_cases a <;> rfl

/-- Case A (reduction index 0): the accumulator is reset to the outlier product and then updated with the block product. -/
theorem sout1_A_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) :
    sout1_A_0 c i arg3 harg3 arg4 harg4 arg5 harg5 arg6 harg6 arg7 harg7 arg8 harg8 arg9 harg9 hc0 hc1 x0 x1 x2 x3 x4 = k1_pay2 x0 (k1_pay1 x3 x4) x1 := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x2048) r1_hz, View.readCov_unit_zero (S := S1024x2048) _ r1_hz]
  simp only [View.readAt_eq_ld, harg3.read_unread, harg4.read_unread, harg5.read_unread, harg6.read_unread, harg7.read_unread, harg8.read_unread, harg9.read_unread, View.ld_unit_zero (S := S1024x512) r1_hz, View.ld_unit_zero (S := S512x2048) r1_hz, View.ld_unit_zero (S := S1x2048) r1_hz, View.ld_unit_zero (S := S1024x32) r1_hz, View.ld_unit_zero (S := S32x2048) r1_hz, View.ld_unit_zero (S := S1024x2048) r1_hz]

/-- Case B (reduction index strictly between 0 and 7): the accumulator is updated with the block product. -/
theorem sout1_B_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : ¬cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    sout1_B_0 c i arg3 harg3 arg4 harg4 arg5 harg5 arg6 harg6 arg7 harg7 arg8 harg8 arg9 harg9 hc0 hc1 x0 x1 x2 x3 x4 xs0 = k1_pay2 x0 xs0 x1 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero (S := S1024x2048) r1_hz]
  simp only [View.readAt_eq_ld, harg3.read_unread, harg4.read_unread, harg5.read_unread, harg6.read_unread, harg7.read_unread, harg8.read_unread, harg9.read_unread, View.ld_unit_zero (S := S1024x512) r1_hz, View.ld_unit_zero (S := S512x2048) r1_hz, View.ld_unit_zero (S := S1x2048) r1_hz, View.ld_unit_zero (S := S1024x32) r1_hz, View.ld_unit_zero (S := S32x2048) r1_hz, View.ld_unit_zero (S := S1024x2048) r1_hz]

/-- Case C (reduction index 7): the accumulator is updated with the block product … -/
theorem sout1_C_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    sout1_C_0 c i arg3 harg3 arg4 harg4 arg5 harg5 arg6 harg6 arg7 harg7 arg8 harg8 arg9 harg9 hc0 hc1 x0 x1 x2 x3 x4 xs0 = k1_pay2 x0 xs0 x1 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1024x2048) r1_hz]
  simp only [View.readAt_eq_ld, harg3.read_unread, harg4.read_unread, harg5.read_unread, harg6.read_unread, harg7.read_unread, harg8.read_unread, harg9.read_unread, View.ld_unit_zero (S := S1024x512) r1_hz, View.ld_unit_zero (S := S512x2048) r1_hz, View.ld_unit_zero (S := S1x2048) r1_hz, View.ld_unit_zero (S := S1024x32) r1_hz, View.ld_unit_zero (S := S32x2048) r1_hz, View.ld_unit_zero (S := S1024x2048) r1_hz]

/-- … and the output is the updated accumulator plus the bias row. -/
theorem out1_C_5_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x32 .bf16) (harg6 : arg6.IsWhole) (arg7 : Memref sig .tc .vmem S32x2048 .bf16) (harg7 : arg7.IsWhole) (arg8 : Memref sig .tc .vmem S1024x2048 .f32) (harg8 : arg8.IsWhole) (arg9 : Memref sig .tc .vmem S1024x2048 .f32) (harg9 : arg9.IsWhole) (hc0 : ¬cond1_0 i) (hc1 : cond1_1 i)
    (x0 : Vec F S1024x512 .f32) (x1 : Vec F S512x2048 .bf16) (x2 : Vec F S1x2048 .f32) (x3 : Vec F S1024x32 .bf16) (x4 : Vec F S32x2048 .bf16) (xs0 : Vec F S1024x2048 .f32) :
    out1_C_5 c i arg3 harg3 arg4 harg4 arg5 harg5 arg6 harg6 arg7 harg7 arg8 harg8 arg9 harg9 hc0 hc1 x0 x1 x2 x3 x4 xs0 = k1_pay3 (k1_pay2 x0 xs0 x1) x2 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1024x2048) r1_hz, View.readCov_unit_zero (S := S1024x2048) _ r1_hz]
  simp only [View.readAt_eq_ld, harg3.read_unread, harg4.read_unread, harg5.read_unread, harg6.read_unread, harg7.read_unread, harg8.read_unread, harg9.read_unread, View.ld_unit_zero (S := S1024x512) r1_hz, View.ld_unit_zero (S := S512x2048) r1_hz, View.ld_unit_zero (S := S1x2048) r1_hz, View.ld_unit_zero (S := S1024x32) r1_hz, View.ld_unit_zero (S := S32x2048) r1_hz, View.ld_unit_zero (S := S1024x2048) r1_hz]

section Region
variable (V : (c : Dev nD) → (b : Ref sig .tc) → Buf (Elt F) ((c : Thread nD τ).loc b))

/-- At a point whose reduction index is 0 the accumulator ends at the block product over the outlier product. -/
theorem outsAt1_acc_first (c : Dev nD) (t : Fin cfg1.N) (h0 : t.val % 8 = 0) :
    (outsAt1 V c t.val t.isLt).2 = k1_pay2 (iblk1 V c 0 t) (k1_pay1 (iblk1 V c 3 t) (iblk1 V c 4 t)) (iblk1 V c 1 t) := by
  have h1 : ¬t.val % 8 = 7 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- At any other point it ends at the block product over what the point before left. -/
theorem outsAt1_acc_next (c : Dev nD) (t : Fin cfg1.N) (h0 : ¬t.val % 8 = 0) :
    (outsAt1 V c t.val t.isLt).2 = k1_pay2 (iblk1 V c 0 t) (outsAt1 V c (t.val - 1) (Nat.lt_of_le_of_lt (Nat.sub_le _ _) t.isLt)).2 (iblk1 V c 1 t) := by
  by_cases h1 : t.val % 8 = 7
  · rw [outsAt1_C V c t h0 h1]; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- At a point whose reduction index is 7 the output's staging buffer ends at the accumulator plus the bias row. -/
theorem outsAt1_out_last (c : Dev nD) (t : Fin cfg1.N) (h1 : t.val % 8 = 7) :
    (outsAt1 V c t.val t.isLt).1 = k1_pay3 (outsAt1 V c t.val t.isLt).2 (iblk1 V c 2 t) := by
  have h0 : ¬t.val % 8 = 0 := by omega
  rw [outsAt1_C V c t h0 h1]; dsimp only
  exact (out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2).trans
    (congrArg (fun z => k1_pay3 z (iblk1 V c 2 t)) (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2).symm)

end Region

end Cert.KernelIdeal.Hand

end
-- ==== Proof.KVal1Pay.lean ====
/-
  The three arithmetic steps of the blocked matrix product, read at one entry at the ideal instance
  (a float an extended real, a format change the identity).

  * the rank-32 start: entry (p, q) of the product of a [1024, 32] block by a [32, 2048] block is
    the sum over the 32 inner positions of the products of the entries;
  * one accumulation step: the accumulator's entry plus the same sum over 512 inner positions of a
    [1024, 512] block by a [512, 2048] block;
  * the final step: the accumulator's entry plus the bias row's entry of that column.
-/
import proofs.«419512_j42674795053346_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Val1

open Cert.KernelIdeal Cert.KernelIdeal.Gen Idealize.ShloMosaic Idealize.ShloMosaic.ValueIdx Idealize.SL.Sem

/-! ## The operand indices of the [1024, 32] × [32, 2048] product -/

theorem lhs_small_0 (i : S1024x2048.Idx) (q : dot_S1024x32_S32x2048_S1024x2048_1_0_0_1_n_n.contr.Idx) :
    (dot_S1024x32_S32x2048_S1024x2048_1_0_0_1_n_n.lhsIdx i q 0).val = (i 0).val := by
  unfold DotDims.lhsIdx
  rw [dif_neg (show ¬(0 : Fin S1024x32.rank) ∈ dot_S1024x32_S32x2048_S1024x2048_1_0_0_1_n_n.lhsBatch by decide), dif_pos (show (0 : Fin S1024x32.rank) ∈ dot_S1024x32_S32x2048_S1024x2048_1_0_0_1_n_n.lhsNonContracting by decide)]
  rfl
theorem lhs_small_1 (i : S1024x2048.Idx) (q : dot_S1024x32_S32x2048_S1024x2048_1_0_0_1_n_n.contr.Idx) :
    (dot_S1024x32_S32x2048_S1024x2048_1_0_0_1_n_n.lhsIdx i q 1).val = (q ⟨0, by decide⟩).val :=
  dot_S1024x32_S32x2048_S1024x2048_1_0_0_1_n_n.lhsIdx_val_of_single rfl i q
theorem rhs_small_0 (i : S1024x2048.Idx) (q : dot_S1024x32_S32x2048_S1024x2048_1_0_0_1_n_n.contr.Idx) :
    (dot_S1024x32_S32x2048_S1024x2048_1_0_0_1_n_n.rhsIdx i q 0).val = (q ⟨0, by decide⟩).val :=
  dot_S1024x32_S32x2048_S1024x2048_1_0_0_1_n_n.rhsIdx_val_of_single rfl i q
theorem rhs_small_1 (i : S1024x2048.Idx) (q : dot_S1024x32_S32x2048_S1024x2048_1_0_0_1_n_n.contr.Idx) :
    (dot_S1024x32_S32x2048_S1024x2048_1_0_0_1_n_n.rhsIdx i q 1).val = (i 1).val := by
  unfold DotDims.rhsIdx
  rw [dif_neg (show ¬(1 : Fin S32x2048.rank) ∈ dot_S1024x32_S32x2048_S1024x2048_1_0_0_1_n_n.rhsBatch by decide), dif_pos (show (1 : Fin S32x2048.rank) ∈ dot_S1024x32_S32x2048_S1024x2048_1_0_0_1_n_n.rhsNonContracting by decide)]
  rfl

/-- The product of a [1024, 32] block by a [32, 2048] block into zero, at entry (p, q). -/
theorem matmul_small_apply (x : FVec Ideal S1024x32 .bf16) (w : FVec Ideal S32x2048 .bf16) (p : Fin 1024) (q : Fin 2048) :
    FloatOps.matmul dot_S1024x32_S32x2048_S1024x2048_1_0_0_1_n_n none x w (constant (F := Ideal) S1024x2048 .f32 0x00000000#32) (ix2 p q)
      = ∑ jj : Fin 32, x (ix2 p jj) * w (ix2 jj q) := by
  rw [Ideal.matmul_constant_zero_apply, ← Equiv.sum_comp (contrEquiv1 dot_S1024x32_S32x2048_S1024x2048_1_0_0_1_n_n 32 rfl rfl).symm]
  refine Finset.sum_congr rfl fun k _ => ?_
  have hk := contrEquiv1_symm_val dot_S1024x32_S32x2048_S1024x2048_1_0_0_1_n_n 32 rfl rfl k
  have el : dot_S1024x32_S32x2048_S1024x2048_1_0_0_1_n_n.lhsIdx (ix2 p q) ((contrEquiv1 dot_S1024x32_S32x2048_S1024x2048_1_0_0_1_n_n 32 rfl rfl).symm k) = ix2 p k := funext fun a => Fin.ext (by
    match a with
    | ⟨0, _⟩ => exact lhs_small_0 _ _
    | ⟨1, _⟩ => exact (lhs_small_1 _ _).trans hk)
  have er : dot_S1024x32_S32x2048_S1024x2048_1_0_0_1_n_n.rhsIdx (ix2 p q) ((contrEquiv1 dot_S1024x32_S32x2048_S1024x2048_1_0_0_1_n_n 32 rfl rfl).symm k) = ix2 k q := funext fun a => Fin.ext (by
    match a with
    | ⟨0, _⟩ => exact (rhs_small_0 _ _).trans hk
    | ⟨1, _⟩ => exact rhs_small_1 _ _)
  rw [el, er]

/-! ## The operand indices of the [1024, 512] × [512, 2048] product -/

theorem lhs_big_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_big_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_big_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_big_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The product of a [1024, 512] block by a [512, 2048] block into zero, at entry (p, q). -/
theorem matmul_big_apply (a : FVec Ideal S1024x512 .bf16) (b : FVec Ideal S512x2048 .bf16) (p : Fin 1024) (q : Fin 2048) :
    FloatOps.matmul dot_S1024x512_S512x2048_S1024x2048_1_0_0_1_n_n none a b (constant (F := Ideal) S1024x2048 .f32 0x00000000#32) (ix2 p q)
      = ∑ kk : Fin 512, a (ix2 p kk) * b (ix2 kk q) := by
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact lhs_big_0 _ _
    | ⟨1, _⟩ => exact (lhs_big_1 _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (rhs_big_0 _ _).trans hk
    | ⟨1, _⟩ => exact rhs_big_1 _ _)
  rw [el, er]

/-! ## The three payloads at an entry -/

/-- The rank-32 start at entry (p, q). -/
theorem pay1_apply (xo : Vec Ideal S1024x32 .bf16) (ow : Vec Ideal S32x2048 .bf16) (p : Fin 1024) (q : Fin 2048) :
    k1_pay1 (F := Ideal) xo ow (ix2 p q) = ∑ jj : Fin 32, xo (ix2 p jj) * ow (ix2 jj q) := by
  unfold k1_pay1
  simp only [shapeCast_self]
  exact matmul_small_apply xo ow p q

/-- One accumulation step at entry (p, q). -/
theorem pay2_apply (a : Vec Ideal S1024x512 .f32) (acc : Vec Ideal S1024x2048 .f32) (b : Vec Ideal S512x2048 .bf16) (p : Fin 1024) (q : Fin 2048) :
    k1_pay2 (F := Ideal) a acc b (ix2 p q) = acc (ix2 p q) + ∑ kk : Fin 512, a (ix2 p kk) * b (ix2 kk q) := by
  unfold k1_pay2
  simp only [shapeCast_self]
  refine (addf_apply _ _ _).trans ?_
  exact congrArg (acc (ix2 p q) + ·) (matmul_big_apply (truncf .bf16 a bitsLt_bf16_f32) b p q)

/-- The final step at entry (p, q). -/
theorem pay3_apply (acc : Vec Ideal S1024x2048 .f32) (bias : Vec Ideal S1x2048 .f32) (p : Fin 1024) (q : Fin 2048) :
    k1_pay3 (F := Ideal) acc bias (ix2 p q) = acc (ix2 p q) + bias (ix2 0 q) := by
  unfold k1_pay3
  simp only [shapeCast_self]
  refine (addf_apply _ _ _).trans ?_
  refine congrArg (acc (ix2 p q) + ·) ?_
  refine broadcastTo_apply _ _ _ _ ?_
  intro a
  match a with
  | ⟨0, _⟩ => rfl
  | ⟨1, _⟩ => rfl

end Cert.KernelIdeal.Val1

end
-- ==== Proof.KVal1Blocks.lean ====
/-
  The second kernel region's arrays and blocks, entry by entry, at the ideal instance.

  The grid is (8, 2, 8): point t = 16·i + 8·j + k works on row tile i (1024 rows), column tile j (2048 columns)
  and block k of 512 input rows. The block of each window at a point, read at an entry, is the array's entry at
  block index × block size + the coordinate inside the block; the block indices at a point are decided once over
  the 128 points. The terms of the result at an entry of a tile: the rank-32 product, and each block's part of the
  masked product; the sum of the first m of the eight parts.
-/
import proofs.«419512_j42674795053346_3_alg».proof.Proof.R1Runs
import proofs.«419512_j42674795053346_3_alg».proof.Proof.KVal1Pay
import proofs.«419512_j42674795053346_3_alg».proof.Proof.Spec
import Idealize.ShloMosaic.Lib.Pipeline.Value
import Idealize.ShloMosaic.Lib.ValueIdx

noncomputable section

open scoped BigOperators

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays and the blocks, at their literal types -/

abbrev xarr (c : Dev nD) : Vec Ideal S8192x4096 .f32 := V c main_v24
abbrev warr (c : Dev nD) : Vec Ideal S4096x4096 .bf16 := V c main_v23
abbrev barr (c : Dev nD) : Vec Ideal S1x4096 .f32 := V c main_v25
abbrev xoarr (c : Dev nD) : Vec Ideal S8192x32 .bf16 := V c main_v27
abbrev owarr (c : Dev nD) : Vec Ideal S32x4096 .bf16 := V c main_v28

abbrev ablk (c : Dev nD) (t : Fin cfg1.N) : Vec Ideal S1024x512 .f32 := iblk1 V c 0 t
abbrev bblk (c : Dev nD) (t : Fin cfg1.N) : Vec Ideal S512x2048 .bf16 := iblk1 V c 1 t
abbrev biasblk (c : Dev nD) (t : Fin cfg1.N) : Vec Ideal S1x2048 .f32 := iblk1 V c 2 t
abbrev xoblk (c : Dev nD) (t : Fin cfg1.N) : Vec Ideal S1024x32 .bf16 := iblk1 V c 3 t
abbrev owblk (c : Dev nD) (t : Fin cfg1.N) : Vec Ideal S32x2048 .bf16 := iblk1 V c 4 t

/-- Row `p` of row tile `i`: row `1024 · i + p`. -/
def tileRow (i : Fin 8) (p : Fin 1024) : Fin 8192 := ⟨1024 * i.val + p.val, by have := i.isLt; have := p.isLt; omega⟩
/-- Column `q` of column tile `j`: column `2048 · j + q`. -/
def tileCol (j : Fin 2) (q : Fin 2048) : Fin 4096 := ⟨2048 * j.val + q.val, by have := j.isLt; have := q.isLt; omega⟩

/-! ## The index maps at a point, decided over the grid -/

theorem idx_facts : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = t.val / 16 ∧ win1_3.index t (1 : Fin 2) = 0
    ∧ win1_4.index t (0 : Fin 2) = 0 ∧ win1_4.index t (1 : Fin 2) = t.val / 8 % 2
    ∧ win1_5.index t (0 : Fin 2) = t.val / 16 ∧ win1_5.index t (1 : Fin 2) = t.val / 8 % 2 :=
  (by decide +kernel : ∀ t : Fin grid1.N, _)

/-! ## The blocks read off the arrays -/

theorem ablk_apply (c : Dev nD) (t : Fin cfg1.N) (i : Fin 8) (j : Fin 2) (k : Fin 8) (ht : t.val = 16 * i.val + 8 * j.val + k.val)
    (p : Fin 1024) (kk : Fin 512) :
    ablk V c t (ix2 p kk) = xarr V c (ix2 (tileRow i p) (Cert.QuantSpec.blockRow k kk)) := by
  obtain ⟨e0, e1, -⟩ := idx_facts t
  have hi := i.isLt; have hj := j.isLt; have hk := k.isLt
  unfold ablk iblk1
  rw [View.read_apply]
  show V c main_v24 _ = V c main_v24 _
  congr 1
  funext a
  apply Fin.ext
  match a with
  | ⟨0, _⟩ => show win1_0.index t (0 : Fin 2) * 1024 + 1 * p.val = 1024 * i.val + p.val; rw [e0]; omega
  | ⟨1, _⟩ => show win1_0.index t (1 : Fin 2) * 512 + 1 * kk.val = 512 * k.val + kk.val; rw [e1]; omega

theorem bblk_apply (c : Dev nD) (t : Fin cfg1.N) (i : Fin 8) (j : Fin 2) (k : Fin 8) (ht : t.val = 16 * i.val + 8 * j.val + k.val)
    (kk : Fin 512) (q : Fin 2048) :
    bblk V c t (ix2 kk q) = warr V c (ix2 (Cert.QuantSpec.blockRow k kk) (tileCol j q)) := by
  obtain ⟨-, -, e0, e1, -⟩ := idx_facts t
  have hi := i.isLt; have hj := j.isLt; have hk := k.isLt
  unfold bblk iblk1
  rw [View.read_apply]
  show V c main_v23 _ = V c main_v23 _
  congr 1
  funext a
  apply Fin.ext
  match a with
  | ⟨0, _⟩ => show win1_1.index t (0 : Fin 2) * 512 + 1 * kk.val = 512 * k.val + kk.val; rw [e0]; omega
  | ⟨1, _⟩ => show win1_1.index t (1 : Fin 2) * 2048 + 1 * q.val = 2048 * j.val + q.val; rw [e1]; omega

theorem biasblk_apply (c : Dev nD) (t : Fin cfg1.N) (i : Fin 8) (j : Fin 2) (k : Fin 8) (ht : t.val = 16 * i.val + 8 * j.val + k.val)
    (q : Fin 2048) :
    biasblk V c t (ix2 (0 : Fin 1) q) = barr V c (ix2 (0 : Fin 1) (tileCol j q)) := by
  obtain ⟨-, -, -, -, e0, e1, -⟩ := idx_facts t
  have hi := i.isLt; have hj := j.isLt; have hk := k.isLt
  unfold biasblk iblk1
  rw [View.read_apply]
  show V c main_v25 _ = V c main_v25 _
  congr 1
  funext a
  apply Fin.ext
  match a with
  | ⟨0, _⟩ => show win1_2.index t (0 : Fin 2) * 1 + 1 * 0 = 0; rw [e0]
  | ⟨1, _⟩ => show win1_2.index t (1 : Fin 2) * 2048 + 1 * q.val = 2048 * j.val + q.val; rw [e1]; omega

theorem xoblk_apply (c : Dev nD) (t : Fin cfg1.N) (i : Fin 8) (j : Fin 2) (k : Fin 8) (ht : t.val = 16 * i.val + 8 * j.val + k.val)
    (p : Fin 1024) (jj : Fin 32) :
    xoblk V c t (ix2 p jj) = xoarr V c (ix2 (tileRow i p) jj) := by
  obtain ⟨-, -, -, -, -, -, e0, e1, -⟩ := idx_facts t
  have hi := i.isLt; have hj := j.isLt; have hk := k.isLt
  unfold xoblk iblk1
  rw [View.read_apply]
  show V c main_v27 _ = V c main_v27 _
  congr 1
  funext a
  apply Fin.ext
  match a with
  | ⟨0, _⟩ => show win1_3.index t (0 : Fin 2) * 1024 + 1 * p.val = 1024 * i.val + p.val; rw [e0]; omega
  | ⟨1, _⟩ => show win1_3.index t (1 : Fin 2) * 32 + 1 * jj.val = jj.val; rw [e1]; omega

theorem owblk_apply (c : Dev nD) (t : Fin cfg1.N) (i : Fin 8) (j : Fin 2) (k : Fin 8) (ht : t.val = 16 * i.val + 8 * j.val + k.val)
    (jj : Fin 32) (q : Fin 2048) :
    owblk V c t (ix2 jj q) = owarr V c (ix2 jj (tileCol j q)) := by
  obtain ⟨-, -, -, -, -, -, -, -, e0, e1, -⟩ := idx_facts t
  have hi := i.isLt; have hj := j.isLt; have hk := k.isLt
  unfold owblk iblk1
  rw [View.read_apply]
  show V c main_v28 _ = V c main_v28 _
  congr 1
  funext a
  apply Fin.ext
  match a with
  | ⟨0, _⟩ => show win1_4.index t (0 : Fin 2) * 32 + 1 * jj.val = jj.val; rw [e0]; omega
  | ⟨1, _⟩ => show win1_4.index t (1 : Fin 2) * 2048 + 1 * q.val = 2048 * j.val + q.val; rw [e1]; omega

/-! ## The sum of the first blocks -/

/-- The sum of the first `m` of eight terms. -/
def psum (f : Fin 8 → EReal) (m : ℕ) : EReal := ∑ n ∈ Finset.range m, if h : n < 8 then f ⟨n, h⟩ else 0

theorem psum_zero (f : Fin 8 → EReal) : psum f 0 = 0 := by simp [psum]
theorem psum_succ (f : Fin 8 → EReal) (m : ℕ) (h : m < 8) : psum f (m + 1) = psum f m + f ⟨m, h⟩ := by
  unfold psum
  rw [Finset.sum_range_succ, dif_pos h]
theorem psum_eight (f : Fin 8 → EReal) : psum f 8 = ∑ kb : Fin 8, f kb := (Finset.sum_fin_eq_sum_range f).symm

/-! ## The terms of the result at an entry of a tile -/

/-- The rank-32 product at entry (p, q) of tile (i, j). -/
def startTerm (c : Dev nD) (i : Fin 8) (j : Fin 2) (p : Fin 1024) (q : Fin 2048) : EReal :=
  ∑ jj : Fin 32, xoarr V c (ix2 (tileRow i p) jj) * owarr V c (ix2 jj (tileCol j q))
/-- Block `kb`'s part of the masked product at entry (p, q) of tile (i, j). -/
def blockTerm (c : Dev nD) (i : Fin 8) (j : Fin 2) (p : Fin 1024) (q : Fin 2048) (kb : Fin 8) : EReal :=
  ∑ kk : Fin 512, xarr V c (ix2 (tileRow i p) (Cert.QuantSpec.blockRow kb kk)) * warr V c (ix2 (Cert.QuantSpec.blockRow kb kk) (tileCol j q))

theorem step_eq (c : Dev nD) (t : Fin cfg1.N) (i : Fin 8) (j : Fin 2) (k : Fin 8) (ht : t.val = 16 * i.val + 8 * j.val + k.val)
    (p : Fin 1024) (q : Fin 2048) :
    ∑ kk : Fin 512, ablk V c t (ix2 p kk) * bblk V c t (ix2 kk q) = blockTerm V c i j p q k :=
  Finset.sum_congr rfl fun kk _ => by rw [ablk_apply V c t i j k ht p kk, bblk_apply V c t i j k ht kk q]

theorem start_eq (c : Dev nD) (t : Fin cfg1.N) (i : Fin 8) (j : Fin 2) (k : Fin 8) (ht : t.val = 16 * i.val + 8 * j.val + k.val)
    (p : Fin 1024) (q : Fin 2048) :
    k1_pay1 (F := Ideal) (xoblk V c t) (owblk V c t) (ix2 p q) = startTerm V c i j p q :=
  (pay1_apply (xoblk V c t) (owblk V c t) p q).trans
    (Finset.sum_congr rfl fun jj _ => by rw [xoblk_apply V c t i j k ht p jj, owblk_apply V c t i j k ht jj q])

/-! ## The array the region leaves -/

/-- The region's result: the rank-32 product, plus the 8 blocks of the masked product, plus the bias. -/
def G (c : Dev nD) : Vec Ideal S8192x4096 .f32 := fun y =>
  ((∑ jj : Fin 32, xoarr V c (ix2 (y 0) jj) * owarr V c (ix2 jj (y 1)))
    + ∑ kb : Fin 8, ∑ kk : Fin 512, xarr V c (ix2 (y 0) (Cert.QuantSpec.blockRow kb kk)) * warr V c (ix2 (Cert.QuantSpec.blockRow kb kk) (y 1)))
  + barr V c (ix2 (0 : Fin 1) (y 1))

theorem G_tile (c : Dev nD) (i : Fin 8) (j : Fin 2) (p : Fin 1024) (q : Fin 2048) :
    G V c (ix2 (tileRow i p) (tileCol j q))
      = (startTerm V c i j p q + ∑ kb : Fin 8, blockTerm V c i j p q kb) + barr V c (ix2 (0 : Fin 1) (tileCol j q)) := rfl

/-- An index of the array is in point `t`'s block iff each coordinate is in the block's range on its axis. -/
theorem mem_blk (t : Fin cfg1.N) (y : S8192x4096.Idx) :
    y ∈ ((cfg1.win 5).blk t).view.set ↔ ∀ a : Fin 2, win1_5.index t a * S1024x2048.size a ≤ (y a).val ∧ (y a).val < win1_5.index t a * S1024x2048.size a + S1024x2048.size a := by
  show y ∈ ((View.whole main_v29).slice (win1_5.rect t)).set ↔ _
  rw [View.set_slice_whole, Rect.mem_set_unit]
  exact Iff.rfl

end Cert.KernelIdeal.Val1

end
-- ==== Proof.KVal1.lean ====
/-
  The value of the second kernel region's output array at the ideal instance.

  Within a tile (i, j) the accumulator after the point of block k holds, at entry (p, q), the rank-32 product
  plus the parts of blocks 0 … k of the masked product: the first point of the tile stores the rank-32 product and
  adds block 0's part, every later point adds its block's part (induction on k). The last point of the tile adds
  the bias row and stores the output block, which is the only block written back; those blocks tile the array
  (the point covering (r, o) is 16·(r / 1024) + 8·(o / 2048) + 7). So the array ends, entry by entry, at the
  rank-32 product plus the eight blocks of the masked product plus the bias.
-/
import proofs.«419512_j42674795053346_3_alg».proof.Proof.R1Pay
import proofs.«419512_j42674795053346_3_alg».proof.Proof.KVal1Blocks

noncomputable section

open scoped BigOperators

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What the run leaves, in payload form -/

theorem acc_A (c : Dev nD) (t : Fin cfg1.N) (h : t.val % 8 = 0) :
    (outsAt1 V c t.val t.isLt).2 = k1_pay2 (ablk V c t) (k1_pay1 (xoblk V c t) (owblk V c t)) (bblk V c t) :=
  outsAt1_acc_first V c t h
theorem acc_B (c : Dev nD) (t : Fin cfg1.N) (h : ¬ t.val % 8 = 0) :
    (outsAt1 V c t.val t.isLt).2 = k1_pay2 (ablk V c t) (outsAt1 V c (t.val - 1) (by have := t.isLt; omega)).2 (bblk V c t) :=
  outsAt1_acc_next V c t h
theorem out_C (c : Dev nD) (t : Fin cfg1.N) (h7 : t.val % 8 = 7) :
    (outsAt1 V c t.val t.isLt).1 = k1_pay3 (outsAt1 V c t.val t.isLt).2 (biasblk V c t) :=
  outsAt1_out_last V c t h7

theorem outsAt1_congr (c : Dev nD) {n n' : ℕ} (e : n = n') (h : n < cfg1.N) (h' : n' < cfg1.N) :
    outsAt1 V c n h = outsAt1 V c n' h' := by subst e; rfl

/-! ## The accumulator after each point of a tile -/

theorem acc_inv (c : Dev nD) (i : Fin 8) (j : Fin 2) : ∀ (k : ℕ) (hk : k < 8) (h : 16 * i.val + 8 * j.val + k < cfg1.N)
    (p : Fin 1024) (q : Fin 2048),
    (outsAt1 V c (16 * i.val + 8 * j.val + k) h).2 (ix2 p q) = startTerm V c i j p q + psum (blockTerm V c i j p q) (k + 1)
  | 0, hk, h, p, q => by
    have hj := j.isLt
    refine (congrFun (acc_A V c ⟨16 * i.val + 8 * j.val + 0, h⟩ (by show (16 * i.val + 8 * j.val + 0) % 8 = 0; omega)) (ix2 p q)).trans ?_
    refine (pay2_apply _ _ _ p q).trans ?_
    rw [start_eq V c ⟨16 * i.val + 8 * j.val + 0, h⟩ i j ⟨0, hk⟩ rfl p q, step_eq V c ⟨16 * i.val + 8 * j.val + 0, h⟩ i j ⟨0, hk⟩ rfl p q,
      psum_succ _ 0 hk, psum_zero, zero_add]
  | k + 1, hk, h, p, q => by
    have hj := j.isLt
    have ih := acc_inv c i j k (by omega) (by omega) p q
    refine (congrFun (acc_B V c ⟨16 * i.val + 8 * j.val + (k + 1), h⟩ (by show ¬ (16 * i.val + 8 * j.val + (k + 1)) % 8 = 0; omega)) (ix2 p q)).trans ?_
    refine (pay2_apply _ _ _ p q).trans ?_
    rw [step_eq V c ⟨16 * i.val + 8 * j.val + (k + 1), h⟩ i j ⟨k + 1, hk⟩ rfl p q, psum_succ _ (k + 1) hk]
    refine Eq.trans ?_ (add_assoc _ _ _)
    refine congrArg (· + blockTerm V c i j p q ⟨k + 1, hk⟩) ?_
    refine Eq.trans ?_ ih
    exact congrFun (congrArg Prod.snd (outsAt1_congr V c (by show 16 * i.val + 8 * j.val + (k + 1) - 1 = 16 * i.val + 8 * j.val + k; omega) _ _)) (ix2 p q)

/-! ## The array the region leaves -/

/-- What a point at the end of a tile writes back is its block of `G`. -/
theorem flushed_eq (c : Dev nD) (t : Fin cfg1.N) (hf : (cfg1.win 5).flush t = true) :
    (dat1 V c).flushed 5 t = ((cfg1.win 5).blk t).view.read (Elt Ideal) (G V c) := by
  have h7 : t.val % 8 = 7 := (flush1_5 t).mp hf
  have hN : cfg1.N = 128 := N_1
  have htl := t.isLt
  obtain ⟨i, j, ht⟩ : ∃ (i : Fin 8) (j : Fin 2), t.val = 16 * i.val + 8 * j.val + 7 :=
    ⟨⟨t.val / 16, by omega⟩, ⟨t.val / 8 % 2, by omega⟩, by show t.val = 16 * (t.val / 16) + 8 * (t.val / 8 % 2) + 7; omega⟩
  obtain ⟨-, -, -, -, -, -, -, -, -, -, e0, e1⟩ := idx_facts t
  show (cfg1.win 5).cut (grid1.coords t) ((dat1 V c).after 5 t) = _
  rw [after1_5]
  funext y
  obtain ⟨p, q, rfl⟩ : ∃ (p : Fin 1024) (q : Fin 2048), y = ix2 p q := ⟨y 0, y 1, eq_ix2 y⟩
  rw [View.read_apply]
  have hemb : ((cfg1.win 5).blk t).view.emb (ix2 p q) = ix2 (tileRow i p) (tileCol j q) := by
    funext a
    apply Fin.ext
    have hi := i.isLt; have hj := j.isLt
    match a with
    | ⟨0, _⟩ => show win1_5.index t (0 : Fin 2) * 1024 + 1 * p.val = 1024 * i.val + p.val; rw [e0]; omega
    | ⟨1, _⟩ => show win1_5.index t (1 : Fin 2) * 2048 + 1 * q.val = 2048 * j.val + q.val; rw [e1]; omega
  show (outsAt1 V c t.val t.isLt).1 (ix2 p q) = G V c (((cfg1.win 5).blk t).view.emb (ix2 p q))
  rw [hemb, G_tile, out_C V c t h7]
  refine (pay3_apply _ _ p q).trans ?_
  rw [biasblk_apply V c t i j ⟨7, by omega⟩ ht q]
  refine congrArg (· + barr V c (ix2 (0 : Fin 1) (tileCol j q))) ?_
  have hacc := acc_inv V c i j 7 (by omega) (by omega) p q
  rw [psum_eight] at hacc
  refine Eq.trans ?_ hacc
  exact congrFun (congrArg Prod.snd (outsAt1_congr V c ht _ _)) (ix2 p q)

/-- Every entry is in the block of the last point of its tile. -/
theorem cover (y : S8192x4096.Idx) : ∃ t : Fin cfg1.N, (cfg1.win 5).flush t = true ∧ y ∈ ((cfg1.win 5).blk t).view.set := by
  have hN : cfg1.N = 128 := N_1
  have h0 : (y 0).val < 8192 := (y 0).isLt
  have h1 : (y 1).val < 4096 := (y 1).isLt
  refine ⟨⟨16 * ((y 0).val / 1024) + 8 * ((y 1).val / 2048) + 7, by omega⟩, (flush1_5 _).mpr (by show (16 * ((y 0).val / 1024) + 8 * ((y 1).val / 2048) + 7) % 8 = 7; omega), ?_⟩
  obtain ⟨-, -, -, -, -, -, -, -, -, -, e0, e1⟩ := idx_facts ⟨16 * ((y 0).val / 1024) + 8 * ((y 1).val / 2048) + 7, by omega⟩
  rw [mem_blk]
  intro a
  match a with
  | ⟨0, _⟩ =>
    show win1_5.index _ (0 : Fin 2) * 1024 ≤ (y 0).val ∧ (y 0).val < win1_5.index _ (0 : Fin 2) * 1024 + 1024
    rw [e0]; show (16 * ((y 0).val / 1024) + 8 * ((y 1).val / 2048) + 7) / 16 * 1024 ≤ (y 0).val ∧ (y 0).val < (16 * ((y 0).val / 1024) + 8 * ((y 1).val / 2048) + 7) / 16 * 1024 + 1024
    omega
  | ⟨1, _⟩ =>
    show win1_5.index _ (1 : Fin 2) * 2048 ≤ (y 1).val ∧ (y 1).val < win1_5.index _ (1 : Fin 2) * 2048 + 2048
    rw [e1]; show (16 * ((y 0).val / 1024) + 8 * ((y 1).val / 2048) + 7) / 8 % 2 * 2048 ≤ (y 1).val ∧ (y 1).val < (16 * ((y 0).val / 1024) + 8 * ((y 1).val / 2048) + 7) / 8 % 2 * 2048 + 2048
    omega

/-- The output array after the region. -/
theorem final1 (c : Dev nD) : (dat1 V c).arrAt 5 cfg1.N = fun y => ((∑ jj : Fin 32, xoarr V c (ix2 (y 0) jj) * owarr V c (ix2 jj (y 1))) + ∑ kb : Fin 8, ∑ kk : Fin 512, xarr V c (ix2 (y 0) (Cert.QuantSpec.blockRow kb kk)) * warr V c (ix2 (Cert.QuantSpec.blockRow kb kk) (y 1))) + barr V c (ix2 (0 : Fin 1) (y 1)) :=
  (dat1 V c).arrAt_eq_of_cover 5 (G V c) (flushed_eq V c) cover

end Cert.KernelIdeal.Val1

end
-- ==== Proof.KHostA.lean ====
/-
  The kernel program's host operations before its first region, read at an index at the ideal instance (a float an
  extended real), for an ARBITRARY valuation of the buffers before the stretch:
  * the zero-point row `[1, 4096]`: the kernel unpacks the zero-point nibbles by the same chain of operations as the
    reference (reshape, and 15, shift right 4, and 15, two broadcasts, concatenate, reshape), so the row is the
    reference's nibble vector as ONE function, converted to a float: the concatenate is never read at an index;
  * the scale row `[1, 4096]` reads, at `(0, o)`, the scales `[4096, 1]` at `(o, 0)`;
  * the 0/1 column `[4096, 1]`: the row numbers `0 … 4095` are compared with each of the 32 row words, the 32 bits
    of a row are joined by `or`, and the column holds 0 where the bit is set and 1 elsewhere: `Cert.QuantSpec.keep`.
    An `or` of `i1` words from 0 is 1 exactly when one of them is 1 (`foldl_ori_eq_one`, `reduce_ori_row`);
  * no host operation before the first region writes the packed weight words.
-/
import proofs.«419512_j42674795053346_3_alg».proof.Proof.Gen.KernelIdeal.Launch
import proofs.«419512_j42674795053346_3_alg».proof.Proof.Gen.ReferenceIdeal.Read
import proofs.«419512_j42674795053346_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.Affine
import Idealize.ShloMosaic.PureOps.Reduce
import Idealize.ShloMosaic.Lib.IdealHost

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (Vl : Valuation τ sig (Elt Ideal))

/-- The zero-point row as one function: the nibble chain is the reference's, operation for operation. -/
theorem v13_eq :
    (StableHlo.after (hostOps0 (F := Ideal)) Vl (Proc.devRef .tc main_v13) : S1x4096.Idx → EReal)
      = (sitofp (F := Ideal) .f32 (shapeCast S1x4096 (Cert.ReferenceIdeal.Read.val_main_v21 (F := Ideal) (Vl (Proc.devRef .tc main_arg3)))
          shapeCasts_S4096_S1x4096) : FVec Ideal S1x4096 .f32) := by
  after_results; rfl

/-- The zero-point row at `(0, o)`: the zero point of output column `o` as a float. -/
theorem v13_apply (o : Fin 4096) :
    (StableHlo.after (hostOps0 (F := Ideal)) Vl (Proc.devRef .tc main_v13) : S1x4096.Idx → EReal) (ix2 (0 : Fin 1) o)
      = FloatOps.sitofp (F := Ideal) .f32
          (Cert.ReferenceIdeal.Read.val_main_v21 (F := Ideal) (Vl (Proc.devRef .tc main_arg3)) (ix1 o)) := by
  rw [v13_eq, sitofp_apply, shapeCast_a_1a_apply]

/-- The scale row as one function: the scales `[4096, 1]` reshaped twice. -/
theorem v14_eq :
    (StableHlo.after (hostOps0 (F := Ideal)) Vl (Proc.devRef .tc main_v14) : S1x4096.Idx → EReal)
      = shapeCast S1x4096 (shapeCast S4096 (Vl (Proc.devRef .tc main_arg2) : S4096x1.Idx → EReal) shapeCasts_S4096x1_S4096)
          shapeCasts_S4096_S1x4096 := by
  after_results; rfl

/-- The scale row at `(0, o)`: the scale of output column `o`. -/
theorem v14_apply (o : Fin 4096) :
    (StableHlo.after (hostOps0 (F := Ideal)) Vl (Proc.devRef .tc main_v14) : S1x4096.Idx → EReal) (ix2 (0 : Fin 1) o)
      = (Vl (Proc.devRef .tc main_arg2) : S4096x1.Idx → EReal) (ix2 o (0 : Fin 1)) := by
  rw [v14_eq, shapeCast_a_1a_apply]
  exact shapeCast_apply (s := S4096x1) _ shapeCasts_S4096x1_S4096 (ix1 o) (ix2 o (0 : Fin 1)) (by
    rw [Shape.rowMajor_val_two, Shape.rowMajor_val_one]
    show o.val * 1 + 0 = o.val
    omega)

/-- The packed weight words are written by no host operation before the first region. -/
theorem arg1_after0 :
    StableHlo.after (hostOps0_1 (F := Ideal)) (StableHlo.after (hostOps0 (F := Ideal)) Vl) (Proc.devRef .tc main_arg1)
      = Vl (Proc.devRef .tc main_arg1) := by
  after_results

/-- A left fold by `or` over `i1` words is 1 exactly when it started at 1 or met a 1. -/
theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self .., h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- An `or`-reduce of an `[n, m]` array of `i1` words over its columns, from 0: row `p` is 1 exactly when some column of row `p` is 1. -/
theorem reduce_ori_row {n m : Nat} (x : IVec ⟨2, ![n, m]⟩ 1) {u : Shape} (init : u.Idx → BitVec 1)
    (h : (⟨2, ![n, m]⟩ : Shape).ReducesTo [1] ⟨1, ![n]⟩) (hu : 0 < u.numel) (hinit : init (Shape.Idx.first hu) = 0#1) (p : Fin n) :
    Host.reduce IntOp.ori x init h hu (ix1 p) = 1#1 ↔ ∃ q : Fin m, x (ix2 p q) = 1#1 := by
  have hdrop : ∀ i : (⟨2, ![n, m]⟩ : Shape).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  rw [Host.reduce_eq_foldl, foldl_ori_eq_one]
  constructor
  · rintro (h0 | ⟨i, hi, hx⟩)
    · rw [hinit] at h0; exact absurd h0 (by decide)
    · obtain ⟨a, b, rfl⟩ : ∃ (a : Fin n) (b : Fin m), i = ix2 a b := ⟨i 0, i 1, eq_ix2 i⟩
      have hi0 : a = p := (hdrop _).1 (by simpa using (List.mem_filter.1 hi).2)
      subst hi0
      exact ⟨b, hx⟩
  · rintro ⟨q, hq⟩
    refine Or.inr ⟨ix2 p q, List.mem_filter.2 ⟨List.mem_map.2 ⟨_, List.mem_finRange _, Equiv.symm_apply_apply _ _⟩, ?_⟩, hq⟩
    simpa using (hdrop (ix2 p q)).2 rfl

/-- The 0/1 column as the host computes it from the 32 row words: compare the row numbers `0 … 4095` with every word,
    `or` over the 32 words, choose 0 where some word matched and 1 elsewhere. -/
def keepCol (ids : S32.Idx → BitVec 32) : S4096x1.Idx → EReal :=
  select
    (broadcastInDim S4096x1 ![0] bcast_S4096_S4096x1_0
      (Host.reduce IntOp.ori
        (cmpi .eq (broadcastInDim S4096x32 ![0, 1] bcast_S4096x1_S4096x32_0_1 (iotaInDim S4096x1 32 0))
          (broadcastInDim S4096x32 ![0, 1] bcast_S1x32_S4096x32_0_1 (shapeCast S1x32 ids shapeCasts_S32_S1x32)))
        (constantI S_ 1 0#1) reducesTo_S4096x32_S4096_d1 h_S_))
    (broadcastInDim S4096x1 ![] bcast_S_S4096x1 (constant (F := Ideal) S_ .bf16 0x0000#16))
    (broadcastInDim S4096x1 ![] bcast_S_S4096x1 (constant (F := Ideal) S_ .bf16 0x3F80#16))

/-- What the first two stretches leave in `main_v22`, as one function of the 32 row words. -/
theorem v22_eq :
    (StableHlo.after (hostOps0_1 (F := Ideal)) (StableHlo.after (hostOps0 (F := Ideal)) Vl) (Proc.devRef .tc main_v22) : S4096x1.Idx → EReal)
      = keepCol (Vl (Proc.devRef .tc main_arg5)) := by
  after_results
  simp only [TRef.ofBuf, TRef.toBuf, cast_eq]
  rfl

/-- Entry `(k, j)` of the compare: the row number `k` against word `j`. -/
theorem cmp_apply (ids : S32.Idx → BitVec 32) (k : Fin 4096) (j : Fin 32) :
    (cmpi .eq (broadcastInDim S4096x32 ![0, 1] bcast_S4096x1_S4096x32_0_1 (iotaInDim S4096x1 32 0))
        (broadcastInDim S4096x32 ![0, 1] bcast_S1x32_S4096x32_0_1 (shapeCast S1x32 ids shapeCasts_S32_S1x32)) : IVec S4096x32 1) (ix2 k j)
      = IntOp.cmpi .eq (BitVec.ofNat 32 k.val) (ids (ix1 j)) := by
  have h1 : broadcastInDim S4096x32 ![0, 1] bcast_S4096x1_S4096x32_0_1 (iotaInDim S4096x1 32 0) (ix2 k j)
      = BitVec.ofNat 32 k.val := by
    rw [broadcastInDim_apply _ bcast_S4096x1_S4096x32_0_1 _ (ix2 k j) (ix2 k (0 : Fin 1)) (fun a => match a with
      | ⟨0, _⟩ => by show k.val = if (4096 : Nat) = 1 then 0 else k.val; rw [if_neg (by decide)]
      | ⟨1, _⟩ => by show 0 = if (1 : Nat) = 1 then 0 else j.val; rw [if_pos rfl])]
    rfl
  have h2 : broadcastInDim S4096x32 ![0, 1] bcast_S1x32_S4096x32_0_1 (shapeCast S1x32 ids shapeCasts_S32_S1x32) (ix2 k j)
      = ids (ix1 j) := by
    rw [broadcastInDim_apply _ bcast_S1x32_S4096x32_0_1 _ (ix2 k j) (ix2 (0 : Fin 1) j) (fun a => match a with
      | ⟨0, _⟩ => by show 0 = if (1 : Nat) = 1 then 0 else k.val; rw [if_pos rfl]
      | ⟨1, _⟩ => by show j.val = if (32 : Nat) = 1 then 0 else j.val; rw [if_neg (by decide)]),
      shapeCast_a_1a_apply]
  show IntOp.cmpi .eq _ _ = _
  rw [h1, h2]

/-- The column at row `k`: 0 when some word names row `k`, else 1. -/
theorem keepCol_apply (ids : S32.Idx → BitVec 32) (k : Fin 4096) :
    keepCol ids (ix2 k (0 : Fin 1)) = Cert.QuantSpec.keep ids k := by
  unfold keepCol
  rw [select_apply, broadcastInDim_scalar_apply, broadcastInDim_scalar_apply, constant_apply, constant_apply,
    Ideal.ofBits_zero_bf16, Ideal.ofBits_one_bf16,
    broadcastInDim_apply _ bcast_S4096_S4096x1_0 _ (ix2 k (0 : Fin 1)) (ix1 k) (fun a => match a with
      | ⟨0, _⟩ => by show k.val = if (4096 : Nat) = 1 then 0 else k.val; rw [if_neg (by decide)])]
  have hiff : Host.reduce IntOp.ori
        (cmpi .eq (broadcastInDim S4096x32 ![0, 1] bcast_S4096x1_S4096x32_0_1 (iotaInDim S4096x1 32 0))
          (broadcastInDim S4096x32 ![0, 1] bcast_S1x32_S4096x32_0_1 (shapeCast S1x32 ids shapeCasts_S32_S1x32)))
        (constantI S_ 1 0#1) reducesTo_S4096x32_S4096_d1 h_S_ (ix1 k) = 1#1 ↔ Cert.QuantSpec.isOutlier ids k := by
    rw [reduce_ori_row _ _ _ _ rfl]
    unfold Cert.QuantSpec.isOutlier
    refine exists_congr fun j => ?_
    rw [cmp_apply, Predicate.cmpi_eq_iff]
    exact eq_comm
  unfold Cert.QuantSpec.keep
  by_cases ho : Cert.QuantSpec.isOutlier ids k
  · rw [hiff.2 ho, select_one, if_pos ho]
  · rw [eq_zero_of_ne_one (fun h => ho (hiff.1 h)), select_zero, if_neg ho]

/-- The 0/1 column the first two stretches leave in `main_v22`. -/
theorem v22_apply (k : Fin 4096) :
    (StableHlo.after (hostOps0_1 (F := Ideal)) (StableHlo.after (hostOps0 (F := Ideal)) Vl) (Proc.devRef .tc main_v22) : S4096x1.Idx → EReal)
        (ix2 k (0 : Fin 1))
      = Cert.QuantSpec.keep (Vl (Proc.devRef .tc main_arg5)) k := by
  rw [v22_eq, keepCol_apply]

end Cert.KernelIdeal.HostVal
end
-- ==== Proof.KHostB.lean ====
/-
  The kernel program's host operations between its two regions and after the second, read at an index at the ideal
  instance (a float an extended real, a narrowing conversion the identity), for an ARBITRARY valuation of the buffers
  before each stretch:
  * the activations `[4, 2048, 4096]` reshaped to the matrix `[8192, 4096]` are `Cert.QuantSpec.flat` of them
    (row-major: row `2048 · b + s` is row `s` of batch `b`);
  * the bias `[4096]` reshaped to one row `[1, 4096]` reads, at `(0, o)`, the bias at `o`;
  * the outlier weights narrowed to the 16-bit format are the outlier weights;
  * the result matrix `[8192, 4096]` reshaped to `[4, 2048, 4096]` reads, at `(b, s, o)`, the matrix at
    `(2048 · b + s, o)`.
-/
import proofs.«419512_j42674795053346_3_alg».proof.Proof.Gen.KernelIdeal.Launch
import proofs.«419512_j42674795053346_3_alg».proof.Proof.Gen.ReferenceIdeal.Read
import proofs.«419512_j42674795053346_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (Vl : Valuation τ sig (Elt Ideal))

/-- Row-major: the activations `[4, 2048, 4096]` cast to `[8192, 4096]` are `flat`. -/
theorem shapeCast_flat (x : S4x2048x4096.Idx → EReal) :
    shapeCast S8192x4096 x shapeCasts_S4x2048x4096_S8192x4096 = Cert.QuantSpec.flat x := by
  funext i
  refine shapeCast_apply x shapeCasts_S4x2048x4096_S8192x4096 i _ ?_
  rw [Shape.rowMajor_val_three, Shape.rowMajor_val_two]
  have h0 := idx2_lt0 i
  show ((i 0).val / 2048 * 2048 + (i 0).val % 2048) * 4096 + (i 1).val = (i 0).val * 4096 + (i 1).val
  omega

/-- The activations as a matrix, after the three stretches before the second region. -/
theorem v24_eq :
    (StableHlo.after (hostOps1_2 (F := Ideal)) (StableHlo.after (hostOps1_1 (F := Ideal)) (StableHlo.after (hostOps1 (F := Ideal)) Vl))
        (Proc.devRef .tc main_v24) : S8192x4096.Idx → EReal)
      = Cert.QuantSpec.flat (Vl (Proc.devRef .tc main_arg0)) := by
  rw [← shapeCast_flat]
  after_results
  rfl

/-- The bias row at `(0, o)`: the bias of output column `o`. -/
theorem v25_apply (o : Fin 4096) :
    (StableHlo.after (hostOps1_2 (F := Ideal)) (StableHlo.after (hostOps1_1 (F := Ideal)) (StableHlo.after (hostOps1 (F := Ideal)) Vl))
        (Proc.devRef .tc main_v25) : S1x4096.Idx → EReal) (ix2 (0 : Fin 1) o)
      = (Vl (Proc.devRef .tc main_arg6) : S4096.Idx → EReal) (ix1 o) := by
  have e : (StableHlo.after (hostOps1_2 (F := Ideal)) (StableHlo.after (hostOps1_1 (F := Ideal)) (StableHlo.after (hostOps1 (F := Ideal)) Vl))
        (Proc.devRef .tc main_v25) : S1x4096.Idx → EReal)
      = shapeCast S1x4096 (Vl (Proc.devRef .tc main_arg6) : S4096.Idx → EReal) shapeCasts_S4096_S1x4096 := by
    after_results; rfl
  rw [e, shapeCast_a_1a_apply]

/-- The outlier weights narrowed to 16 bits are the outlier weights (the conversion is the identity on extended reals). -/
theorem v28_eq :
    (StableHlo.after (hostOps1_2 (F := Ideal)) (StableHlo.after (hostOps1_1 (F := Ideal)) (StableHlo.after (hostOps1 (F := Ideal)) Vl))
        (Proc.devRef .tc main_v28) : S32x4096.Idx → EReal)
      = (Vl (Proc.devRef .tc main_arg4) : S32x4096.Idx → EReal) := by
  after_results
  rfl

/-- The result `[4, 2048, 4096]` at `(b, s, o)`: the result matrix at row `2048 · b + s`, column `o`. -/
theorem v30_apply (i : S4x2048x4096.Idx) :
    (StableHlo.after (hostOps2 (F := Ideal)) Vl (Proc.devRef .tc main_v30) : S4x2048x4096.Idx → EReal) i
      = (Vl (Proc.devRef .tc main_v29) : S8192x4096.Idx → EReal) (ix2 (Cert.QuantSpec.flatRow (i 0) (i 1)) (i 2)) := by
  have e : (StableHlo.after (hostOps2 (F := Ideal)) Vl (Proc.devRef .tc main_v30) : S4x2048x4096.Idx → EReal)
      = shapeCast S4x2048x4096 (Vl (Proc.devRef .tc main_v29) : S8192x4096.Idx → EReal) shapeCasts_S8192x4096_S4x2048x4096 := by
    after_results; rfl
  rw [e]
  refine shapeCast_apply (s := S8192x4096) _ shapeCasts_S8192x4096_S4x2048x4096 i _ ?_
  rw [Shape.rowMajor_val_three, Shape.rowMajor_val_two]
  show (2048 * (i 0).val + (i 1).val) * 4096 + (i 2).val = ((i 0).val * 2048 + (i 1).val) * 4096 + (i 2).val
  omega

end Cert.KernelIdeal.HostVal
end
-- ==== Proof.KHostTake.lean ====
/-
  The kernel program's host take of the 32 outlier columns of the activations, read at one entry, at the ideal
  instance (a float an extended real, a narrowing conversion the identity), for an ARBITRARY valuation of the buffers
  before the three host stretches that precede the second region.

  The stretches reshape the activations `[4, 2048, 4096]` to the matrix `[8192, 4096]`, wrap the negative row words
  by `+ 4096`, gather the columns the wrapped words name (start indices `[32, 1]`, the column axis collapsed, each
  start read signed and clamped into `[0, 4095]`), replace a column whose word is outside `[0, 4095]` by a
  not-a-number, and narrow the result to the 16-bit format. With every word in `[0, 4096)`: no word is negative, so
  the wrap leaves it; every range bit is 1, so no column is replaced; the clamp leaves the word; and the reshape is
  the specification's matrix of the activations. Entry `(r, j)` is therefore that matrix at row `r` and the column
  word `j` names (`v27_apply`).
-/
import proofs.«419512_j42674795053346_3_alg».proof.Proof.Gen.KernelIdeal.Launch
import proofs.«419512_j42674795053346_3_alg».proof.Proof.Spec
import Idealize.ShloMosaic.Lib.StableHlo.Run
import Idealize.ShloMosaic.Lib.ValueIdx
import Idealize.ShloMosaic.Lib.Pipeline.Value
import Idealize.ShloMosaic.Lib.StableHlo.Predicate
import Idealize.ShloMosaic.Lib.Affine

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

/-- The row words with the negative ones wrapped by `+ 4096`. -/
def takeWrap (ids : IVec S32 32) : IVec S32 32 :=
  select (cmpi .slt ids (broadcastInDim S32 ![] bcast_S_S32 (constantI S_ 32 0#32)))
    (addi ids (broadcastInDim S32 ![] bcast_S_S32 (constantI S_ 32 4096#32))) ids

/-- The wrapped words as a column `[32, 1]`: the gather's start indices. -/
def takeCol (ids : IVec S32 32) : IVec S32x1 32 := broadcastInDim S32x1 ![0] bcast_S32_S32x1_0 (takeWrap ids)

/-- Per word: it lies in `[0, 4095]` read signed (the and over the one entry of its row). -/
def takeOk (ids : IVec S32 32) : IVec S32 1 :=
  Host.reduce IntOp.andi
    (andi (cmpi .sge (takeCol ids) (broadcastInDim S32x1 ![] bcast_S_S32x1 (constantI S_ 32 0#32)))
      (cmpi .sle (takeCol ids) (broadcastInDim S32x1 ![0, 1] bcast_S1x1_S32x1_0_1
        (broadcastInDim S1x1 ![1] bcast_S1_S1x1_1 (constantI S1 32 4095#32)))))
    (constantI S_ 1 1#1) reducesTo_S32x1_S32_d1 h_S_

/-- The take of the columns the words name out of a matrix `[8192, 4096]`, a column whose word is out of range filled
    with a not-a-number, narrowed to the 16-bit format. -/
def takeVal (x2 : FVec Ideal S8192x4096 .f32) (ids : IVec S32 32) : FVec Ideal S8192x32 .bf16 :=
  truncf .bf16 (select (broadcastInDim S8192x32 ![1] bcast_S32_S8192x32_1 (takeOk ids))
    (Host.gather gather_S8192x4096_S32x1_S8192x32_0_1_n_n_1_1_81921 x2 (takeCol ids))
    (broadcastInDim S8192x32 ![] bcast_S_S8192x32 (constant (F := Ideal) S_ .f32 0x7FC00000#32))) bitsLt_bf16_f32

variable (Vl : Valuation τ sig (Elt Ideal))

/-- What the three host stretches before the second region leave in the take's buffer. -/
theorem v27_eq :
    (StableHlo.after (hostOps1_2 (F := Ideal)) (StableHlo.after (hostOps1_1 (F := Ideal)) (StableHlo.after (hostOps1 (F := Ideal)) Vl))
        (Proc.devRef .tc main_v27) : S8192x32.Idx → EReal)
      = takeVal (shapeCast S8192x4096 (Vl (Proc.devRef .tc main_arg0) : S4x2048x4096.Idx → EReal) shapeCasts_S4x2048x4096_S8192x4096)
          (Vl (Proc.devRef .tc main_arg5)) := by
  after_results_simp
  simp only [TRef.ofBuf, TRef.toBuf, cast_eq]
  rfl

/-! ## A reduce by `and` of ones -/

/-- A left fold by `and` over one-bit words that are all 1, started at 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_one f hf l

/-- A reduce by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  unfold Host.reduce
  rw [hinit]
  exact foldl_andi_one (fun n => x (s.rowMajor.symm n)) (fun n => hx _) _

/-! ## A gather of columns

`jnp.take(x, idx, axis=1)` of a matrix `[N, D]` at `idx : [R]`: start indices `[R, 1]`, the column axis collapsed and
named by the start index, the row axis an offset axis taken whole. -/

/-- The dimension numbers of the column take. -/
abbrev colGatherDims (N D R : Nat)
    (wf : GatherDims.WF ⟨2, ![N, D]⟩ ⟨2, ![R, 1]⟩ ⟨2, ![N, R]⟩ [0] [1] [] [1] [] 1 ![N, 1]) :
    GatherDims ⟨2, ![N, D]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

section ColGather
variable {α : Type} {N D R w : Nat}
  (wf : GatherDims.WF ⟨2, ![N, D]⟩ ⟨2, ![R, 1]⟩ ⟨2, ![N, R]⟩ [0] [1] [] [1] [] 1 ![N, 1])

/-- On the row axis the operand coordinate is the result's own row: no start index names the axis. -/
theorem col_gather_row_axis (idx : IVec ⟨2, ![R, 1]⟩ w) (r : Fin N) (j : Fin R) :
    (colGatherDims N D R wf).start (ix2 r j) idx (0 : Fin 2) + (colGatherDims N D R wf).batchCoord (ix2 r j) (0 : Fin 2)
      + (colGatherDims N D R wf).offCoord (ix2 r j) (0 : Fin 2) = r.val := by
  rw [GatherDims.batchCoord_eq_zero _ _ _ List.not_mem_nil]
  have hs : (colGatherDims N D R wf).start (ix2 r j) idx (0 : Fin 2) = 0 := by
    unfold GatherDims.start
    rw [dif_neg (show (0 : Fin 2) ∉ (colGatherDims N D R wf).startIndexMap from by simp)]
  have ho : (colGatherDims N D R wf).offCoord (ix2 r j) (0 : Fin 2) = r.val := by
    unfold GatherDims.offCoord
    rw [dif_pos (show (0 : Fin 2) ∈ (colGatherDims N D R wf).sKept from (GatherDims.mem_sKept _ _).mpr ⟨by simp, List.not_mem_nil⟩)]
    rfl
  rw [hs, ho]
  simp

/-- On the column axis the operand coordinate is the start word of the result's column, read signed and clamped into
    the matrix (the axis is collapsed: nothing is added). -/
theorem col_gather_col_axis (idx : IVec ⟨2, ![R, 1]⟩ w) (r : Fin N) (j : Fin R) :
    (colGatherDims N D R wf).start (ix2 r j) idx (1 : Fin 2) + (colGatherDims N D R wf).batchCoord (ix2 r j) (1 : Fin 2)
      + (colGatherDims N D R wf).offCoord (ix2 r j) (1 : Fin 2) = min (idx (ix2 j (0 : Fin 1))).toInt.toNat (D - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colGatherDims N D R wf).startIndexMap from List.mem_singleton.mpr rfl)]
  have hsi : (colGatherDims N D R wf).siIdx (ix2 r j) ⟨List.idxOf (1 : Fin 2) (colGatherDims N D R wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- THE COLUMN TAKE READ AT `(r, j)`: row `r` of the column the start word `j` names, read signed and clamped. -/
theorem col_gather_apply (hD : 0 < D) (x : (⟨2, ![N, D]⟩ : Shape).Idx → α) (idx : IVec ⟨2, ![R, 1]⟩ w) (r : Fin N) (j : Fin R) :
    Host.gather (colGatherDims N D R wf) x idx (ix2 r j)
      = x (ix2 r (⟨min (idx (ix2 j (0 : Fin 1))).toInt.toNat (D - 1), by omega⟩ : Fin D)) := by
  unfold Host.gather
  refine congrArg x ?_
  funext a
  refine Fin.ext ?_
  match a with
  | ⟨0, _⟩ => exact col_gather_row_axis wf idx r j
  | ⟨1, _⟩ => exact col_gather_col_axis wf idx r j

end ColGather

/-! ## The words, the range bit, the reshape -/

/-- A word in `[0, 4096)` is not negative read signed: the wrap leaves it as it is. -/
theorem takeWrap_apply (ids : IVec S32 32) (e : Fin 32) (hr : (ids (ix1 e)).toNat < 4096) :
    takeWrap ids (ix1 e) = ids (ix1 e) := by
  have hlt : (ids (ix1 e)).slt 0#32 = false := by
    simp only [BitVec.slt, BitVec.toInt_zero, decide_eq_false_iff_not, Int.not_lt]
    rw [Predicate.toInt_eq_toNat_of_lt (by omega)]
    omega
  show (if BitVec.ofBool ((ids (ix1 e)).slt 0#32) = 1 then _ else _) = _
  rw [hlt]
  rfl

/-- The start-index column at row `e` is word `e`. -/
theorem takeCol_apply (ids : IVec S32 32) (e : Fin 32) (hr : (ids (ix1 e)).toNat < 4096) :
    takeCol ids (ix2 e (0 : Fin 1)) = ids (ix1 e) := by
  unfold takeCol
  rw [broadcastInDim_apply _ bcast_S32_S32x1_0 _ (ix2 e (0 : Fin 1)) (ix1 e) (fun a => match a with
    | ⟨0, _⟩ => by show e.val = if (32 : Nat) = 1 then 0 else e.val; rw [if_neg (by decide)])]
  exact takeWrap_apply ids e hr

/-- With every word in `[0, 4096)` the range bit of every word is 1. -/
theorem takeOk_apply (ids : IVec S32 32) (hr : ∀ j : Fin 32, (ids (ix1 j)).toNat < 4096) (j : Fin 32) :
    takeOk ids (ix1 j) = 1#1 := by
  unfold takeOk
  refine reduce_andi_of_all _ _ _ _ _ rfl (fun i => ?_)
  obtain ⟨e, b, rfl⟩ : ∃ (e : Fin 32) (b : Fin 1), i = ix2 e b := ⟨i 0, i 1, eq_ix2 i⟩
  obtain rfl : b = 0 := Subsingleton.elim _ _
  show IntOp.andi (IntOp.cmpi .sge (takeCol ids (ix2 e (0 : Fin 1))) 0#32)
    (IntOp.cmpi .sle (takeCol ids (ix2 e (0 : Fin 1))) 4095#32) = 1#1
  have he := hr e
  rw [takeCol_apply ids e he, IntOp.andi_eq_one]
  exact ⟨(Predicate.sge_iff_toNat (by omega) (by decide)).2 (Nat.zero_le _),
    (Predicate.sle_iff_toNat (by omega) (by decide)).2 (by show _ ≤ 4095; omega)⟩

/-- The clamped start of column `j` is the row the word names. -/
theorem takeCol_clamp (ids : IVec S32 32) (j : Fin 32) (hr : (ids (ix1 j)).toNat < 4096)
    (h : min (takeCol ids (ix2 j (0 : Fin 1))).toInt.toNat (4096 - 1) < 4096) :
    (⟨min (takeCol ids (ix2 j (0 : Fin 1))).toInt.toNat (4096 - 1), h⟩ : Fin 4096) = Cert.QuantSpec.idRow ids j := by
  refine Fin.ext ?_
  show min (takeCol ids (ix2 j (0 : Fin 1))).toInt.toNat (4096 - 1) = (ids (ix1 j)).toNat % 4096
  rw [takeCol_apply ids j hr, Predicate.toInt_eq_toNat_of_lt (by omega), Int.toNat_natCast, Nat.mod_eq_of_lt hr,
    Nat.min_eq_left (by omega)]

/-- Row-major: the activations `[4, 2048, 4096]` cast to `[8192, 4096]`, read at an entry, are the specification's
    matrix of them. -/
theorem reshape_flat_apply (x : S4x2048x4096.Idx → EReal) (i : S8192x4096.Idx) :
    shapeCast S8192x4096 x shapeCasts_S4x2048x4096_S8192x4096 i = Cert.QuantSpec.flat x i := by
  refine shapeCast_apply x shapeCasts_S4x2048x4096_S8192x4096 i _ ?_
  rw [Shape.rowMajor_val_three, Shape.rowMajor_val_two]
  have h0 := idx2_lt0 i
  show ((i 0).val / 2048 * 2048 + (i 0).val % 2048) * 4096 + (i 1).val = (i 0).val * 4096 + (i 1).val
  omega

/-! ## The take at an entry -/

/-- THE TAKE READ AT `(r, j)`: with every row word in `[0, 4096)`, entry `(r, j)` of the take is the activations as a
    matrix at row `r`, column the row word `j` names. -/
theorem v27_apply (hr : ∀ j : Fin 32, ((Vl (Proc.devRef .tc main_arg5) : S32.Idx → BitVec 32) (ix1 j)).toNat < 4096)
    (r : Fin 8192) (j : Fin 32) :
    (StableHlo.after (hostOps1_2 (F := Ideal)) (StableHlo.after (hostOps1_1 (F := Ideal)) (StableHlo.after (hostOps1 (F := Ideal)) Vl))
        (Proc.devRef .tc main_v27) : S8192x32.Idx → EReal) (ix2 r j)
      = Cert.QuantSpec.flat (Vl (Proc.devRef .tc main_arg0)) (ix2 r (Cert.QuantSpec.idRow (Vl (Proc.devRef .tc main_arg5)) j)) := by
  rw [v27_eq]
  unfold takeVal
  rw [truncf_apply, select_apply]
  have hbit : broadcastInDim S8192x32 ![1] bcast_S32_S8192x32_1 (takeOk (Vl (Proc.devRef .tc main_arg5))) (ix2 r j) = 1#1 := by
    rw [broadcastInDim_apply _ bcast_S32_S8192x32_1 _ (ix2 r j) (ix1 j) (fun a => match a with
      | ⟨0, _⟩ => by show j.val = if (32 : Nat) = 1 then 0 else j.val; rw [if_neg (by decide)])]
    exact takeOk_apply _ hr j
  have hd : gather_S8192x4096_S32x1_S8192x32_0_1_n_n_1_1_81921
      = colGatherDims 8192 4096 32 gather_S8192x4096_S32x1_S8192x32_0_1_n_n_1_1_81921_wf := rfl
  rw [hbit, select_one, hd, col_gather_apply _ (by decide), takeCol_clamp _ j (hr j), reshape_flat_apply]

/-- The same statement under its other name. -/
theorem take_apply (hr : ∀ j : Fin 32, ((Vl (Proc.devRef .tc main_arg5) : S32.Idx → BitVec 32) (ix1 j)).toNat < 4096)
    (r : Fin 8192) (j : Fin 32) :
    (StableHlo.after (hostOps1_2 (F := Ideal)) (StableHlo.after (hostOps1_1 (F := Ideal)) (StableHlo.after (hostOps1 (F := Ideal)) Vl))
        (Proc.devRef .tc main_v27) : S8192x32.Idx → EReal) (ix2 r j)
      = Cert.QuantSpec.flat (Vl (Proc.devRef .tc main_arg0)) (ix2 r (Cert.QuantSpec.idRow (Vl (Proc.devRef .tc main_arg5)) j)) :=
  v27_apply Vl hr r j

end Cert.KernelIdeal.HostVal

end
-- ==== Proof.KValue.lean ====
/-
  From the run's last contents to the specification. The run leaves the result buffer holding the last stretch of
  host operations (a reshape) applied to the product region's output; that output is, entry by entry, the rank-32
  product of the gathered activation columns with the outlier rows, plus the eight blocks of the product of the
  activations with the masked weight, plus the bias row; each of those arrays is what the stretches before the region
  make of the argument arrays (the activations flattened, the columns `x[r, ids j]`, the outlier rows, the bias), or
  what the dequantisation region left: `(nibble − zero point) · scale · keep`, the zero-point, scale and 0/1 column
  being again what the first stretches make of the arguments. Reading every array back to the launch memory, through
  the items that do not write it, gives the specification's `kernelOut` at the argument arrays, with the dequantised
  weight read as the reference's own value of it.
-/
import proofs.«419512_j42674795053346_3_alg».proof.Proof.KRun
import proofs.«419512_j42674795053346_3_alg».proof.Proof.KVal0
import proofs.«419512_j42674795053346_3_alg».proof.Proof.KVal1
import proofs.«419512_j42674795053346_3_alg».proof.Proof.KHostA
import proofs.«419512_j42674795053346_3_alg».proof.Proof.KHostB
import proofs.«419512_j42674795053346_3_alg».proof.Proof.KHostTake
import proofs.«419512_j42674795053346_3_alg».proof.Proof.Nibble
import proofs.«419512_j42674795053346_3_alg».proof.Proof.Spec
import proofs.«419512_j42674795053346_3_alg».proof.Proof.Gen.ReferenceIdeal.Read
import Idealize.ShloMosaic.Lib.ValueIdx

set_option maxRecDepth 16384

noncomputable section

namespace Cert.KernelIdeal.Hand
open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Buffers no item between two points writes -/

/-- At the product region's entry an argument array the three stretches only read is as launched. -/
theorem W3_of_arg (r : Ref sig .tc) (h0 : r ∉ (hostOps0_W : List (Ref sig .tc))) (h01 : r ∉ (hostOps0_1_W : List (Ref sig .tc)))
    (ha0 : ∀ w, Pipeline.arrRef spec0 w ≠ r) : W3 m ρ c (Proc.devRef .tc r) = m ((c : Thread nD τ).loc r) :=
  calc W3 m ρ c (Proc.devRef .tc r)
    _ = W2 m ρ c (Proc.devRef .tc r) := W3_of_ne m ρ c r ha0
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

theorem W3_arg0 : W3 m ρ c (Proc.devRef .tc main_arg0) = m ((c : Thread nD τ).loc main_arg0) := W3_of_arg m ρ c main_arg0 (by decide) (by decide) (by decide)
theorem W3_arg4 : W3 m ρ c (Proc.devRef .tc main_arg4) = m ((c : Thread nD τ).loc main_arg4) := W3_of_arg m ρ c main_arg4 (by decide) (by decide) (by decide)
theorem W3_arg5 : W3 m ρ c (Proc.devRef .tc main_arg5) = m ((c : Thread nD τ).loc main_arg5) := W3_of_arg m ρ c main_arg5 (by decide) (by decide) (by decide)
theorem W3_arg6 : W3 m ρ c (Proc.devRef .tc main_arg6) = m ((c : Thread nD τ).loc main_arg6) := W3_of_arg m ρ c main_arg6 (by decide) (by decide) (by decide)

/-- The masked weight is not written between the two regions. -/
theorem W6_v23 : W6 m ρ c (Proc.devRef .tc main_v23) = W3 m ρ c (Proc.devRef .tc main_v23) :=
  calc W6 m ρ c (Proc.devRef .tc main_v23)
    _ = W5 m ρ c (Proc.devRef .tc main_v23) := StableHlo.after_of_writes_sub hostOps1_2 _ hostOps1_2_writes (by decide)
    _ = W4 m ρ c (Proc.devRef .tc main_v23) := StableHlo.after_of_writes_sub hostOps1_1 _ hostOps1_1_writes (by decide)
    _ = W3 m ρ c (Proc.devRef .tc main_v23) := StableHlo.after_of_writes_sub hostOps1 _ hostOps1_writes (by decide)

/-- At the dequantisation region's entry an argument array is as launched. -/
theorem W2_of_arg (r : Ref sig .tc) (h0 : r ∉ (hostOps0_W : List (Ref sig .tc))) (h01 : r ∉ (hostOps0_1_W : List (Ref sig .tc))) :
    W2 m ρ c (Proc.devRef .tc r) = m ((c : Thread nD τ).loc r) :=
  calc W2 m ρ c (Proc.devRef .tc r)
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl
theorem W2_arg1 : W2 m ρ c (Proc.devRef .tc main_arg1) = m ((c : Thread nD τ).loc main_arg1) := W2_of_arg m ρ c main_arg1 (by decide) (by decide)

/-- The zero-point and scale rows are not written by the second stretch. -/
theorem W2_v13 : W2 m ρ c (Proc.devRef .tc main_v13) = W1 m ρ c (Proc.devRef .tc main_v13) :=
  StableHlo.after_of_writes_sub hostOps0_1 _ hostOps0_1_writes (by decide)
theorem W2_v14 : W2 m ρ c (Proc.devRef .tc main_v14) = W1 m ρ c (Proc.devRef .tc main_v14) :=
  StableHlo.after_of_writes_sub hostOps0_1 _ hostOps0_1_writes (by decide)

/-! ## The arrays the two regions are entered with, and leave -/

theorem W6_v24 : W6 m ρ c (Proc.devRef .tc main_v24) = Cert.QuantSpec.flat (m ((c : Thread nD τ).loc main_arg0)) :=
  (HostVal.v24_eq (W3 m ρ c)).trans (congrArg Cert.QuantSpec.flat (W3_arg0 m ρ c))
theorem W6_v28 : W6 m ρ c (Proc.devRef .tc main_v28) = m ((c : Thread nD τ).loc main_arg4) :=
  (HostVal.v28_eq (W3 m ρ c)).trans (W3_arg4 m ρ c)
theorem W6_v25_apply (o : Fin 4096) : (W6 m ρ c (Proc.devRef .tc main_v25)) (ix2 0 o) = (m ((c : Thread nD τ).loc main_arg6)) (ix1 o) :=
  (HostVal.v25_apply (W3 m ρ c) o).trans (congrFun (W3_arg6 m ρ c) (ix1 o))
theorem W6_v27_apply (hr : ∀ j : Fin 32, ((m ((c.tc : Thread nD τ).loc main_arg5)) (ix1 j)).toNat < 4096) (r : Fin 8192) (j : Fin 32) :
    (W6 m ρ c (Proc.devRef .tc main_v27)) (ix2 r j)
      = Cert.QuantSpec.flat (m ((c : Thread nD τ).loc main_arg0)) (ix2 r (Cert.QuantSpec.idRow (m ((c : Thread nD τ).loc main_arg5)) j)) := by
  refine (HostVal.v27_apply (W3 m ρ c) (fun j => ?_) r j).trans ?_
  · rw [W3_arg5]; exact hr j
  · rw [W3_arg0, W3_arg5]

theorem W2_v13_apply (o : Fin 4096) : (W2 m ρ c (Proc.devRef .tc main_v13)) (ix2 0 o)
    = FloatOps.sitofp (F := Ideal) .f32 (Cert.ReferenceIdeal.Read.val_main_v21 (F := Ideal) (m ((c.tc : Thread nD τ).loc main_arg3)) (ix1 o)) :=
  (congrFun (W2_v13 m ρ c) (ix2 0 o)).trans (HostVal.v13_apply (W0 m ρ c) o)
theorem W2_v14_apply (o : Fin 4096) : (W2 m ρ c (Proc.devRef .tc main_v14)) (ix2 0 o) = (m ((c.tc : Thread nD τ).loc main_arg2)) (ix2 o 0) :=
  (congrFun (W2_v14 m ρ c) (ix2 0 o)).trans (HostVal.v14_apply (W0 m ρ c) o)
theorem W2_v22_apply (k : Fin 4096) : (W2 m ρ c (Proc.devRef .tc main_v22)) (ix2 k 0) = Cert.QuantSpec.keep (m ((c.tc : Thread nD τ).loc main_arg5)) k :=
  HostVal.v22_apply (W0 m ρ c) k

/-- The masked weight the dequantisation region leaves, at row k and column o. -/
theorem W3_v23_apply (k o : Fin 4096) :
    (W3 m ρ c (Proc.devRef .tc main_v23)) (ix2 k o)
      = Cert.QuantSpec.weightMasked (fun k o => Cert.ReferenceIdeal.Read.val_main_v30 (F := Ideal) (m ((c.tc : Thread nD τ).loc main_arg1)) (m ((c.tc : Thread nD τ).loc main_arg2)) (m ((c.tc : Thread nD τ).loc main_arg3)) (ix2 k o))
          (m ((c.tc : Thread nD τ).loc main_arg5)) k o := by
  refine (congrFun ((W3_arr m ρ c 4).trans (Val0.final0 (E2 m ρ) c)) (ix2 k o)).trans ?_
  show ((FloatOps.sitofp (F := Ideal) .f32 (Nib.nibWord (W2 m ρ c (Proc.devRef .tc main_arg1)) k o) - (W2 m ρ c (Proc.devRef .tc main_v13)) (ix2 0 o))
      * (W2 m ρ c (Proc.devRef .tc main_v14)) (ix2 0 o)) * (W2 m ρ c (Proc.devRef .tc main_v22)) (ix2 k 0) = _
  rw [W2_arg1, W2_v13_apply, W2_v14_apply, W2_v22_apply]
  unfold Cert.QuantSpec.weightMasked
  rw [Nib.nibWord_eq_ref]

theorem W6_v23_apply (k o : Fin 4096) :
    (W6 m ρ c (Proc.devRef .tc main_v23)) (ix2 k o)
      = Cert.QuantSpec.weightMasked (fun k o => Cert.ReferenceIdeal.Read.val_main_v30 (F := Ideal) (m ((c.tc : Thread nD τ).loc main_arg1)) (m ((c.tc : Thread nD τ).loc main_arg2)) (m ((c.tc : Thread nD τ).loc main_arg3)) (ix2 k o))
          (m ((c.tc : Thread nD τ).loc main_arg5)) k o :=
  (congrFun (W6_v23 m ρ c) (ix2 k o)).trans (W3_v23_apply m ρ c k o)

/-! ## The result -/

/-- The kernel's result from its three families of entries: the rank-32 product's, the blocked product's, the bias. -/
theorem kernelOut_of_entries (x2 : FVec Ideal Cert.QuantSpec.SX2 .f32) (wd : Fin 4096 → Fin 4096 → EReal) (ow : FVec Ideal Cert.QuantSpec.SOW .f32)
    (ids : IVec Cert.QuantSpec.SID 32) (bias : FVec Ideal Cert.QuantSpec.SB .f32) (r : Fin 8192) (o : Fin 4096)
    (xo owv : Fin 32 → EReal) (xv wv : Fin 8 → Fin 512 → EReal) (bv : EReal)
    (h1 : ∀ j, xo j = x2 (ix2 r (Cert.QuantSpec.idRow ids j))) (h2 : ∀ j, owv j = ow (ix2 j o))
    (h3 : ∀ kb kk, xv kb kk = x2 (ix2 r (Cert.QuantSpec.blockRow kb kk)))
    (h4 : ∀ kb kk, wv kb kk = Cert.QuantSpec.weightMasked wd ids (Cert.QuantSpec.blockRow kb kk) o) (h5 : bv = bias (ix1 o)) :
    ((∑ j : Fin 32, xo j * owv j) + ∑ kb : Fin 8, ∑ kk : Fin 512, xv kb kk * wv kb kk) + bv = Cert.QuantSpec.kernelOut x2 wd ow ids bias r o := by
  unfold Cert.QuantSpec.kernelOut
  simp only [h1, h2, h3, h4, h5]

theorem kernel_result (m : (ℓ : Loc nD τ sig) → Buf (Elt Ideal) ℓ) (ρ : Dev nD → PrngReg) (c : Dev nD) (hr : ∀ j : Fin 32, ((m ((c.tc : Thread nD τ).loc main_arg5)) (ValueIdx.ix1 j)).toNat < 4096) :
    W8 m ρ c (Proc.devRef .tc main_v30) = fun i => Cert.QuantSpec.kernelOut (Cert.QuantSpec.flat (m ((c.tc : Thread nD τ).loc main_arg0))) (fun k o => Cert.ReferenceIdeal.Read.val_main_v30 (F := Ideal) (m ((c.tc : Thread nD τ).loc main_arg1)) (m ((c.tc : Thread nD τ).loc main_arg2)) (m ((c.tc : Thread nD τ).loc main_arg3)) (ValueIdx.ix2 k o)) (m ((c.tc : Thread nD τ).loc main_arg4)) (m ((c.tc : Thread nD τ).loc main_arg5)) (m ((c.tc : Thread nD τ).loc main_arg6)) (Cert.QuantSpec.flatRow (i 0) (i 1)) (i 2) := by
  funext i
  refine (HostVal.v30_apply (W7 m ρ c) i).trans ?_
  refine (congrFun (W7_arr m ρ c 5) (ix2 (Cert.QuantSpec.flatRow (i 0) (i 1)) (i 2))).trans ?_
  refine (congrFun (Val1.final1 (E6 m ρ) c) (ix2 (Cert.QuantSpec.flatRow (i 0) (i 1)) (i 2))).trans ?_
  exact kernelOut_of_entries _ _ _ _ _ (Cert.QuantSpec.flatRow (i 0) (i 1)) (i 2)
    (fun j => Val1.xoarr (E6 m ρ) c (ix2 (Cert.QuantSpec.flatRow (i 0) (i 1)) j)) (fun j => Val1.owarr (E6 m ρ) c (ix2 j (i 2)))
    (fun kb kk => Val1.xarr (E6 m ρ) c (ix2 (Cert.QuantSpec.flatRow (i 0) (i 1)) (Cert.QuantSpec.blockRow kb kk)))
    (fun kb kk => Val1.warr (E6 m ρ) c (ix2 (Cert.QuantSpec.blockRow kb kk) (i 2)))
    (Val1.barr (E6 m ρ) c (ix2 (0 : Fin 1) (i 2)))
    (fun j => W6_v27_apply m ρ c hr _ j) (fun j => congrFun (W6_v28 m ρ c) _)
    (fun kb kk => congrFun (W6_v24 m ρ c) _) (fun kb kk => W6_v23_apply m ρ c _ _) (W6_v25_apply m ρ c _)

end Cert.KernelIdeal.Hand

end
-- ==== Proof.LibScatterAdd.lean ====
/-
  A host `stablehlo.scatter` with an `add` body, and the row gather that is its transpose, read at ONE index of
  their result, at the ideal instance (floats extended reals, the accumulation an exact sum).

  jnp's `x.at[r, c].add(v)` over a rank-2 operand `[M, K]` prints with scatter indices `[E, 2]` (entry `e`'s row word
  and column word), scalar updates `[E]`, both operand axes inserted window axes: result entry `y` is the operand's
  plus the sum of the updates whose two words, read SIGNED and NOT clamped, are `y`'s coordinates
  (`pair_scatterAdd_apply`); an update whose words name no entry of the operand meets no `y` and is dropped.
  `jax.ops.segment_sum` of rows `[E, N]` into `[M, N]` prints with scatter indices `[E, 1]` and the column axis a
  window axis: result entry `(i, n)` is the operand's plus the sum over the entries `e` whose word is `i` of update
  `(e, n)` (`row_scatterAdd_apply`). `table[idx]` of a table `[N, D]` at `idx : [R]` prints as a gather with start
  indices `[R, 1]`, the row axis collapsed and the column axis an offset axis: result `(r, j)` is column `j` of the
  row the word names, read signed and CLAMPED into the table (`row_gather_apply`).
-/
import Idealize.ShloMosaic.PureOps.Ideal
import Idealize.ShloMosaic.Lib.ValueIdx

noncomputable section

open scoped BigOperators

namespace Cert.Lib.ScatterAdd

open Idealize.ShloMosaic Idealize.ShloMosaic.ValueIdx

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## `x.at[r, c].add(v)` -/

/-- The dimension numbers of `x.at[r, c].add(v)`: operand `[M, K]`, scatter indices `[E, 2]`, updates `[E]`. -/
abbrev pairDims (M K E : Nat) (wf : ScatterDims.WF ⟨2, ![M, K]⟩ ⟨2, ![E, 2]⟩ ⟨1, ![E]⟩ [] [0, 1] [0, 1] 1) :
    ScatterDims ⟨2, ![M, K]⟩ ⟨2, ![E, 2]⟩ ⟨1, ![E]⟩ where
  updateWindowDims := []
  insertedWindowDims := [0, 1]
  scatterDimsToOperandDims := [0, 1]
  indexVectorDim := 1
  wf := wf

section Pair
variable {M K E w : Nat} (wf : ScatterDims.WF ⟨2, ![M, K]⟩ ⟨2, ![E, 2]⟩ ⟨1, ![E]⟩ [] [0, 1] [0, 1] 1)

/-- Both operand axes are inserted: an update has no window, its window coordinate is `0` on each. -/
theorem pair_window (j : (⟨1, ![E]⟩ : Shape).Idx) (a : Fin 2) : (pairDims M K E wf).window j a = 0 := by
  unfold ScatterDims.window
  rw [dif_neg]
  intro h
  have : a ∉ [(0 : Fin 2), 1] := (List.mem_filter.1 h).2 |> fun h' => by simpa using h'
  match a with
  | ⟨0, _⟩ => exact this (by simp)
  | ⟨1, _⟩ => exact this (by simp)

/-- The start on the row axis is entry `e`'s first word, read signed. -/
theorem pair_start0 (e : Fin E) (idx : IVec ⟨2, ![E, 2]⟩ w) :
    (pairDims M K E wf).start (ix1 e) idx (0 : Fin 2) = (idx (ix2 e (0 : Fin 2))).toInt := by
  unfold ScatterDims.start
  rw [dif_pos (show (0 : Fin 2) ∈ (pairDims M K E wf).scatterDimsToOperandDims from by simp)]
  have hsi : (pairDims M K E wf).siIdx (ix1 e) ⟨List.idxOf (0 : Fin 2) (pairDims M K E wf).scatterDimsToOperandDims,
      List.idxOf_lt_length_iff.2 (by simp)⟩ = ix2 e (0 : Fin 2) := by
    funext b; refine Fin.ext ?_
    match b with
    | ⟨0, _⟩ => rfl
    | ⟨1, _⟩ => rfl
  rw [hsi]

/-- The start on the column axis is entry `e`'s second word, read signed. -/
theorem pair_start1 (e : Fin E) (idx : IVec ⟨2, ![E, 2]⟩ w) :
    (pairDims M K E wf).start (ix1 e) idx (1 : Fin 2) = (idx (ix2 e (1 : Fin 2))).toInt := by
  unfold ScatterDims.start
  rw [dif_pos (show (1 : Fin 2) ∈ (pairDims M K E wf).scatterDimsToOperandDims from by simp)]
  have hsi : (pairDims M K E wf).siIdx (ix1 e) ⟨List.idxOf (1 : Fin 2) (pairDims M K E wf).scatterDimsToOperandDims,
      List.idxOf_lt_length_iff.2 (by simp)⟩ = ix2 e (1 : Fin 2) := by
    funext b; refine Fin.ext ?_
    match b with
    | ⟨0, _⟩ => rfl
    | ⟨1, _⟩ => rfl
  rw [hsi]

/-- Update `e` lands on `y` exactly when its two words, read signed, are `y`'s coordinates. -/
theorem pair_resultIdx?_eq_some_iff (e : Fin E) (idx : IVec ⟨2, ![E, 2]⟩ w) (y : (⟨2, ![M, K]⟩ : Shape).Idx) :
    (pairDims M K E wf).resultIdx? (ix1 e) idx = some y
      ↔ (idx (ix2 e (0 : Fin 2))).toInt = ((y 0).val : ℤ) ∧ (idx (ix2 e (1 : Fin 2))).toInt = ((y 1).val : ℤ) := by
  unfold ScatterDims.resultIdx?
  have h0 := pair_start0 wf e idx
  have h1 := pair_start1 wf e idx
  have w0 := pair_window wf (ix1 e) (0 : Fin 2)
  have w1 := pair_window wf (ix1 e) (1 : Fin 2)
  constructor
  · intro h
    split at h
    · rename_i hin
      have hy := Option.some.inj h
      have e0 := congrArg (fun z : (⟨2, ![M, K]⟩ : Shape).Idx => (z 0).val) hy
      have e1 := congrArg (fun z : (⟨2, ![M, K]⟩ : Shape).Idx => (z 1).val) hy
      simp only at e0 e1
      have b0 := hin 0
      have b1 := hin 1
      rw [h0, w0] at b0 e0
      rw [h1, w1] at b1 e1
      constructor <;> omega
    · exact absurd h (by simp)
  · rintro ⟨e0, e1⟩
    have key : ∀ a : Fin 2, (pairDims M K E wf).start (ix1 e) idx a + ((pairDims M K E wf).window (ix1 e) a : ℤ) = ((y a).val : ℤ) := by
      intro a
      match a with
      | ⟨0, _⟩ =>
        show (pairDims M K E wf).start (ix1 e) idx 0 + ((pairDims M K E wf).window (ix1 e) 0 : ℤ) = ((y 0).val : ℤ)
        rw [h0, w0, e0]; simp
      | ⟨1, _⟩ =>
        show (pairDims M K E wf).start (ix1 e) idx 1 + ((pairDims M K E wf).window (ix1 e) 1 : ℤ) = ((y 1).val : ℤ)
        rw [h1, w1, e1]; simp
    have hin : ∀ a : Fin 2, 0 ≤ (pairDims M K E wf).start (ix1 e) idx a + ((pairDims M K E wf).window (ix1 e) a : ℤ)
        ∧ (pairDims M K E wf).start (ix1 e) idx a + ((pairDims M K E wf).window (ix1 e) a : ℤ) < ((⟨2, ![M, K]⟩ : Shape).size a : ℤ) :=
      fun a => by rw [key a]; exact ⟨Int.natCast_nonneg _, by exact_mod_cast (y a).isLt⟩
    rw [dif_pos hin]
    refine congrArg some ?_
    funext a; refine Fin.ext ?_
    show ((pairDims M K E wf).start (ix1 e) idx a + ((pairDims M K E wf).window (ix1 e) a : ℤ)).toNat = (y a).val
    rw [key a]; simp

/-- THE PAIR SCATTER-ADD READ AT `y`. -/
theorem pair_scatterAdd_apply
    (x : (⟨2, ![M, K]⟩ : Shape).Idx → EReal) (idx : IVec ⟨2, ![E, 2]⟩ w) (upd : (⟨1, ![E]⟩ : Shape).Idx → EReal)
    (y : (⟨2, ![M, K]⟩ : Shape).Idx) :
    Ideal.hostScatterAdd (pairDims M K E wf) x idx upd y
      = x y + ∑ e : Fin E, if (idx (ix2 e (0 : Fin 2))).toInt = ((y 0).val : ℤ) ∧ (idx (ix2 e (1 : Fin 2))).toInt = ((y 1).val : ℤ)
          then upd (ix1 e) else 0 := by
  unfold Ideal.hostScatterAdd
  refine congrArg (x y + ·) ?_
  rw [Finset.sum_filter, sum_idx1]
  refine Finset.sum_congr rfl fun e _ => ?_
  exact if_congr (pair_resultIdx?_eq_some_iff wf e idx y) rfl rfl

end Pair

/-! ## A segment sum of rows -/

/-- The dimension numbers of a segment sum of rows: operand `[M, N]`, scatter indices `[E, 1]`, updates `[E, N]`. -/
abbrev rowDims (M N E : Nat) (wf : ScatterDims.WF ⟨2, ![M, N]⟩ ⟨2, ![E, 1]⟩ ⟨2, ![E, N]⟩ [1] [0] [0] 1) :
    ScatterDims ⟨2, ![M, N]⟩ ⟨2, ![E, 1]⟩ ⟨2, ![E, N]⟩ where
  updateWindowDims := [1]
  insertedWindowDims := [0]
  scatterDimsToOperandDims := [0]
  indexVectorDim := 1
  wf := wf

section Row
variable {M N E w : Nat} (wf : ScatterDims.WF ⟨2, ![M, N]⟩ ⟨2, ![E, 1]⟩ ⟨2, ![E, N]⟩ [1] [0] [0] 1)

/-- The row axis is inserted: no window coordinate on it. -/
theorem row_window0 (j : (⟨2, ![E, N]⟩ : Shape).Idx) : (rowDims M N E wf).window j (0 : Fin 2) = 0 := by
  unfold ScatterDims.window
  rw [dif_neg]
  intro h
  have : (0 : Fin 2) ∉ [(0 : Fin 2)] := (List.mem_filter.1 h).2 |> fun h' => by simpa using h'
  exact this (by simp)

/-- The column axis is the update's window axis: the window coordinate is the update's column. -/
theorem row_window1 (e : Fin E) (n : Fin N) : (rowDims M N E wf).window (ix2 e n) (1 : Fin 2) = n.val := by
  unfold ScatterDims.window
  rw [dif_pos (show (1 : Fin 2) ∈ (rowDims M N E wf).sKept from List.mem_filter.2 ⟨List.mem_finRange _, by simp⟩)]
  rfl

/-- The start on the row axis is entry `e`'s word, read signed … -/
theorem row_start0 (e : Fin E) (n : Fin N) (idx : IVec ⟨2, ![E, 1]⟩ w) :
    (rowDims M N E wf).start (ix2 e n) idx (0 : Fin 2) = (idx (ix2 e (0 : Fin 1))).toInt := by
  unfold ScatterDims.start
  rw [dif_pos (show (0 : Fin 2) ∈ (rowDims M N E wf).scatterDimsToOperandDims from by simp)]
  have hsi : (rowDims M N E wf).siIdx (ix2 e n) ⟨List.idxOf (0 : Fin 2) (rowDims M N E wf).scatterDimsToOperandDims,
      List.idxOf_lt_length_iff.2 (by simp)⟩ = ix2 e (0 : Fin 1) := by
    funext b; refine Fin.ext ?_
    match b with
    | ⟨0, _⟩ => rfl
    | ⟨1, _⟩ => rfl
  rw [hsi]

/-- … and no start index names the column axis. -/
theorem row_start1 (j : (⟨2, ![E, N]⟩ : Shape).Idx) (idx : IVec ⟨2, ![E, 1]⟩ w) :
    (rowDims M N E wf).start j idx (1 : Fin 2) = 0 := by
  unfold ScatterDims.start
  rw [dif_neg (show (1 : Fin 2) ∉ (rowDims M N E wf).scatterDimsToOperandDims from by simp)]

/-- Update `(e, n)` lands on `y` exactly when `e`'s word, read signed, is `y`'s row and `n` is `y`'s column. -/
theorem row_resultIdx?_eq_some_iff (e : Fin E) (n : Fin N) (idx : IVec ⟨2, ![E, 1]⟩ w) (y : (⟨2, ![M, N]⟩ : Shape).Idx) :
    (rowDims M N E wf).resultIdx? (ix2 e n) idx = some y
      ↔ (idx (ix2 e (0 : Fin 1))).toInt = ((y 0).val : ℤ) ∧ n.val = (y 1).val := by
  unfold ScatterDims.resultIdx?
  have h0 := row_start0 wf e n idx
  have h1 := row_start1 wf (ix2 e n) idx
  have w0 := row_window0 wf (ix2 e n)
  have w1 := row_window1 wf e n
  constructor
  · intro h
    split at h
    · rename_i hin
      have hy := Option.some.inj h
      have e0 := congrArg (fun z : (⟨2, ![M, N]⟩ : Shape).Idx => (z 0).val) hy
      have e1 := congrArg (fun z : (⟨2, ![M, N]⟩ : Shape).Idx => (z 1).val) hy
      simp only at e0 e1
      have b0 := hin 0
      have b1 := hin 1
      rw [h0, w0] at b0 e0
      rw [h1, w1] at b1 e1
      constructor <;> omega
    · exact absurd h (by simp)
  · rintro ⟨e0, e1⟩
    have key : ∀ a : Fin 2, (rowDims M N E wf).start (ix2 e n) idx a + ((rowDims M N E wf).window (ix2 e n) a : ℤ) = ((y a).val : ℤ) := by
      intro a
      match a with
      | ⟨0, _⟩ =>
        show (rowDims M N E wf).start (ix2 e n) idx 0 + ((rowDims M N E wf).window (ix2 e n) 0 : ℤ) = ((y 0).val : ℤ)
        rw [h0, w0, e0]; simp
      | ⟨1, _⟩ =>
        show (rowDims M N E wf).start (ix2 e n) idx 1 + ((rowDims M N E wf).window (ix2 e n) 1 : ℤ) = ((y 1).val : ℤ)
        rw [h1, w1, e1]; simp
    have hin : ∀ a : Fin 2, 0 ≤ (rowDims M N E wf).start (ix2 e n) idx a + ((rowDims M N E wf).window (ix2 e n) a : ℤ)
        ∧ (rowDims M N E wf).start (ix2 e n) idx a + ((rowDims M N E wf).window (ix2 e n) a : ℤ) < ((⟨2, ![M, N]⟩ : Shape).size a : ℤ) :=
      fun a => by rw [key a]; exact ⟨Int.natCast_nonneg _, by exact_mod_cast (y a).isLt⟩
    rw [dif_pos hin]
    refine congrArg some ?_
    funext a; refine Fin.ext ?_
    show ((rowDims M N E wf).start (ix2 e n) idx a + ((rowDims M N E wf).window (ix2 e n) a : ℤ)).toNat = (y a).val
    rw [key a]; simp

/-- The row scatter-add read at the entry `(p, q)`. -/
theorem row_scatterAdd_apply_ix
    (x : (⟨2, ![M, N]⟩ : Shape).Idx → EReal) (idx : IVec ⟨2, ![E, 1]⟩ w) (upd : (⟨2, ![E, N]⟩ : Shape).Idx → EReal)
    (p : Fin M) (q : Fin N) :
    Ideal.hostScatterAdd (rowDims M N E wf) x idx upd (ix2 p q)
      = x (ix2 p q) + ∑ e : Fin E, if (idx (ix2 e (0 : Fin 1))).toInt = ((p.val : ℕ) : ℤ) then upd (ix2 e q) else 0 := by
  unfold Ideal.hostScatterAdd
  refine congrArg (x (ix2 p q) + ·) ?_
  rw [Finset.sum_filter, sum_idx2]
  refine Finset.sum_congr rfl fun e _ => ?_
  have hstep : ∀ n : Fin N, (if (rowDims M N E wf).resultIdx? (ix2 e n) idx = some (ix2 p q) then upd (ix2 e n) else 0)
      = if n = q then (if (idx (ix2 e (0 : Fin 1))).toInt = ((p.val : ℕ) : ℤ) then upd (ix2 e n) else 0) else 0 := by
    intro n
    by_cases hn : n = q
    · rw [if_pos hn]
      exact if_congr ((row_resultIdx?_eq_some_iff wf e n idx (ix2 p q)).trans
        ⟨fun h => h.1, fun h => ⟨h, congrArg Fin.val hn⟩⟩) rfl rfl
    · rw [if_neg hn, if_neg]
      intro h
      exact hn (Fin.ext ((row_resultIdx?_eq_some_iff wf e n idx (ix2 p q)).1 h).2)
  simp_rw [hstep]
  rw [Finset.sum_ite_eq' Finset.univ q]
  simp

/-- THE ROW SCATTER-ADD READ AT `y`. -/
theorem row_scatterAdd_apply
    (x : (⟨2, ![M, N]⟩ : Shape).Idx → EReal) (idx : IVec ⟨2, ![E, 1]⟩ w) (upd : (⟨2, ![E, N]⟩ : Shape).Idx → EReal)
    (y : (⟨2, ![M, N]⟩ : Shape).Idx) :
    Ideal.hostScatterAdd (rowDims M N E wf) x idx upd y
      = x y + ∑ e : Fin E, if (idx (ix2 e (0 : Fin 1))).toInt = ((y 0).val : ℤ) then upd (ix2 e (y 1)) else 0 := by
  obtain ⟨p, q, rfl⟩ : ∃ (p : Fin M) (q : Fin N), y = ix2 p q := ⟨y 0, y 1, eq_ix2 y⟩
  exact row_scatterAdd_apply_ix wf x idx upd p q

end Row

/-! ## `table[idx]` of a rank-2 table -/

/-- The dimension numbers of `table[idx]` for a table `[N, D]` and `idx : [R]`: start indices `[R, 1]`, result `[R, D]`. -/
abbrev rowGatherDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section RowGather
variable {α : Type} {N D R w : Nat}
  (wf : GatherDims.WF ⟨2, ![N, D]⟩ ⟨2, ![R, 1]⟩ ⟨2, ![R, D]⟩ [1] [0] [] [0] [] 1 ![1, D])

/-- On the table's row axis the operand coordinate is the start word, read signed and clamped (the axis is collapsed:
    nothing is added). -/
theorem gather_row_axis (idx : IVec ⟨2, ![R, 1]⟩ w) (r : Fin R) (j : Fin D) :
    (rowGatherDims N D R wf).start (ix2 r j) idx (0 : Fin 2) + (rowGatherDims N D R wf).batchCoord (ix2 r j) (0 : Fin 2)
      + (rowGatherDims N D R wf).offCoord (ix2 r j) (0 : Fin 2) = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N D R wf).startIndexMap from List.mem_singleton.mpr rfl)]
  have hsi : (rowGatherDims N D R wf).siIdx (ix2 r j) ⟨List.idxOf (0 : Fin 2) (rowGatherDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand coordinate is the result's own column (no start index names the axis). -/
theorem gather_col_axis (idx : IVec ⟨2, ![R, 1]⟩ w) (r : Fin R) (j : Fin D) :
    (rowGatherDims N D R wf).start (ix2 r j) idx (1 : Fin 2) + (rowGatherDims N D R wf).batchCoord (ix2 r j) (1 : Fin 2)
      + (rowGatherDims N D R wf).offCoord (ix2 r j) (1 : Fin 2) = j.val := by
  rw [GatherDims.batchCoord_eq_zero _ _ _ List.not_mem_nil]
  have hs : (rowGatherDims N D R wf).start (ix2 r j) idx (1 : Fin 2) = 0 := by
    unfold GatherDims.start
    rw [dif_neg (show (1 : Fin 2) ∉ (rowGatherDims N D R wf).startIndexMap from by simp)]
  have ho : (rowGatherDims N D R wf).offCoord (ix2 r j) (1 : Fin 2) = j.val := by
    unfold GatherDims.offCoord
    rw [dif_pos (show (1 : Fin 2) ∈ (rowGatherDims N D R wf).sKept from (GatherDims.mem_sKept _ _).mpr ⟨by simp, List.not_mem_nil⟩)]
    rfl
  rw [hs, ho]
  simp

end RowGather

/-- THE ROW GATHER READ AT `(r, j)`: column `j` of the row the start word names, read signed and clamped. -/
theorem row_gather_apply {α : Type} {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowGatherDims N D R wf) x idx (ix2 r j)
      = x (ix2 (⟨min (idx (ix2 r (0 : Fin 1))).toInt.toNat (N - 1), by omega⟩ : Fin N) j) := by
  unfold Host.gather
  refine congrArg x ?_
  funext a
  refine Fin.ext ?_
  match a with
  | ⟨0, _⟩ => exact gather_row_axis wf idx r j
  | ⟨1, _⟩ => exact gather_col_axis wf idx r j

end Cert.Lib.ScatterAdd

end
-- ==== Proof.RefScatter.lean ====
/-
  The reference's weight matrix, read at one entry.

  The reference overwrites rows of the dequantised matrix: a scatter whose body returns the update, one index word per
  update row, the column axis the update's window axis. The scatter is a left fold over the update entries of
  "overwrite the entry this update lands on, if it lands inside". A fold of overwrites read at one entry `y` is the
  start value when no update lands on `y`, and the common value of the updates that land on `y` when they all carry
  the same value (`foldl_set_apply`). Update `(e, n)` lands on `(k, o)` exactly when row word `e` names `k` and
  `n = o`; with the 32 words in range and pairwise distinct at most one update lands there, which gives the
  specification's `weightSet` (`scatter_read`).

  The words the scatter reads are the given ones with the negative ones wrapped by `+ 4096`; a word in `[0, 4096)` is
  not negative read signed, so it is read as it is (`word_eq`).
-/
import proofs.«419512_j42674795053346_3_alg».proof.Proof.Gen.ReferenceIdeal.Read
import proofs.«419512_j42674795053346_3_alg».proof.Proof.LibScatterAdd

noncomputable section

open scoped BigOperators Classical

namespace Cert.RefValue

open Idealize.ShloMosaic Idealize.ShloMosaic.ValueIdx Cert.ReferenceIdeal Cert.ReferenceIdeal.Gen Cert.ReferenceIdeal.Read

/-! ## A fold of overwrites, read at one entry -/

/-- A left fold of the step "entry `g n` becomes `v n` (nothing changes when `g n` is none)", read at `y`: when every
    list element that lands on `y` carries the value `c`, the fold at `y` is `c` if some element lands on `y`, and
    the start value otherwise. -/
theorem foldl_set_apply {ι κ α : Type} (g : ι → Option κ) (v : ι → α) (step : (κ → α) → ι → κ → α)
    (hstep : ∀ r n k, step r n k = if g n = some k then v n else r k) (y : κ) (c : α) :
    ∀ (l : List ι), (∀ n ∈ l, g n = some y → v n = c) → ∀ x : κ → α,
      l.foldl step x y = if ∃ n ∈ l, g n = some y then c else x y
  | [], _, x => by simp
  | a :: l, hc, x => by
    rw [List.foldl_cons, foldl_set_apply g v step hstep y c l (fun n hn => hc n (List.mem_cons_of_mem _ hn)) (step x a)]
    by_cases hl : ∃ n ∈ l, g n = some y
    · obtain ⟨n, hn, h⟩ := hl
      rw [if_pos ⟨n, hn, h⟩, if_pos ⟨n, List.mem_cons_of_mem _ hn, h⟩]
    · rw [if_neg hl, hstep]
      by_cases ha : g a = some y
      · rw [if_pos ha, if_pos ⟨a, List.mem_cons_self, ha⟩]
        exact hc a List.mem_cons_self ha
      · rw [if_neg ha, if_neg]
        rintro ⟨n, hn, h⟩
        rcases List.mem_cons.1 hn with rfl | hn'
        · exact ha h
        · exact hl ⟨n, hn', h⟩

/-- A host scatter whose body returns the update, read at `y`: when every update that lands on `y` carries the value
    `c`, the result at `y` is `c` if some update lands on `y`, and the operand's entry otherwise. -/
theorem scatter_set_apply {α : Type} {s si u : Shape} {w : Nat} (d : ScatterDims s si u) (x : s.Idx → α) (idx : IVec si w)
    (upd : u.Idx → α) (y : s.Idx) (c : α) (hc : ∀ j : u.Idx, d.resultIdx? j idx = some y → upd j = c) :
    Host.scatter d (fun _ b => b) x idx upd y = if ∃ j : u.Idx, d.resultIdx? j idx = some y then c else x y := by
  unfold Host.scatter
  rw [foldl_set_apply (fun n => d.resultIdx? (u.rowMajor.symm n) idx) (fun n => upd (u.rowMajor.symm n)) _ ?_ y c _
    (fun n _ h => hc _ h)]
  · by_cases hex : ∃ j : u.Idx, d.resultIdx? j idx = some y
    · obtain ⟨j, h⟩ := hex
      rw [if_pos ⟨u.rowMajor j, List.mem_finRange _, by rwa [Equiv.symm_apply_apply]⟩, if_pos ⟨j, h⟩]
    · rw [if_neg hex, if_neg]
      rintro ⟨n, _, h⟩
      exact hex ⟨_, h⟩
  · intro r n k
    dsimp only
    cases h : d.resultIdx? (u.rowMajor.symm n) idx with
    | none =>
      dsimp only
      rw [if_neg (by simp)]
    | some i =>
      dsimp only
      by_cases hk : k = i
      · subst hk
        rw [if_pos rfl, if_pos rfl]
      · rw [if_neg hk, if_neg (fun h' => hk (Option.some.inj h').symm)]

/-! ## The row words the scatter reads -/

/-- A word below 4096 read unsigned is not negative read signed, and reads the same number. -/
theorem toInt_of_lt (b : BitVec 32) (h : b.toNat < 4096) : b.toInt = (b.toNat : ℤ) := by
  rw [BitVec.toInt_eq_toNat_cond]
  split <;> omega

/-- The scatter's index column at row `e` is the given word `e`: wrapping the negative words leaves a word in
    `[0, 4096)` as it is. -/
theorem word_eq (ids : IVec S32 32) (e : Fin 32) (hr : (ids (ix1 e)).toNat < 4096) :
    val_main_v36 (F := Ideal) ids (ix2 e (0 : Fin 1)) = ids (ix1 e) := by
  have hidx : idx_main_v36 (ix2 e (0 : Fin 1)) = ix1 e := by
    funext a
    match a with
    | ⟨0, _⟩ => rfl
  rw [val_main_v36_apply, hidx, val_main_v35_apply, val_main_v32_apply, val_main_v31_apply, val_main_c_4_apply]
  have hlt : (ids (ix1 e)).slt 0#32 = false := by
    simp only [BitVec.slt, BitVec.toInt_zero, decide_eq_false_iff_not, Int.not_lt]
    rw [toInt_of_lt _ hr]
    omega
  show (if BitVec.ofBool ((ids (ix1 e)).slt 0#32) = 1 then _ else _) = _
  rw [hlt]
  rfl

/-- Update `(e, n)` lands on `(k, o)` exactly when word `e` names row `k` and `n` is `o`. -/
theorem lands_iff (ids : IVec S32 32) (hr : ∀ j : Fin 32, (ids (ix1 j)).toNat < 4096) (e : Fin 32) (n k o : Fin 4096) :
    scatter_S4096x4096_S32x1_S32x4096_1_0_0_1.resultIdx? (ix2 e n) (val_main_v36 (F := Ideal) ids) = some (ix2 k o)
      ↔ ids (ix1 e) = BitVec.ofNat 32 k.val ∧ n = o := by
  have hd : scatter_S4096x4096_S32x1_S32x4096_1_0_0_1
      = Cert.Lib.ScatterAdd.rowDims 4096 4096 32 scatter_S4096x4096_S32x1_S32x4096_1_0_0_1_wf := rfl
  rw [hd, Cert.Lib.ScatterAdd.row_resultIdx?_eq_some_iff, word_eq ids e (hr e), toInt_of_lt _ (hr e)]
  show ((ids (ix1 e)).toNat : ℤ) = (k.val : ℤ) ∧ n.val = o.val ↔ _
  have hk : k.val % 2 ^ 32 = k.val := Nat.mod_eq_of_lt (by have := k.isLt; omega)
  constructor
  · rintro ⟨h1, h2⟩
    refine ⟨BitVec.eq_of_toNat_eq ?_, Fin.ext h2⟩
    rw [BitVec.toNat_ofNat, hk]
    exact_mod_cast h1
  · rintro ⟨h1, h2⟩
    refine ⟨?_, congrArg Fin.val h2⟩
    rw [h1, BitVec.toNat_ofNat, hk]

end Cert.RefValue

end
-- ==== Proof.RefVal.lean ====
/-
  The reference's result as the specification's `refOut`.

  The reference dequantises the 4-bit weight, overwrites the 32 outlier rows by the full-precision rows (a scatter
  whose body returns the update), multiplies the activations `[4, 2048, 4096]` by the overwritten weight over all
  4096 input rows, and adds the bias along the output columns. Read at one entry `(b, s, o)`: the sum over the input
  rows `k` of `x[b, s, k]` times the overwritten weight at `(k, o)`, plus `bias[o]`. The overwritten weight at
  `(k, o)` is the specification's `weightSet` when the row words are in range and pairwise distinct
  (`scatter_read`), and `x[b, s, k]` is entry `(2048 · b + s, k)` of the activations as a matrix (`flat_apply`):
  the entry is `refOut` at row `2048 · b + s`, column `o` (`ref_result`). `ref_run` restates the reference's run
  with its result buffer at that stage.
-/
import proofs.«419512_j42674795053346_3_alg».proof.Proof.Gen.ReferenceIdeal.Read
import proofs.«419512_j42674795053346_3_alg».proof.Proof.Spec
import proofs.«419512_j42674795053346_3_alg».proof.Proof.RefScatter

noncomputable section

open scoped BigOperators Classical

namespace Cert.RefValue

open Idealize.ShloMosaic Idealize.ShloMosaic.ValueIdx Idealize.ShloMosaic.TcCoe Idealize.SL.Sem Idealize.ShloMosaic.StableHlo
  Cert.ReferenceIdeal Cert.ReferenceIdeal.Gen Cert.ReferenceIdeal.Read

/-! ## The overwritten weight -/

/-- The reference's scatter read at `(k, o)`: with the 32 row words in range and pairwise distinct, an outlier row
    `k` holds the one full-precision row whose word names it, and every other row is the operand's. -/
theorem scatter_read (wdv : FVec Ideal S4096x4096 .f32) (ow : FVec Ideal S32x4096 .f32) (ids : IVec S32 32)
    (hr : ∀ j : Fin 32, (ids (ix1 j)).toNat < 4096) (hinj : Function.Injective fun j : Fin 32 => ids (ix1 j))
    (k o : Fin 4096) :
    Host.scatter scatter_S4096x4096_S32x1_S32x4096_1_0_0_1 (fun _ b => b) wdv (val_main_v36 (F := Ideal) ids) ow (ix2 k o)
      = Cert.QuantSpec.weightSet (fun k o => wdv (ix2 k o)) ow ids k o := by
  unfold Cert.QuantSpec.weightSet
  by_cases h : Cert.QuantSpec.isOutlier ids k
  · have hsp : ids (ix1 (Classical.choose h)) = BitVec.ofNat 32 k.val := Classical.choose_spec h
    rw [dif_pos h, scatter_set_apply _ _ _ _ _ (ow (ix2 (Classical.choose h) o)) ?_,
      if_pos ⟨ix2 (Classical.choose h) o, (lands_iff ids hr _ _ _ _).2 ⟨hsp, rfl⟩⟩]
    intro j hj
    rw [eq_ix2 j] at hj ⊢
    obtain ⟨h1, h2⟩ := (lands_iff ids hr _ _ _ _).1 hj
    have he : j 0 = Classical.choose h := hinj (h1.trans hsp.symm)
    rw [he, h2]
    rfl
  · rw [dif_neg h, scatter_set_apply _ _ _ _ _ (wdv (ix2 k o)) ?_, ite_self]
    intro j hj
    rw [eq_ix2 j] at hj
    exact absurd ⟨j 0, ((lands_iff ids hr _ _ _ _).1 hj).1⟩ h

/-! ## The product and the bias -/

/-- Row `2048 · b + s` of the activations as a matrix is row `s` of batch `b`. -/
theorem flat_apply (x : FVec Ideal S4x2048x4096 .f32) (b : Fin 4) (s : Fin 2048) (k : Fin 4096) :
    Cert.QuantSpec.flat x (ix2 (Cert.QuantSpec.flatRow b s) k) = x (ix3 b s k) := by
  unfold Cert.QuantSpec.flat
  have hb := b.isLt
  have hs := s.isLt
  refine congrArg x (funext fun a => ?_)
  match a with
  | ⟨0, _⟩ => exact Fin.ext (show (2048 * b.val + s.val) / 2048 = b.val by omega)
  | ⟨1, _⟩ => exact Fin.ext (show (2048 * b.val + s.val) % 2048 = s.val by omega)
  | ⟨2, _⟩ => rfl

/-- THE REFERENCE'S RESULT is the specification's `refOut` of the activations as a matrix and the dequantised weight:
    entry `(b, s, o)` is the product of row `2048 · b + s` with column `o` of the overwritten weight, plus
    `bias o`. -/
theorem ref_result (x : FVec Ideal S4x2048x4096 .f32) (q : IVec S512x4096 32) (sc : FVec Ideal S4096x1 .f32)
    (z : IVec S2048x1 32) (ow : FVec Ideal S32x4096 .f32) (ids : IVec S32 32) (bias : FVec Ideal S4096 .f32)
    (hr : ∀ j : Fin 32, (ids (ix1 j)).toNat < 4096) (hinj : Function.Injective fun j : Fin 32 => ids (ix1 j)) :
    Cert.ReferenceIdeal.Read.val_main_v41 (F := Ideal) x q sc z ow ids bias
      = fun i => Cert.QuantSpec.refOut (Cert.QuantSpec.flat x)
          (fun k o => Cert.ReferenceIdeal.Read.val_main_v30 (F := Ideal) q sc z (ix2 k o)) ow ids bias
          (Cert.QuantSpec.flatRow (i 0) (i 1)) (i 2) := by
  funext i
  obtain ⟨b, s, o, rfl⟩ : ∃ (b : Fin 4) (s : Fin 2048) (o : Fin 4096), i = ix3 b s o := ⟨i 0, i 1, i 2, eq_ix3 i⟩
  show val_main_v41 (F := Ideal) x q sc z ow ids bias (ix3 b s o)
    = Cert.QuantSpec.refOut (Cert.QuantSpec.flat x) (fun k o => val_main_v30 (F := Ideal) q sc z (ix2 k o)) ow ids bias
        (Cert.QuantSpec.flatRow b s) o
  rw [val_main_v41_apply, val_main_v38_apply, val_main_v40_apply, val_main_v39_apply, Ideal.addf_def]
  unfold Cert.QuantSpec.refOut
  have hbias : idx_main_v39 (idx_main_v40 (ix3 b s o)) = ix1 o := by
    funext a
    match a with
    | ⟨0, _⟩ => rfl
  rw [hbias]
  refine congrArg (· + bias (ix1 o)) (Finset.sum_congr rfl fun k _ => ?_)
  have hl : lidx_main_v38 (ix3 b s o) k = ix3 b s k := by
    funext a
    match a with
    | ⟨0, _⟩ => rfl
    | ⟨1, _⟩ => rfl
    | ⟨2, _⟩ => rfl
  have hrr : ridx_main_v38 (ix3 b s o) k = ix2 k o := by
    funext a
    match a with
    | ⟨0, _⟩ => rfl
    | ⟨1, _⟩ => rfl
  rw [hl, hrr, flat_apply]
  unfold val_main_v37
  rw [scatter_read _ _ _ hr hinj]

/-! ## The run -/

/-- Every weakly fair execution of the reference terminates with its result buffer at the stage `val_main_v41` of the
    arguments' launch contents, the seven arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v41)
          = val_main_v41 (F := Ideal) (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono (fun _ h c => ⟨(h c).1.trans (val_main_v41_eq _ _ _ _ _ _ _), (h c).2⟩)
    (Cert.ReferenceIdeal.Value.run (F := Ideal) m' ρ')

end Cert.RefValue

end
-- ==== Proof.PreDecode.lean ====
/-
  The printed precondition, read back at the index vector. The precondition is a conjunction of six
  universally quantified conditions, each an `and`-reduction of a Boolean array over all its axes; its last two say of the 32 outlier row indices `ids` that every one lies in [0, 4096)
  (signed) and that `ids p ≠ ids q` unless `p = q`. A conjunction of `i1` words that is 1 has every
  conjunct 1; an `and`-reduction over all axes that is 1 has a 1 at every element; a signed comparison
  word that is 1 orders its operands as integers. A word with 0 ≤ toInt < 4096 has toNat = toInt, so it
  is below 4096 unsigned; and pairwise distinctness off the diagonal is injectivity of `j ↦ ids j`.
-/
import proofs.«419512_j42674795053346_3_alg».proof.Pre_finite_inputs
import proofs.«419512_j42674795053346_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Affine

noncomputable section

namespace Cert.PreDecode

open Idealize.ShloMosaic Idealize.ShloMosaic.StableHlo.Predicate
open Cert.Pre_finite_inputs

/-- The scalar shape has one index. -/
instance : Subsingleton S_.Idx := ⟨fun a b => funext fun d => d.elim0⟩

/-- The rank-1 index at coordinate `k`, in either spelling. -/
theorem ofFin_eq_ix1 {n : Nat} (k : Fin n) : Shape.Idx.ofFin k = ValueIdx.ix1 k :=
  (Shape.Idx.eq_ofFin (ValueIdx.ix1 k)).symm

/-- A 32-bit word whose signed value lies in [0, 4096) has that value unsigned. -/
theorem toNat_lt_of_toInt (w : BitVec 32) (h0 : 0 ≤ w.toInt) (h1 : w.toInt < 4096) : w.toNat < 4096 := by
  have h32 := w.isLt
  rw [BitVec.toInt_eq_toNat_cond] at h0 h1
  split at h0 <;> omega

/-- Two positions below 32 whose 32-bit words agree are the same position. -/
theorem fin_eq_of_ofNat_eq {p q : Fin 32} (h : BitVec.ofNat 32 p.val = BitVec.ofNat 32 q.val) : p = q := by
  have e := congrArg BitVec.toNat h
  simp only [BitVec.toNat_ofNat] at e
  have hp := p.isLt
  have hq := q.isLt
  exact Fin.ext (by omega)

theorem ids_of_pre {F : FTy → Type} [FloatOps F] [Cert.Pre_finite_inputs.Facts] (a0 : FVec F Cert.Pre_finite_inputs.S4x2048x4096 .f32) (a1 : IVec Cert.Pre_finite_inputs.S512x4096 32) (a2 : FVec F Cert.Pre_finite_inputs.S4096x1 .f32) (a3 : IVec Cert.Pre_finite_inputs.S2048x1 32) (a4 : FVec F Cert.Pre_finite_inputs.S32x4096 .f32) (a5 : IVec Cert.Pre_finite_inputs.S32 32) (a6 : FVec F Cert.Pre_finite_inputs.S4096 .f32)
    (h : Cert.Pre_finite_inputs.fn (F := F) a0 a1 a2 a3 a4 a5 a6 = fun _ => 1#1) :
    (∀ j : Fin 32, 0 ≤ (a5 (ValueIdx.ix1 j)).toInt ∧ (a5 (ValueIdx.ix1 j)).toInt < 4096) ∧ (∀ j : Fin 32, (a5 (ValueIdx.ix1 j)).toNat < 4096) ∧ Function.Injective fun j : Fin 32 => a5 (ValueIdx.ix1 j) := by
  have e := congrFun h ValueIdx.ix0
  dsimp only [fn, fn_part1, fn_part2] at e
  -- the conjunction: the last two conjuncts
  obtain ⟨e25, e35⟩ := IntOp.andi_eq_one.1 e
  obtain ⟨-, e24⟩ := IntOp.andi_eq_one.1 e25
  -- ∀ j, 0 ≤ ids j ∧ ids j < 4096: the reduction's element j
  have hrange : ∀ j : Fin 32, 0 ≤ (a5 (ValueIdx.ix1 j)).toInt ∧ (a5 (ValueIdx.ix1 j)).toInt < 4096 := by
    intro j
    have ej := Host.reduce_andi_all _ _ _ _ _ e24 (ValueIdx.ix1 j)
    obtain ⟨hge, hlt⟩ := IntOp.andi_eq_one.1 ej
    have hge' := IntOp.cmpi_sge.1 hge
    have hlt' := IntOp.cmpi_slt.1 hlt
    exact ⟨hge', hlt'⟩
  -- ∀ p q, ids p ≠ ids q ∨ p = q: the reduction's element (p, q); the row and column positions are the two iotas
  have hinj : ∀ p q : Fin 32, a5 (ValueIdx.ix1 p) ≠ a5 (ValueIdx.ix1 q) ∨ p = q := by
    intro p q
    have epq := Host.reduce_andi_all _ _ _ _ _ e35 (ij p q)
    rcases IntOp.ori_eq_one.1 epq with hne | heq
    · left
      have hne' := IntOp.cmpi_ne.1 hne
      rw [bcast_rows, bcast_cols, ofFin_eq_ix1, ofFin_eq_ix1] at hne'
      exact hne'
    · right
      exact fin_eq_of_ofNat_eq (IntOp.cmpi_eq.1 heq)
  refine ⟨hrange, fun j => toNat_lt_of_toInt _ (hrange j).1 (hrange j).2, fun p q hpq => ?_⟩
  rcases hinj p q with hne | rfl
  · exact absurd hpq hne
  · rfl

end Cert.PreDecode

end
-- ==== Proof.Algebra.lean ====
/-
  The kernel's result equals the reference's, as extended reals, when the 32 row words are in range and pairwise
  distinct.

  Three facts. (1) Row `512 · kb + kk` runs over every input row exactly once as `(kb, kk)` runs over
  `Fin 8 × Fin 512`, so the 8 blocks of 512 terms are one sum over the 4096 input rows. (2) At every input row `k`
  the reference's term is the kernel's masked term plus a correction term: on a row no word names the mask is 1, the
  weight is the dequantised one and the correction is 0; on a row some word names the mask is 0, the masked term is
  `x · (w · 0) = 0`, and the correction is `x[r, k] · ow[j, o]` for the word `j` that names `k`. (3) The correction
  terms, summed over all input rows, are the rank-32 product: they vanish off the image of `j ↦ ids[j]`, that map is
  injective, and on its image the chosen word is the unique one that names the row. Only the laws of a commutative
  monoid under `+` and `a · 0 = 0`, `a · 1 = a` are used.
-/
import proofs.«419512_j42674795053346_3_alg».proof.Proof.Spec
import Mathlib.Algebra.BigOperators.Group.Finset.Basic
import Mathlib.Algebra.BigOperators.Fin
import Mathlib.Data.EReal.Basic

noncomputable section

open scoped BigOperators Classical

namespace Cert.QuantSpec

open Idealize.ShloMosaic Idealize.ShloMosaic.ValueIdx

/-- A word in range is the 32-bit word of the row it names. -/
theorem ofNat_idRow (ids : IVec SID 32) (hr : ∀ j : Fin 32, (ids (ix1 j)).toNat < 4096) (j : Fin 32) :
    BitVec.ofNat 32 (idRow ids j).val = ids (ix1 j) := by
  apply BitVec.eq_of_toNat_eq
  have h := hr j
  simp only [idRow, BitVec.toNat_ofNat]
  omega

/-- A row is an outlier row exactly when some word names it. -/
theorem isOutlier_iff (ids : IVec SID 32) (hr : ∀ j : Fin 32, (ids (ix1 j)).toNat < 4096) (k : Fin 4096) :
    isOutlier ids k ↔ ∃ j : Fin 32, idRow ids j = k := by
  constructor
  · rintro ⟨j, hj⟩
    refine ⟨j, ?_⟩
    apply Fin.ext
    have hk := k.isLt
    have h2 : (ids (ix1 j)).toNat = k.val := by
      rw [hj, BitVec.toNat_ofNat]
      omega
    simp only [idRow, h2]
    omega
  · rintro ⟨j, rfl⟩
    exact ⟨j, (ofNat_idRow ids hr j).symm⟩

/-- Distinct words in range name distinct rows. -/
theorem idRow_injective (ids : IVec SID 32) (hr : ∀ j : Fin 32, (ids (ix1 j)).toNat < 4096)
    (hinj : Function.Injective fun j : Fin 32 => ids (ix1 j)) : Function.Injective (idRow ids) := by
  intro j j' h
  apply hinj
  show ids (ix1 j) = ids (ix1 j')
  rw [← ofNat_idRow ids hr j, ← ofNat_idRow ids hr j', h]

/-- The word chosen for the row that word `j` names is `j` itself. -/
theorem choose_idRow (ids : IVec SID 32) (hr : ∀ j : Fin 32, (ids (ix1 j)).toNat < 4096)
    (hinj : Function.Injective fun j : Fin 32 => ids (ix1 j)) (j : Fin 32) (h : isOutlier ids (idRow ids j)) :
    Classical.choose h = j := by
  apply hinj
  show ids (ix1 (Classical.choose h)) = ids (ix1 j)
  rw [Classical.choose_spec h, ofNat_idRow ids hr j]

/-- `(kb, kk) ↦ 512 · kb + kk` is a bijection of `Fin 8 × Fin 512` with `Fin 4096`. -/
def blockEquiv : Fin 8 × Fin 512 ≃ Fin 4096 where
  toFun p := blockRow p.1 p.2
  invFun k := (⟨k.val / 512, by have := k.isLt; omega⟩, ⟨k.val % 512, Nat.mod_lt _ (by norm_num)⟩)
  left_inv := by
    rintro ⟨a, b⟩
    have := a.isLt
    have := b.isLt
    apply Prod.ext <;> apply Fin.ext <;> simp only [blockRow] <;> omega
  right_inv := by
    intro k
    apply Fin.ext
    simp only [blockRow]
    omega

/-- The 8 blocks of 512 terms are one sum over the 4096 input rows. -/
theorem sum_blocks (F : Fin 4096 → EReal) :
    (∑ kb : Fin 8, ∑ kk : Fin 512, F (blockRow kb kk)) = ∑ k : Fin 4096, F k := by
  rw [← Fintype.sum_prod_type' (fun kb kk => F (blockRow kb kk))]
  exact Fintype.sum_equiv blockEquiv _ _ (fun _ => rfl)

/-- The correction term at input row `k`: `x[r, k] · ow[j, o]` for the word `j` that names `k`, 0 on a row no word names. -/
def corr (x2 : FVec Ideal SX2 .f32) (ow : FVec Ideal SOW .f32) (ids : IVec SID 32) (r : Fin 8192) (o : Fin 4096)
    (k : Fin 4096) : EReal :=
  if h : isOutlier ids k then x2 (ix2 r k) * ow (ix2 (Classical.choose h) o) else 0

/-- At every input row the reference's term is the kernel's masked term plus the correction term. -/
theorem term_split (x2 : FVec Ideal SX2 .f32) (wd : Fin 4096 → Fin 4096 → EReal) (ow : FVec Ideal SOW .f32)
    (ids : IVec SID 32) (r : Fin 8192) (o : Fin 4096) (k : Fin 4096) :
    x2 (ix2 r k) * weightSet wd ow ids k o = x2 (ix2 r k) * weightMasked wd ids k o + corr x2 ow ids r o k := by
  by_cases h : isOutlier ids k
  · simp only [weightSet, weightMasked, keep, corr, dif_pos h, if_pos h, mul_zero, zero_add]
  · simp only [weightSet, weightMasked, keep, corr, dif_neg h, if_neg h, mul_one, add_zero]

/-- The correction terms sum to the rank-32 product. -/
theorem sum_corr (x2 : FVec Ideal SX2 .f32) (ow : FVec Ideal SOW .f32) (ids : IVec SID 32)
    (hr : ∀ j : Fin 32, (ids (ix1 j)).toNat < 4096) (hinj : Function.Injective fun j : Fin 32 => ids (ix1 j))
    (r : Fin 8192) (o : Fin 4096) :
    (∑ k : Fin 4096, corr x2 ow ids r o k) = ∑ j : Fin 32, x2 (ix2 r (idRow ids j)) * ow (ix2 j o) := by
  have hsub : (Finset.univ.image (idRow ids)) ⊆ (Finset.univ : Finset (Fin 4096)) := Finset.subset_univ _
  rw [← Finset.sum_subset hsub, Finset.sum_image (fun a _ b _ hab => idRow_injective ids hr hinj hab)]
  · refine Finset.sum_congr rfl fun j _ => ?_
    have h : isOutlier ids (idRow ids j) := (isOutlier_iff ids hr _).2 ⟨j, rfl⟩
    simp only [corr, dif_pos h, choose_idRow ids hr hinj j h]
  · intro k _ hk
    have h : ¬ isOutlier ids k := by
      intro hc
      obtain ⟨j, hj⟩ := (isOutlier_iff ids hr k).1 hc
      exact hk (Finset.mem_image.2 ⟨j, Finset.mem_univ _, hj⟩)
    simp only [corr, dif_neg h]

theorem kernelOut_eq_refOut (x2 : FVec Ideal SX2 .f32) (wd : Fin 4096 → Fin 4096 → EReal) (ow : FVec Ideal SOW .f32)
    (ids : IVec SID 32) (bias : FVec Ideal SB .f32)
    (hr : ∀ j : Fin 32, (ids (ix1 j)).toNat < 4096) (hinj : Function.Injective fun j : Fin 32 => ids (ix1 j))
    (r : Fin 8192) (o : Fin 4096) :
    kernelOut x2 wd ow ids bias r o = refOut x2 wd ow ids bias r o := by
  unfold kernelOut refOut
  rw [sum_blocks (fun k => x2 (ix2 r k) * weightMasked wd ids k o)]
  congr 1
  rw [Finset.sum_congr rfl (fun k _ => term_split x2 wd ow ids r o k), Finset.sum_add_distrib,
    sum_corr x2 ow ids hr hinj r o, add_comm]

end Cert.QuantSpec

end
-- ==== Proof.lean ====
/-
  A 4-bit quantised linear layer with 32 full-precision outlier rows: `out = x · w + bias`, where `w` is the
  dequantised matrix `(nibble − zero point) · scale` with row `ids[j]` replaced by `ow[j, :]`.

  The reference overwrites the 32 rows and takes one product. The kernel zeroes the 32 rows with a 0/1 column (built
  by comparing every row number with every `ids[j]`), multiplies in 8 blocks of 512 input rows on top of the rank-32
  product `x[:, ids] · ow`, and adds the bias. For row numbers in `[0, 4096)` that are pairwise distinct — the domain
  on which overwriting rows by a scatter is determined at all — the two are one function over the extended reals:
  a zeroed row contributes `x · 0 = 0`, and each outlier row contributes its one term `x[r, ids[j]] · ow[j, o]`
  to either side; only the commutative-monoid laws of `+` are used besides.

  The frames: both kernel programs run their two regions between stretches of host operations; the first region
  stores one block per point, the second carries its accumulator from point to point and stores its output block at
  the last point of each tile. The reference's frame is its run with the result dropped.
-/
import proofs.«419512_j42674795053346_3_alg».proof.Defs
import proofs.«419512_j42674795053346_3_alg».proof.Proof.Gen.Kernel
import proofs.«419512_j42674795053346_3_alg».proof.Proof.Gen.KernelIdeal
import proofs.«419512_j42674795053346_3_alg».proof.Proof.Gen.ReferenceIdeal
import proofs.«419512_j42674795053346_3_alg».proof.Proof.Gen.Pre_finite_inputs
import proofs.«419512_j42674795053346_3_alg».proof.Proof.BitsKRun
import proofs.«419512_j42674795053346_3_alg».proof.Proof.KRun
import proofs.«419512_j42674795053346_3_alg».proof.Proof.KValue
import proofs.«419512_j42674795053346_3_alg».proof.Proof.RefVal
import proofs.«419512_j42674795053346_3_alg».proof.Proof.PreDecode
import proofs.«419512_j42674795053346_3_alg».proof.Proof.Algebra
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Hand.frame m ρ

/-- So does the idealized one: the same run read at the extended reals. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.RefValue.ref_run m ρ)

/-- From arguments that agree, with the 32 row numbers in range and pairwise distinct (read off the precondition),
    the kernel's result buffer holds `kernelOut` and the reference's `refOut` of the same arrays, and the two are
    equal entry by entry. -/
theorem algebraic : Cert.algebraic_KernelIdeal_ReferenceIdeal := by
  intro m ρ m' ρ' hpre hagree
  refine ⟨fun c => Cert.KernelIdeal.Hand.W8 m ρ c (Proc.devRef .tc Cert.KernelIdeal.main_v30),
    Cert.KernelIdeal.Hand.run_result m ρ, ?_⟩
  refine (θ_run Cert.ReferenceIdeal.defs _ _).mono (fun _ h c => ⟨(h c).1.trans ?_, (h c).2⟩)
    (Cert.RefValue.ref_run m' ρ')
  obtain ⟨-, hr, hinj⟩ := Cert.PreDecode.ids_of_pre _ _ _ _ _ _ _ (hpre c)
  rw [(hagree c).1, (hagree c).2.1, (hagree c).2.2.1, (hagree c).2.2.2.1, (hagree c).2.2.2.2.1,
    (hagree c).2.2.2.2.2.1, (hagree c).2.2.2.2.2.2]
  refine (Cert.RefValue.ref_result _ _ _ _ _ _ _ hr hinj).trans
    (Eq.trans ?_ (Cert.KernelIdeal.Hand.kernel_result m ρ c hr).symm)
  funext i
  exact (Cert.QuantSpec.kernelOut_eq_refOut _ _ _ _ _ hr hinj _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
